-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)) (v1 : (c : Dev Cert.KernelIdeal.nD) → Buf (Elt Ideal) ((c.tc : Thread Cert.KernelIdeal.nD Cert.KernelIdeal.τ).loc Cert.KernelIdeal.main_v31)) (v2 : (c : Dev Cert.KernelIdeal.nD) → Buf (Elt Ideal) ((c.tc : Thread Cert.KernelIdeal.nD Cert.KernelIdeal.τ).loc Cert.KernelIdeal.main_v98)) (v3 : (c : Dev Cert.KernelIdeal.nD) → Buf (Elt Ideal) ((c.tc : Thread Cert.KernelIdeal.nD Cert.KernelIdeal.τ).loc Cert.KernelIdeal.main_v89)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_v31) = v1 c
          ∧ r.2.mem ((c.tc : Thread Cert.KernelIdeal.nD Cert.KernelIdeal.τ).loc Cert.KernelIdeal.main_v98) = v2 c
          ∧ r.2.mem ((c.tc : Thread Cert.KernelIdeal.nD Cert.KernelIdeal.τ).loc Cert.KernelIdeal.main_v89) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v111) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_v148) = v2 c
          ∧ r.2.mem ((c.tc : Thread Cert.ReferenceIdeal.nD Cert.ReferenceIdeal.τ).loc Cert.ReferenceIdeal.main_v157) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S480x640x9 : Shape := ⟨3, ![480, 640, 9]⟩
abbrev S480x640x9x8x3 : Shape := ⟨5, ![480, 640, 9, 8, 3]⟩
abbrev S480x640x9x8 : Shape := ⟨4, ![480, 640, 9, 8]⟩
abbrev S256x256x256 : Shape := ⟨3, ![256, 256, 256]⟩
abbrev S_ : Shape := ⟨0, ![]⟩

class Facts : Prop where
  bcast_S_S480x640x9 : S_.BroadcastsInDim S480x640x9 (![] : Fin 0 → Fin S480x640x9.rank)
  reducesTo_S480x640x9_S_d0_1_2 : S480x640x9.ReducesTo [0, 1, 2] S_
  h_S_ : 0 < S_.numel
  bcast_S_S480x640x9x8 : S_.BroadcastsInDim S480x640x9x8 (![] : Fin 0 → Fin S480x640x9x8.rank)
  reducesTo_S480x640x9x8_S_d0_1_2_3 : S480x640x9x8.ReducesTo [0, 1, 2, 3] S_
  bcast_S_S256x256x256 : S_.BroadcastsInDim S256x256x256 (![] : Fin 0 → Fin S256x256x256.rank)
  reducesTo_S256x256x256_S_d0_1_2 : S256x256x256.ReducesTo [0, 1, 2] S_

variable [Facts]

def fn_part1 {F : FTy → Type} [FloatOps F] (main_arg6 : FVec F S256x256x256 .f32) (main_arg8 : FVec F S256x256x256 .f32) (main_v13 : IVec S_ 1) (main_v16 : IVec S256x256x256 1) : IVec S_ 1 :=
  let main_c_5 : IVec S_ 1 := constantI S_ 1 1#1
  let main_v17 : IVec S_ 1 := (fun x v => Host.reduce IntOp.andi x v reducesTo_S256x256x256_S_d0_1_2 h_S_) main_v16 main_c_5
  let main_v18 : IVec S_ 1 := andi main_v13 main_v17
  let main_v19 : FVec F S256x256x256 .f32 := Host.absf main_arg6
  let main_cst_6 : FVec F S_ .f32 := constant S_ .f32 0x7F800000#32
  let main_v20 : FVec F S256x256x256 .f32 := broadcastInDim S256x256x256 ![] bcast_S_S256x256x256 main_cst_6
  let main_v21 : IVec S256x256x256 1 := cmpf .olt main_v19 main_v20
  let main_c_7 : IVec S_ 1 := constantI S_ 1 1#1
  let main_v22 : IVec S_ 1 := (fun x v => Host.reduce IntOp.andi x v reducesTo_S256x256x256_S_d0_1_2 h_S_) main_v21 main_c_7
  let main_v23 : IVec S_ 1 := andi main_v18 main_v22
  let main_v24 : FVec F S256x256x256 .f32 := Host.absf main_arg8
  let main_cst_8 : FVec F S_ .f32 := constant S_ .f32 0x7F800000#32
  let main_v25 : FVec F S256x256x256 .f32 := broadcastInDim S256x256x256 ![] bcast_S_S256x256x256 main_cst_8
  let main_v26 : IVec S256x256x256 1 := cmpf .olt main_v24 main_v25
  let main_c_9 : IVec S_ 1 := constantI S_ 1 1#1
  let main_v27 : IVec S_ 1 := (fun x v => Host.reduce IntOp.andi x v reducesTo_S256x256x256_S_d0_1_2 h_S_) main_v26 main_c_9
  let main_v28 : IVec S_ 1 := andi main_v23 main_v27
  main_v28

def fn {F : FTy → Type} [FloatOps F] (main_arg0 : FVec F S480x640x9 .f32) (main_arg1 : IVec S480x640x9x8x3 32) (main_arg2 : FVec F S480x640x9x8 .f32) (main_arg3 : IVec S480x640x9 32) (main_arg4 : FVec F S480x640x9 .f32) (main_arg5 : FVec F S256x256x256 .f32) (main_arg6 : FVec F S256x256x256 .f32) (main_arg7 : IVec S256x256x256 32) (main_arg8 : FVec F S256x256x256 .f32) : IVec S_ 1 :=
  let main_v0 : FVec F S480x640x9 .f32 := Host.absf main_arg0
  let main_cst : FVec F S_ .f32 := constant S_ .f32 0x7F800000#32
  let main_v1 : FVec F S480x640x9 .f32 := broadcastInDim S480x640x9 ![] bcast_S_S480x640x9 main_cst
  let main_v2 : IVec S480x640x9 1 := cmpf .olt main_v0 main_v1
  let main_c : IVec S_ 1 := constantI S_ 1 1#1
  let main_v3 : IVec S_ 1 := (fun x v => Host.reduce IntOp.andi x v reducesTo_S480x640x9_S_d0_1_2 h_S_) main_v2 main_c
  let main_v4 : FVec F S480x640x9x8 .f32 := Host.absf main_arg2
  let main_cst_0 : FVec F S_ .f32 := constant S_ .f32 0x7F800000#32
  let main_v5 : FVec F S480x640x9x8 .f32 := broadcastInDim S480x640x9x8 ![] bcast_S_S480x640x9x8 main_cst_0
  let main_v6 : IVec S480x640x9x8 1 := cmpf .olt main_v4 main_v5
  let main_c_1 : IVec S_ 1 := constantI S_ 1 1#1
  let main_v7 : IVec S_ 1 := (fun x v => Host.reduce IntOp.andi x v reducesTo_S480x640x9x8_S_d0_1_2_3 h_S_) main_v6 main_c_1
  let main_v8 : IVec S_ 1 := andi main_v3 main_v7
  let main_v9 : FVec F S480x640x9 .f32 := Host.absf main_arg4
  let main_cst_2 : FVec F S_ .f32 := constant S_ .f32 0x7F800000#32
  let main_v10 : FVec F S480x640x9 .f32 := broadcastInDim S480x640x9 ![] bcast_S_S480x640x9 main_cst_2
  let main_v11 : IVec S480x640x9 1 := cmpf .olt main_v9 main_v10
  let main_c_3 : IVec S_ 1 := constantI S_ 1 1#1
  let main_v12 : IVec S_ 1 := (fun x v => Host.reduce IntOp.andi x v reducesTo_S480x640x9_S_d0_1_2 h_S_) main_v11 main_c_3
  let main_v13 : IVec S_ 1 := andi main_v8 main_v12
  let main_v14 : FVec F S256x256x256 .f32 := Host.absf main_arg5
  let main_cst_4 : FVec F S_ .f32 := constant S_ .f32 0x7F800000#32
  let main_v15 : FVec F S256x256x256 .f32 := broadcastInDim S256x256x256 ![] bcast_S_S256x256x256 main_cst_4
  let main_v16 : IVec S256x256x256 1 := cmpf .olt main_v14 main_v15
  fn_part1 (F := F) main_arg6 main_arg8 main_v13 main_v16
-- ==== Kernel.lean ====
abbrev S480x640x9 : Shape := ⟨3, ![480, 640, 9]⟩
abbrev S480x640x9x8x3 : Shape := ⟨5, ![480, 640, 9, 8, 3]⟩
abbrev S480x640x9x8 : Shape := ⟨4, ![480, 640, 9, 8]⟩
abbrev S256x256x256 : Shape := ⟨3, ![256, 256, 256]⟩
abbrev S22118400x3 : Shape := ⟨2, ![22118400, 3]⟩
abbrev S3x22118400 : Shape := ⟨2, ![3, 22118400]⟩
abbrev S3x172800x128 : Shape := ⟨3, ![3, 172800, 128]⟩
abbrev S172800x128 : Shape := ⟨2, ![172800, 128]⟩
abbrev S2764800 : Shape := ⟨1, ![2764800]⟩
abbrev S2764800x8 : Shape := ⟨2, ![2764800, 8]⟩
abbrev S22118400 : Shape := ⟨1, ![22118400]⟩
abbrev S3x2880x128 : Shape := ⟨3, ![3, 2880, 128]⟩
abbrev S2880x128 : Shape := ⟨2, ![2880, 128]⟩
abbrev S1x2880x128 : Shape := ⟨3, ![1, 2880, 128]⟩
abbrev S_ : Shape := ⟨0, ![]⟩
abbrev S16777217 : Shape := ⟨1, ![16777217]⟩
abbrev S22118400x1 : Shape := ⟨2, ![22118400, 1]⟩
abbrev S16777216 : Shape := ⟨1, ![16777216]⟩
abbrev S131072x128 : Shape := ⟨2, ![131072, 128]⟩
abbrev S4096x128 : Shape := ⟨2, ![4096, 128]⟩
abbrev S1 : Shape := ⟨1, ![1]⟩
abbrev S1x1 : Shape := ⟨2, ![1, 1]⟩

abbrev nBuf : Space → Nat
  | .hbm => 133
  | .vmem => 44
  | .smem => 0
  | _ => 0

abbrev hbmTy0_0 (i : Nat) : BufTy := match i % 128 with
  | 0 => ⟨S480x640x9, .f32⟩
  | 1 => ⟨S480x640x9x8x3, .i32⟩
  | 2 => ⟨S480x640x9x8, .f32⟩
  | 3 => ⟨S480x640x9, .i32⟩
  | 4 => ⟨S480x640x9, .f32⟩
  | 5 => ⟨S256x256x256, .f32⟩
  | 6 => ⟨S256x256x256, .f32⟩
  | 7 => ⟨S256x256x256, .i32⟩
  | 8 => ⟨S256x256x256, .f32⟩
  | 9 => ⟨S22118400x3, .i32⟩
  | 10 => ⟨S3x22118400, .i32⟩
  | 11 => ⟨S3x172800x128, .i32⟩
  | 12 => ⟨S172800x128, .f32⟩
  | 13 => ⟨S2764800, .f32⟩
  | 14 => ⟨S2764800x8, .f32⟩
  | 15 => ⟨S22118400, .f32⟩
  | 16 => ⟨S172800x128, .f32⟩
  | 17 => ⟨S172800x128, .i32⟩
  | 18 => ⟨S172800x128, .f32⟩
  | 19 => ⟨S172800x128, .f32⟩
  | 20 => ⟨S172800x128, .f32⟩
  | 21 => ⟨S22118400, .i32⟩
  | 22 => ⟨S22118400, .f32⟩
  | 23 => ⟨S22118400, .f32⟩
  | 24 => ⟨S22118400, .f32⟩
  | 25 => ⟨S_, .f32⟩
  | 26 => ⟨S16777217, .f32⟩
  | 27 => ⟨S22118400x1, .i32⟩
  | 28 => ⟨S16777217, .f32⟩
  | 29 => ⟨S_, .f32⟩
  | 30 => ⟨S16777217, .f32⟩
  | 31 => ⟨S22118400x1, .i32⟩
  | 32 => ⟨S16777217, .f32⟩
  | 33 => ⟨S_, .f32⟩
  | 34 => ⟨S16777217, .f32⟩
  | 35 => ⟨S22118400x1, .i32⟩
  | 36 => ⟨S16777217, .f32⟩
  | 37 => ⟨S16777216, .f32⟩
  | 38 => ⟨S16777216, .f32⟩
  | 39 => ⟨S16777216, .f32⟩
  | 40 => ⟨S131072x128, .f32⟩
  | 41 => ⟨S131072x128, .f32⟩
  | 42 => ⟨S131072x128, .f32⟩
  | 43 => ⟨S131072x128, .f32⟩
  | 44 => ⟨S131072x128, .f32⟩
  | 45 => ⟨S131072x128, .f32⟩
  | 46 => ⟨S131072x128, .f32⟩
  | 47 => ⟨S256x256x256, .f32⟩
  | 48 => ⟨S256x256x256, .f32⟩
  | 49 => ⟨S2764800, .i32⟩
  | 50 => ⟨S2764800x8, .i32⟩
  | 51 => ⟨S22118400, .i32⟩
  | 52 => ⟨S2764800, .f32⟩
  | 53 => ⟨S2764800x8, .f32⟩
  | 54 => ⟨S22118400, .f32⟩
  | 55 => ⟨S16777216, .i32⟩
  | 56 => ⟨S_, .i32⟩
  | 57 => ⟨S22118400, .i32⟩
  | 58 => ⟨S22118400, .i1⟩
  | 59 => ⟨S_, .i32⟩
  | 60 => ⟨S22118400, .i32⟩
  | 61 => ⟨S22118400, .i32⟩
  | 62 => ⟨S22118400, .i32⟩
  | 63 => ⟨S22118400x1, .i32⟩
  | 64 => ⟨S1, .i32⟩
  | 65 => ⟨S_, .i32⟩
  | 66 => ⟨S22118400x1, .i32⟩
  | 67 => ⟨S22118400x1, .i1⟩
  | 68 => ⟨S1x1, .i32⟩
  | 69 => ⟨S22118400x1, .i32⟩
  | 70 => ⟨S22118400x1, .i1⟩
  | 71 => ⟨S22118400x1, .i1⟩
  | 72 => ⟨S_, .i1⟩
  | 73 => ⟨S22118400, .i1⟩
  | 74 => ⟨S22118400, .i32⟩
  | 75 => ⟨S_, .i32⟩
  | 76 => ⟨S22118400, .i32⟩
  | 77 => ⟨S22118400, .i32⟩
  | 78 => ⟨S16777216, .f32⟩
  | 79 => ⟨S_, .i32⟩
  | 80 => ⟨S22118400, .i32⟩
  | 81 => ⟨S22118400, .i1⟩
  | 82 => ⟨S_, .i32⟩
  | 83 => ⟨S22118400, .i32⟩
  | 84 => ⟨S22118400, .i32⟩
  | 85 => ⟨S22118400, .i32⟩
  | 86 => ⟨S22118400x1, .i32⟩
  | 87 => ⟨S1, .i32⟩
  | 88 => ⟨S_, .i32⟩
  | 89 => ⟨S22118400x1, .i32⟩
  | 90 => ⟨S22118400x1, .i1⟩
  | 91 => ⟨S1x1, .i32⟩
  | 92 => ⟨S22118400x1, .i32⟩
  | 93 => ⟨S22118400x1, .i1⟩
  | 94 => ⟨S22118400x1, .i1⟩
  | 95 => ⟨S_, .i1⟩
  | 96 => ⟨S22118400, .i1⟩
  | 97 => ⟨S22118400, .f32⟩
  | 98 => ⟨S_, .f32⟩
  | 99 => ⟨S22118400, .f32⟩
  | 100 => ⟨S22118400, .f32⟩
  | 101 => ⟨S172800x128, .i32⟩
  | 102 => ⟨S172800x128, .f32⟩
  | 103 => ⟨S172800x128, .i32⟩
  | 104 => ⟨S172800x128, .f32⟩
  | 105 => ⟨S172800x128, .f32⟩
  | 106 => ⟨S172800x128, .i32⟩
  | 107 => ⟨S172800x128, .i32⟩
  | 108 => ⟨S22118400, .f32⟩
  | 109 => ⟨S22118400, .i32⟩
  | 110 => ⟨S22118400, .i32⟩
  | 111 => ⟨S16777216, .f32⟩
  | 112 => ⟨S_, .i32⟩
  | 113 => ⟨S22118400, .i32⟩
  | 114 => ⟨S22118400, .i1⟩
  | 115 => ⟨S_, .i32⟩
  | 116 => ⟨S22118400, .i32⟩
  | 117 => ⟨S22118400, .i32⟩
  | 118 => ⟨S22118400, .i32⟩
  | 119 => ⟨S22118400x1, .i32⟩
  | 120 => ⟨S16777216, .f32⟩
  | 121 => ⟨S256x256x256, .f32⟩
  | 122 => ⟨S16777216, .i32⟩
  | 123 => ⟨S_, .i32⟩
  | 124 => ⟨S22118400, .i32⟩
  | 125 => ⟨S22118400, .i1⟩
  | 126 => ⟨S_, .i32⟩
  | 127 => ⟨S22118400, .i32⟩
  | _ => ⟨S480x640x9, .f32⟩

abbrev hbmTy0_1 (i : Nat) : BufTy := match i % 128 with
  | 0 => ⟨S22118400, .i32⟩
  | 1 => ⟨S22118400, .i32⟩
  | 2 => ⟨S22118400x1, .i32⟩
  | 3 => ⟨S16777216, .i32⟩
  | 4 => ⟨S256x256x256, .i32⟩
  | _ => ⟨S480x640x9, .f32⟩

abbrev hbmTy (i : Nat) : BufTy := match i / 128 with
  | 0 => hbmTy0_0 i
  | 1 => hbmTy0_1 i
  | _ => ⟨S480x640x9, .f32⟩

abbrev bufTy : (tb : Table) → Fin (tcTables nBuf tb) → BufTy
  | .hbm, ⟨i, _⟩ => hbmTy i
  | .local _ .vmem, ⟨0, _⟩ => ⟨S3x2880x128, .i32⟩
  | .local _ .vmem, ⟨1, _⟩ => ⟨S3x2880x128, .i32⟩
  | .local _ .vmem, ⟨2, _⟩ => ⟨S2880x128, .f32⟩
  | .local _ .vmem, ⟨3, _⟩ => ⟨S2880x128, .f32⟩
  | .local _ .vmem, ⟨4, _⟩ => ⟨S2880x128, .f32⟩
  | .local _ .vmem, ⟨5, _⟩ => ⟨S2880x128, .f32⟩
  | .local _ .vmem, ⟨6, _⟩ => ⟨S2880x128, .i32⟩
  | .local _ .vmem, ⟨7, _⟩ => ⟨S2880x128, .i32⟩
  | .local _ .vmem, ⟨8, _⟩ => ⟨S2880x128, .f32⟩
  | .local _ .vmem, ⟨9, _⟩ => ⟨S2880x128, .f32⟩
  | .local _ .vmem, ⟨10, _⟩ => ⟨S2880x128, .f32⟩
  | .local _ .vmem, ⟨11, _⟩ => ⟨S2880x128, .f32⟩
  | .local _ .vmem, ⟨12, _⟩ => ⟨S2880x128, .f32⟩
  | .local _ .vmem, ⟨13, _⟩ => ⟨S2880x128, .f32⟩
  | .local _ .vmem, ⟨14, _⟩ => ⟨S4096x128, .f32⟩
  | .local _ .vmem, ⟨15, _⟩ => ⟨S4096x128, .f32⟩
  | .local _ .vmem, ⟨16, _⟩ => ⟨S4096x128, .f32⟩
  | .local _ .vmem, ⟨17, _⟩ => ⟨S4096x128, .f32⟩
  | .local _ .vmem, ⟨18, _⟩ => ⟨S4096x128, .f32⟩
  | .local _ .vmem, ⟨19, _⟩ => ⟨S4096x128, .f32⟩
  | .local _ .vmem, ⟨20, _⟩ => ⟨S4096x128, .f32⟩
  | .local _ .vmem, ⟨21, _⟩ => ⟨S4096x128, .f32⟩
  | .local _ .vmem, ⟨22, _⟩ => ⟨S4096x128, .f32⟩
  | .local _ .vmem, ⟨23, _⟩ => ⟨S4096x128, .f32⟩
  | .local _ .vmem, ⟨24, _⟩ => ⟨S4096x128, .f32⟩
  | .local _ .vmem, ⟨25, _⟩ => ⟨S4096x128, .f32⟩
  | .local _ .vmem, ⟨26, _⟩ => ⟨S4096x128, .f32⟩
  | .local _ .vmem, ⟨27, _⟩ => ⟨S4096x128, .f32⟩
  | .local _ .vmem, ⟨28, _⟩ => ⟨S2880x128, .i32⟩
  | .local _ .vmem, ⟨29, _⟩ => ⟨S2880x128, .i32⟩
  | .local _ .vmem, ⟨30, _⟩ => ⟨S2880x128, .i32⟩
  | .local _ .vmem, ⟨31, _⟩ => ⟨S2880x128, .i32⟩
  | .local _ .vmem, ⟨32, _⟩ => ⟨S2880x128, .f32⟩
  | .local _ .vmem, ⟨33, _⟩ => ⟨S2880x128, .f32⟩
  | .local _ .vmem, ⟨34, _⟩ => ⟨S2880x128, .i32⟩
  | .local _ .vmem, ⟨35, _⟩ => ⟨S2880x128, .i32⟩
  | .local _ .vmem, ⟨36, _⟩ => ⟨S2880x128, .f32⟩
  | .local _ .vmem, ⟨37, _⟩ => ⟨S2880x128, .f32⟩
  | .local _ .vmem, ⟨38, _⟩ => ⟨S2880x128, .f32⟩
  | .local _ .vmem, ⟨39, _⟩ => ⟨S2880x128, .f32⟩
  | .local _ .vmem, ⟨40, _⟩ => ⟨S2880x128, .i32⟩
  | .local _ .vmem, ⟨41, _⟩ => ⟨S2880x128, .i32⟩
  | .local _ .vmem, ⟨42, _⟩ => ⟨S2880x128, .i32⟩
  | .local _ .vmem, ⟨43, _⟩ => ⟨S2880x128, .i32⟩
  | _, _ => ⟨S480x640x9, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | _, _ => false

abbrev semScoped : Fin 0 → Bool
  | ⟨_, h⟩ => absurd h (Nat.not_lt_zero _)

abbrev dmaSemScoped : Fin 44 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | _ => false

abbrev sig : RefSig :=
  ofTc nBuf bufTy 0 44 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v8_3 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_cst_0 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst_1 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30_0 : Ref sig .tc := ⟨.hbm, 45, rfl⟩
abbrev main_v30_1 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_c : Ref sig .tc := ⟨.hbm, 56, rfl⟩
abbrev main_v40 : Ref sig .tc := ⟨.hbm, 57, rfl⟩
abbrev main_v41 : Ref sig .tc := ⟨.hbm, 58, rfl⟩
abbrev main_c_2 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_c_3 : Ref sig .tc := ⟨.hbm, 64, rfl⟩
abbrev main_c_4 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_c_5 : Ref sig .tc := ⟨.hbm, 72, rfl⟩
abbrev main_v52 : Ref sig .tc := ⟨.hbm, 73, rfl⟩
abbrev main_v53 : Ref sig .tc := ⟨.hbm, 74, rfl⟩
abbrev main_c_6 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_c_7 : Ref sig .tc := ⟨.hbm, 79, rfl⟩
abbrev main_v57 : Ref sig .tc := ⟨.hbm, 80, rfl⟩
abbrev main_v58 : Ref sig .tc := ⟨.hbm, 81, rfl⟩
abbrev main_c_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_c_9 : Ref sig .tc := ⟨.hbm, 87, rfl⟩
abbrev main_c_10 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩
abbrev main_c_11 : Ref sig .tc := ⟨.hbm, 95, rfl⟩
abbrev main_v69 : Ref sig .tc := ⟨.hbm, 96, rfl⟩
abbrev main_v70 : Ref sig .tc := ⟨.hbm, 97, rfl⟩
abbrev main_cst_12 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩
abbrev main_v74 : Ref sig .tc := ⟨.hbm, 102, rfl⟩
abbrev main_v75 : Ref sig .tc := ⟨.hbm, 103, rfl⟩
abbrev main_v76 : Ref sig .tc := ⟨.hbm, 104, rfl⟩
abbrev main_v77_0 : Ref sig .tc := ⟨.hbm, 105, rfl⟩
abbrev main_v77_1 : Ref sig .tc := ⟨.hbm, 106, rfl⟩
abbrev main_v77_2 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_c_13 : Ref sig .tc := ⟨.hbm, 112, rfl⟩
abbrev main_v82 : Ref sig .tc := ⟨.hbm, 113, rfl⟩
abbrev main_v83 : Ref sig .tc := ⟨.hbm, 114, rfl⟩
abbrev main_c_14 : Ref sig .tc := ⟨.hbm, 115, rfl⟩
abbrev main_v84 : Ref sig .tc := ⟨.hbm, 116, rfl⟩
abbrev main_v85 : Ref sig .tc := ⟨.hbm, 117, rfl⟩
abbrev main_v86 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_v90 : Ref sig .tc := ⟨.hbm, 122, rfl⟩
abbrev main_c_15 : Ref sig .tc := ⟨.hbm, 123, rfl⟩
abbrev main_v91 : Ref sig .tc := ⟨.hbm, 124, rfl⟩
abbrev main_v92 : Ref sig .tc := ⟨.hbm, 125, rfl⟩
abbrev main_c_16 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg3_1 : Ref sig .tc := ⟨.vmem, 21, rfl⟩
abbrev cc1_stg4_0 : Ref sig .tc := ⟨.vmem, 22, rfl⟩
abbrev cc1_stg4_1 : Ref sig .tc := ⟨.vmem, 23, rfl⟩
abbrev cc1_stg5_0 : Ref sig .tc := ⟨.vmem, 24, rfl⟩
abbrev cc1_stg5_1 : Ref sig .tc := ⟨.vmem, 25, rfl⟩
abbrev cc1_stg6_0 : Ref sig .tc := ⟨.vmem, 26, rfl⟩
abbrev cc1_stg6_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg4_1 : Ref sig .tc := ⟨.vmem, 37, rfl⟩
abbrev cc2_stg5_0 : Ref sig .tc := ⟨.vmem, 38, rfl⟩
abbrev cc2_stg5_1 : Ref sig .tc := ⟨.vmem, 39, rfl⟩
abbrev cc2_stg6_0 : Ref sig .tc := ⟨.vmem, 40, rfl⟩
abbrev cc2_stg6_1 : Ref sig .tc := ⟨.vmem, 41, rfl⟩
abbrev cc2_stg7_0 : Ref sig .tc := ⟨.vmem, 42, rfl⟩
abbrev cc2_stg7_1 : Ref sig .tc := ⟨.vmem, 43, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem3_1 : DmaSem sig := 21
abbrev cc1_sem4_0 : DmaSem sig := 22
abbrev cc1_sem4_1 : DmaSem sig := 23
abbrev cc1_sem5_0 : DmaSem sig := 24
abbrev cc1_sem5_1 : DmaSem sig := 25
abbrev cc1_sem6_0 : DmaSem sig := 26
abbrev cc1_sem6_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem4_1 : DmaSem sig := 37
abbrev cc2_sem5_0 : DmaSem sig := 38
abbrev cc2_sem5_1 : DmaSem sig := 39
abbrev cc2_sem6_0 : DmaSem sig := 40
abbrev cc2_sem6_1 : DmaSem sig := 41
abbrev cc2_sem7_0 : DmaSem sig := 42
abbrev cc2_sem7_1 : DmaSem sig := 43

abbrev nD : Nat := 1
abbrev τ : Topo := Topo.v7x

variable {F : FTy → Type} [FloatOps F]

abbrev grid0 : Pipeline.Grid := ⟨1, ![60], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S3x2880x128 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2880x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S2880x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2880x128 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S2880x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S2880x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2880x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![32], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4096x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4096x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S4096x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S4096x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S4096x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S4096x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S4096x128 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![60], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_6 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_7 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2880x128 .i32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2880x128 .i32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S2880x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2880x128 .i32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2880x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2880x128 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

abbrev stage2_6 : Fin 2 → Memref sig .tc .vmem S2880x128 .i32 := fun | 0 => Memref.whole cc2_stg6_0 | 1 => Memref.whole cc2_stg6_1 | ⟨_ + 2, h⟩ => absurd h (Nat.not_lt.2 (Nat.le_add_left _ _))
abbrev sem2_6 : Fin 2 → DmaSem sig := fun | 0 => cc2_sem6_0 | 1 => cc2_sem6_1 | ⟨_ + 2, h⟩ => absurd h (Nat.not_lt.2 (Nat.le_add_left _ _))
abbrev reads2_6 : Fin grid2.rank → Bool := ![true]

abbrev stage2_7 : Fin 2 → Memref sig .tc .vmem S2880x128 .i32 := fun | 0 => Memref.whole cc2_stg7_0 | 1 => Memref.whole cc2_stg7_1 | ⟨_ + 2, h⟩ => absurd h (Nat.not_lt.2 (Nat.le_add_left _ _))
abbrev sem2_7 : Fin 2 → DmaSem sig := fun | 0 => cc2_sem7_0 | 1 => cc2_sem7_1 | ⟨_ + 2, h⟩ => absurd h (Nat.not_lt.2 (Nat.le_add_left _ _))
abbrev reads2_7 : Fin grid2.rank → Bool := ![true]

class Facts₀ : Prop where
  shapeCasts_S480x640x9x8x3_S22118400x3 : S480x640x9x8x3.ShapeCasts S22118400x3
  transposes_S22118400x3_S3x22118400_1_0 : S22118400x3.Transposes [1, 0] S3x22118400
  shapeCasts_S3x22118400_S3x172800x128 : S3x22118400.ShapeCasts S3x172800x128
  shapeCasts_S480x640x9x8_S172800x128 : S480x640x9x8.ShapeCasts S172800x128
  shapeCasts_S480x640x9_S2764800 : S480x640x9.ShapeCasts S2764800
  bcast_S2764800_S2764800x8_0 : S2764800.BroadcastsInDim S2764800x8 (![0] : Fin 1 → Fin S2764800x8.rank)
  shapeCasts_S2764800x8_S22118400 : S2764800x8.ShapeCasts S22118400
  shapeCasts_S22118400_S172800x128 : S22118400.ShapeCasts S172800x128
  inb_S3x2880x128_S1x2880x128_0_0_0 : ∀ a, (![0, 0, 0] : Fin 3 → Nat) a + S1x2880x128.size a ≤ S3x2880x128.size a
  h_S1x2880x128 : 0 < S1x2880x128.numel
  shapeCasts_S1x2880x128_S2880x128 : S1x2880x128.ShapeCasts S2880x128
  inb_S3x2880x128_S1x2880x128_1_0_0 : ∀ a, (![1, 0, 0] : Fin 3 → Nat) a + S1x2880x128.size a ≤ S3x2880x128.size a
  inb_S3x2880x128_S1x2880x128_2_0_0 : ∀ a, (![2, 0, 0] : Fin 3 → Nat) a + S1x2880x128.size a ≤ S3x2880x128.size a
  inb_S2880x128_S2880x128_0_0 : ∀ a, (![0, 0] : Fin 2 → Nat) a + S2880x128.size a ≤ S2880x128.size a
  h_S2880x128 : 0 < S2880x128.numel
  shapeCasts_S2880x128_S2880x128 : S2880x128.ShapeCasts S2880x128
  shapeCasts_S172800x128_S22118400 : S172800x128.ShapeCasts S22118400
  bcast_S_S16777217 : S_.BroadcastsInDim S16777217 (![] : Fin 0 → Fin S16777217.rank)
  bcast_S22118400_S22118400x1_0 : S22118400.BroadcastsInDim S22118400x1 (![0] : Fin 1 → Fin S22118400x1.rank)
  slices_S16777217_S16777216_0 : S16777217.Slices ![0] S16777216
  shapeCasts_S256x256x256_S131072x128 : S256x256x256.ShapeCasts S131072x128
  shapeCasts_S16777216_S131072x128 : S16777216.ShapeCasts S131072x128
  inb_S4096x128_S4096x128_0_0 : ∀ a, (![0, 0] : Fin 2 → Nat) a + S4096x128.size a ≤ S4096x128.size a
  h_S4096x128 : 0 < S4096x128.numel
  shapeCasts_S4096x128_S4096x128 : S4096x128.ShapeCasts S4096x128
  shapeCasts_S131072x128_S256x256x256 : S131072x128.ShapeCasts S256x256x256
  shapeCasts_S256x256x256_S16777216 : S256x256x256.ShapeCasts S16777216
  bcast_S_S22118400 : S_.BroadcastsInDim S22118400 (![] : Fin 0 → Fin S22118400.rank)
  bcast_S_S22118400x1 : S_.BroadcastsInDim S22118400x1 (![] : Fin 0 → Fin S22118400x1.rank)
  bcast_S1_S1x1_1 : S1.BroadcastsInDim S1x1 (![1] : Fin 1 → Fin S1x1.rank)
  bcast_S1x1_S22118400x1_0_1 : S1x1.BroadcastsInDim S22118400x1 (![0, 1] : Fin 2 → Fin S22118400x1.rank)
  reducesTo_S22118400x1_S22118400_d1 : S22118400x1.ReducesTo [1] S22118400
  h_S_ : 0 < S_.numel
  shapeCasts_S16777216_S256x256x256 : S16777216.ShapeCasts S256x256x256
  scatter_S16777217_S22118400x1_S22118400_n_0_0_1_wf : ScatterDims.WF S16777217 S22118400x1 S22118400 [] [0] [0] 1
  gather_S16777216_S22118400x1_S22118400_n_0_n_n_0_1_1_wf : GatherDims.WF S16777216 S22118400x1 S22118400 [] [0] [] [0] [] 1 ![1]
  scatter_S16777216_S22118400x1_S22118400_n_0_0_1_wf : ScatterDims.WF S16777216 S22118400x1 S22118400 [] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x2880x128.size a ≤ S3x172800x128.size a
  hwx0_0 : ∀ i : grid0.Coords, EltTy.bits .i32 = 32 ∨ (Rect.block (s := S3x172800x128) S3x2880x128.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2880x128.size a ≤ S172800x128.size a
  hwx0_1 : ∀ i : grid0.Coords, EltTy.bits .f32 = 32 ∨ (Rect.block (s := S172800x128) S2880x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2880x128.size a ≤ S172800x128.size a
  hwx0_2 : ∀ i : grid0.Coords, EltTy.bits .f32 = 32 ∨ (Rect.block (s := S172800x128) S2880x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2880x128.size a ≤ S172800x128.size a
  hwx0_3 : ∀ i : grid0.Coords, EltTy.bits .i32 = 32 ∨ (Rect.block (s := S172800x128) S2880x128.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2880x128.size a ≤ S172800x128.size a
  hwx0_4 : ∀ i : grid0.Coords, EltTy.bits .f32 = 32 ∨ (Rect.block (s := S172800x128) S2880x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2880x128.size a ≤ S172800x128.size a
  hwx0_5 : ∀ i : grid0.Coords, EltTy.bits .f32 = 32 ∨ (Rect.block (s := S172800x128) S2880x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2880x128.size a ≤ S172800x128.size a
  hwx0_6 : ∀ i : grid0.Coords, EltTy.bits .f32 = 32 ∨ (Rect.block (s := S172800x128) S2880x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4096x128.size a ≤ S131072x128.size a
  hwx1_0 : ∀ i : grid1.Coords, EltTy.bits .f32 = 32 ∨ (Rect.block (s := S131072x128) S4096x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4096x128.size a ≤ S131072x128.size a
  hwx1_1 : ∀ i : grid1.Coords, EltTy.bits .f32 = 32 ∨ (Rect.block (s := S131072x128) S4096x128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S4096x128.size a ≤ S131072x128.size a
  hwx1_2 : ∀ i : grid1.Coords, EltTy.bits .f32 = 32 ∨ (Rect.block (s := S131072x128) S4096x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4096x128.size a ≤ S131072x128.size a
  hwx1_3 : ∀ i : grid1.Coords, EltTy.bits .f32 = 32 ∨ (Rect.block (s := S131072x128) S4096x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S4096x128.size a ≤ S131072x128.size a
  hwx1_4 : ∀ i : grid1.Coords, EltTy.bits .f32 = 32 ∨ (Rect.block (s := S131072x128) S4096x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S4096x128.size a ≤ S131072x128.size a
  hwx1_5 : ∀ i : grid1.Coords, EltTy.bits .f32 = 32 ∨ (Rect.block (s := S131072x128) S4096x128.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S4096x128.size a ≤ S131072x128.size a
  hwx1_6 : ∀ i : grid1.Coords, EltTy.bits .f32 = 32 ∨ (Rect.block (s := S131072x128) S4096x128.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2880x128.size a ≤ S172800x128.size a
  hwx2_0 : ∀ i : grid2.Coords, EltTy.bits .i32 = 32 ∨ (Rect.block (s := S172800x128) S2880x128.size (cc2_transform_0 i) (hinb2_0 i)).WholeWords (EltTy.packing .i32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2880x128.size a ≤ S172800x128.size a
  hwx2_1 : ∀ i : grid2.Coords, EltTy.bits .i32 = 32 ∨ (Rect.block (s := S172800x128) S2880x128.size (cc2_transform_1 i) (hinb2_1 i)).WholeWords (EltTy.packing .i32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2880x128.size a ≤ S172800x128.size a
  hwx2_2 : ∀ i : grid2.Coords, EltTy.bits .f32 = 32 ∨ (Rect.block (s := S172800x128) S2880x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2880x128.size a ≤ S172800x128.size a
  hwx2_3 : ∀ i : grid2.Coords, EltTy.bits .i32 = 32 ∨ (Rect.block (s := S172800x128) S2880x128.size (cc2_transform_3 i) (hinb2_3 i)).WholeWords (EltTy.packing .i32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2880x128.size a ≤ S172800x128.size a
  hwx2_4 : ∀ i : grid2.Coords, EltTy.bits .f32 = 32 ∨ (Rect.block (s := S172800x128) S2880x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2880x128.size a ≤ S172800x128.size a
  hwx2_5 : ∀ i : grid2.Coords, EltTy.bits .f32 = 32 ∨ (Rect.block (s := S172800x128) S2880x128.size (cc2_transform_5 i) (hinb2_5 i)).WholeWords (EltTy.packing .f32)
  hstage2_6 : ∀ j, (stage2_6 j).IsWhole
  nbuf2_6 : grid2.bufCount reads2_6 false = 2
  hreads2_6 : ∀ i i' : grid2.Coords, (∀ a, reads2_6 a = true → i a = i' a) → cc2_transform_6 i = cc2_transform_6 i'
  hinb2_6 : ∀ (i : grid2.Coords) a, (cc2_transform_6 i a + 1) * S2880x128.size a ≤ S172800x128.size a
  hwx2_6 : ∀ i : grid2.Coords, EltTy.bits .i32 = 32 ∨ (Rect.block (s := S172800x128) S2880x128.size (cc2_transform_6 i) (hinb2_6 i)).WholeWords (EltTy.packing .i32)
  hstage2_7 : ∀ j, (stage2_7 j).IsWhole
  nbuf2_7 : grid2.bufCount reads2_7 false = 2
  hreads2_7 : ∀ i i' : grid2.Coords, (∀ a, reads2_7 a = true → i a = i' a) → cc2_transform_7 i = cc2_transform_7 i'
  hinb2_7 : ∀ (i : grid2.Coords) a, (cc2_transform_7 i a + 1) * S2880x128.size a ≤ S172800x128.size a
  hwx2_7 : ∀ i : grid2.Coords, EltTy.bits .i32 = 32 ∨ (Rect.block (s := S172800x128) S2880x128.size (cc2_transform_7 i) (hinb2_7 i)).WholeWords (EltTy.packing .i32)

variable [Facts₀]

def scatter_S16777217_S22118400x1_S22118400_n_0_0_1 : ScatterDims S16777217 S22118400x1 S22118400 where
  updateWindowDims := []
  insertedWindowDims := [0]
  scatterDimsToOperandDims := [0]
  indexVectorDim := 1
  wf := scatter_S16777217_S22118400x1_S22118400_n_0_0_1_wf
def gather_S16777216_S22118400x1_S22118400_n_0_n_n_0_1_1 : GatherDims S16777216 S22118400x1 S22118400 where
  offsetDims := []
  collapsedSliceDims := [0]
  operandBatchingDims := []
  startIndicesBatchingDims := []
  startIndexMap := [0]
  indexVectorDim := 1
  sliceSizes := ![1]
  wf := gather_S16777216_S22118400x1_S22118400_n_0_n_n_0_1_1_wf
def scatter_S16777216_S22118400x1_S22118400_n_0_0_1 : ScatterDims S16777216 S22118400x1 S22118400 where
  updateWindowDims := []
  insertedWindowDims := [0]
  scatterDimsToOperandDims := [0]
  indexVectorDim := 1
  wf := scatter_S16777216_S22118400x1_S22118400_n_0_0_1_wf

abbrev win0_0 : Pipeline.Window sig grid0 :=
  Pipeline.Window.ofSpec (Memref.whole main_v2) S3x2880x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S2880x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S2880x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S2880x128.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S2880x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S2880x128.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v8_3) S2880x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v25) S4096x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S4096x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v27) S4096x128.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v28) S4096x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v29) S4096x128.size cc1_transform_4 reads1_4 false false 2 stage1_4 sem1_4
    hrank1 hreads1_4 hinb1_4 nbuf1_4 (Memref.isWhole_whole _) hwx1_4 hstage1_4

abbrev win1_5 : Pipeline.Window sig grid1 :=
  Pipeline.Window.ofSpec (Memref.whole main_v30_0) S4096x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v30_1) S4096x128.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v8_0) S2880x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v73) S2880x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v74) S2880x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v75) S2880x128.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_v76) S2880x128.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v77_0) S2880x128.size cc2_transform_5 reads2_5 true false 2 stage2_5 sem2_5
    hrank2 hreads2_5 hinb2_5 nbuf2_5 (Memref.isWhole_whole _) hwx2_5 hstage2_5

abbrev win2_6 : Pipeline.Window sig grid2 :=
  Pipeline.Window.ofSpec (Memref.whole main_v77_1) S2880x128.size cc2_transform_6 reads2_6 true false 2 stage2_6 sem2_6
    hrank2 hreads2_6 hinb2_6 nbuf2_6 (Memref.isWhole_whole _) hwx2_6 hstage2_6

abbrev win2_7 : Pipeline.Window sig grid2 :=
  Pipeline.Window.ofSpec (Memref.whole main_v77_2) S2880x128.size cc2_transform_7 reads2_7 true false 2 stage2_7 sem2_7
    hrank2 hreads2_7 hinb2_7 nbuf2_7 (Memref.isWhole_whole _) hwx2_7 hstage2_7

abbrev win2 : Fin 8 → Pipeline.Window sig grid2 := fun | 0 => win2_0 | 1 => win2_1 | 2 => win2_2 | 3 => win2_3 | 4 => win2_4 | 5 => win2_5 | 6 => win2_6 | 7 => win2_7 | ⟨_ + 8, h⟩ => absurd h (Nat.not_lt.2 (Nat.le_add_left _ _))
abbrev spec2 : Fin 8 → Pipeline.WinSpec sig grid2.rank := fun w => (win2 w).toWinSpec

class Facts : Prop extends Facts₀ where

variable [Facts]
-- ==== ReferenceIdeal.lean ====
abbrev S480x640x9 : Shape := ⟨3, ![480, 640, 9]⟩
abbrev S480x640x9x8x3 : Shape := ⟨5, ![480, 640, 9, 8, 3]⟩
abbrev S480x640x9x8 : Shape := ⟨4, ![480, 640, 9, 8]⟩
abbrev S256x256x256 : Shape := ⟨3, ![256, 256, 256]⟩
abbrev S22118400x3 : Shape := ⟨2, ![22118400, 3]⟩
abbrev S22118400 : Shape := ⟨1, ![22118400]⟩
abbrev S2764800x1 : Shape := ⟨2, ![2764800, 1]⟩
abbrev S2764800x8 : Shape := ⟨2, ![2764800, 8]⟩
abbrev S22118400x1 : Shape := ⟨2, ![22118400, 1]⟩
abbrev S_ : Shape := ⟨0, ![]⟩
abbrev S16777216 : Shape := ⟨1, ![16777216]⟩

abbrev nBuf : Space → Nat
  | .hbm => 216
  | .vmem => 0
  | .smem => 0
  | _ => 0

abbrev hbmTy0_0 (i : Nat) : BufTy := match i % 128 with
  | 0 => ⟨S480x640x9, .f32⟩
  | 1 => ⟨S480x640x9x8x3, .i32⟩
  | 2 => ⟨S480x640x9x8, .f32⟩
  | 3 => ⟨S480x640x9, .i32⟩
  | 4 => ⟨S480x640x9, .f32⟩
  | 5 => ⟨S256x256x256, .f32⟩
  | 6 => ⟨S256x256x256, .f32⟩
  | 7 => ⟨S256x256x256, .i32⟩
  | 8 => ⟨S256x256x256, .f32⟩
  | 9 => ⟨S22118400x3, .i32⟩
  | 10 => ⟨S22118400, .f32⟩
  | 11 => ⟨S2764800x1, .f32⟩
  | 12 => ⟨S2764800x8, .f32⟩
  | 13 => ⟨S22118400, .f32⟩
  | 14 => ⟨S22118400x1, .i32⟩
  | 15 => ⟨S22118400, .i32⟩
  | 16 => ⟨S_, .i32⟩
  | 17 => ⟨S22118400, .i32⟩
  | 18 => ⟨S22118400, .i1⟩
  | 19 => ⟨S22118400x1, .i32⟩
  | 20 => ⟨S22118400, .i32⟩
  | 21 => ⟨S_, .i32⟩
  | 22 => ⟨S22118400, .i32⟩
  | 23 => ⟨S22118400, .i1⟩
  | 24 => ⟨S22118400, .i1⟩
  | 25 => ⟨S22118400x1, .i32⟩
  | 26 => ⟨S22118400, .i32⟩
  | 27 => ⟨S_, .i32⟩
  | 28 => ⟨S22118400, .i32⟩
  | 29 => ⟨S22118400, .i1⟩
  | 30 => ⟨S22118400, .i1⟩
  | 31 => ⟨S22118400x1, .i32⟩
  | 32 => ⟨S22118400, .i32⟩
  | 33 => ⟨S_, .i32⟩
  | 34 => ⟨S22118400, .i32⟩
  | 35 => ⟨S22118400, .i1⟩
  | 36 => ⟨S22118400, .i1⟩
  | 37 => ⟨S22118400x1, .i32⟩
  | 38 => ⟨S22118400, .i32⟩
  | 39 => ⟨S_, .i32⟩
  | 40 => ⟨S22118400, .i32⟩
  | 41 => ⟨S22118400, .i1⟩
  | 42 => ⟨S22118400, .i1⟩
  | 43 => ⟨S22118400x1, .i32⟩
  | 44 => ⟨S22118400, .i32⟩
  | 45 => ⟨S_, .i32⟩
  | 46 => ⟨S22118400, .i32⟩
  | 47 => ⟨S22118400, .i1⟩
  | 48 => ⟨S22118400, .i1⟩
  | 49 => ⟨S22118400x1, .i32⟩
  | 50 => ⟨S22118400, .i32⟩
  | 51 => ⟨S_, .i32⟩
  | 52 => ⟨S22118400, .i32⟩
  | 53 => ⟨S22118400, .i32⟩
  | 54 => ⟨S22118400x1, .i32⟩
  | 55 => ⟨S22118400, .i32⟩
  | 56 => ⟨S22118400, .i32⟩
  | 57 => ⟨S_, .i32⟩
  | 58 => ⟨S22118400, .i32⟩
  | 59 => ⟨S22118400, .i32⟩
  | 60 => ⟨S22118400x1, .i32⟩
  | 61 => ⟨S22118400, .i32⟩
  | 62 => ⟨S22118400, .i32⟩
  | 63 => ⟨S_, .i32⟩
  | 64 => ⟨S_, .i32⟩
  | 65 => ⟨S22118400, .i32⟩
  | 66 => ⟨S22118400, .i32⟩
  | 67 => ⟨S_, .i32⟩
  | 68 => ⟨S_, .i32⟩
  | 69 => ⟨S22118400, .i32⟩
  | 70 => ⟨S22118400, .i32⟩
  | 71 => ⟨S_, .f32⟩
  | 72 => ⟨S_, .f32⟩
  | 73 => ⟨S22118400, .f32⟩
  | 74 => ⟨S22118400, .f32⟩
  | 75 => ⟨S22118400, .f32⟩
  | 76 => ⟨S_, .f32⟩
  | 77 => ⟨S_, .f32⟩
  | 78 => ⟨S22118400, .f32⟩
  | 79 => ⟨S22118400, .f32⟩
  | 80 => ⟨S_, .f32⟩
  | 81 => ⟨S16777216, .f32⟩
  | 82 => ⟨S22118400x1, .i32⟩
  | 83 => ⟨S16777216, .f32⟩
  | 84 => ⟨S_, .f32⟩
  | 85 => ⟨S16777216, .f32⟩
  | 86 => ⟨S22118400x1, .i32⟩
  | 87 => ⟨S16777216, .f32⟩
  | 88 => ⟨S_, .i32⟩
  | 89 => ⟨S22118400, .i32⟩
  | 90 => ⟨S22118400, .i1⟩
  | 91 => ⟨S_, .i32⟩
  | 92 => ⟨S22118400, .i32⟩
  | 93 => ⟨S22118400, .i32⟩
  | 94 => ⟨S22118400, .i32⟩
  | 95 => ⟨S22118400x1, .i32⟩
  | 96 => ⟨S22118400, .f32⟩
  | 97 => ⟨S_, .i32⟩
  | 98 => ⟨S22118400, .i32⟩
  | 99 => ⟨S22118400, .i1⟩
  | 100 => ⟨S_, .i32⟩
  | 101 => ⟨S22118400, .i32⟩
  | 102 => ⟨S22118400, .i32⟩
  | 103 => ⟨S22118400, .i32⟩
  | 104 => ⟨S22118400x1, .i32⟩
  | 105 => ⟨S22118400, .f32⟩
  | 106 => ⟨S16777216, .f32⟩
  | 107 => ⟨S_, .i32⟩
  | 108 => ⟨S22118400, .i32⟩
  | 109 => ⟨S22118400, .i1⟩
  | 110 => ⟨S_, .i32⟩
  | 111 => ⟨S22118400, .i32⟩
  | 112 => ⟨S22118400, .i32⟩
  | 113 => ⟨S22118400, .i32⟩
  | 114 => ⟨S22118400x1, .i32⟩
  | 115 => ⟨S22118400, .f32⟩
  | 116 => ⟨S16777216, .f32⟩
  | 117 => ⟨S_, .i32⟩
  | 118 => ⟨S22118400, .i32⟩
  | 119 => ⟨S22118400, .i1⟩
  | 120 => ⟨S_, .i32⟩
  | 121 => ⟨S22118400, .i32⟩
  | 122 => ⟨S22118400, .i32⟩
  | 123 => ⟨S22118400, .i32⟩
  | 124 => ⟨S22118400x1, .i32⟩
  | 125 => ⟨S22118400, .f32⟩
  | 126 => ⟨S22118400, .f32⟩
  | 127 => ⟨S_, .f32⟩
  | _ => ⟨S480x640x9, .f32⟩

abbrev hbmTy0_1 (i : Nat) : BufTy := match i % 128 with
  | 0 => ⟨S22118400, .f32⟩
  | 1 => ⟨S22118400, .i1⟩
  | 2 => ⟨S_, .f32⟩
  | 3 => ⟨S_, .f32⟩
  | 4 => ⟨S22118400, .f32⟩
  | 5 => ⟨S22118400, .f32⟩
  | 6 => ⟨S22118400, .f32⟩
  | 7 => ⟨S22118400, .f32⟩
  | 8 => ⟨S22118400, .f32⟩
  | 9 => ⟨S16777216, .f32⟩
  | 10 => ⟨S_, .i32⟩
  | 11 => ⟨S22118400, .i32⟩
  | 12 => ⟨S22118400, .i1⟩
  | 13 => ⟨S_, .i32⟩
  | 14 => ⟨S22118400, .i32⟩
  | 15 => ⟨S22118400, .i32⟩
  | 16 => ⟨S22118400, .i32⟩
  | 17 => ⟨S22118400x1, .i32⟩
  | 18 => ⟨S16777216, .f32⟩
  | 19 => ⟨S256x256x256, .f32⟩
  | 20 => ⟨S16777216, .f32⟩
  | 21 => ⟨S_, .i32⟩
  | 22 => ⟨S22118400, .i32⟩
  | 23 => ⟨S22118400, .i1⟩
  | 24 => ⟨S_, .i32⟩
  | 25 => ⟨S22118400, .i32⟩
  | 26 => ⟨S22118400, .i32⟩
  | 27 => ⟨S22118400, .i32⟩
  | 28 => ⟨S22118400x1, .i32⟩
  | 29 => ⟨S16777216, .f32⟩
  | 30 => ⟨S256x256x256, .f32⟩
  | 31 => ⟨S2764800x1, .i32⟩
  | 32 => ⟨S2764800x8, .i32⟩
  | 33 => ⟨S22118400, .i32⟩
  | 34 => ⟨S2764800x1, .f32⟩
  | 35 => ⟨S2764800x8, .f32⟩
  | 36 => ⟨S22118400, .f32⟩
  | 37 => ⟨S16777216, .i32⟩
  | 38 => ⟨S_, .i32⟩
  | 39 => ⟨S22118400, .i32⟩
  | 40 => ⟨S22118400, .i1⟩
  | 41 => ⟨S_, .i32⟩
  | 42 => ⟨S22118400, .i32⟩
  | 43 => ⟨S22118400, .i32⟩
  | 44 => ⟨S22118400, .i32⟩
  | 45 => ⟨S22118400x1, .i32⟩
  | 46 => ⟨S22118400, .i32⟩
  | 47 => ⟨S16777216, .f32⟩
  | 48 => ⟨S_, .i32⟩
  | 49 => ⟨S22118400, .i32⟩
  | 50 => ⟨S22118400, .i1⟩
  | 51 => ⟨S_, .i32⟩
  | 52 => ⟨S22118400, .i32⟩
  | 53 => ⟨S22118400, .i32⟩
  | 54 => ⟨S22118400, .i32⟩
  | 55 => ⟨S22118400x1, .i32⟩
  | 56 => ⟨S22118400, .f32⟩
  | 57 => ⟨S22118400, .i1⟩
  | 58 => ⟨S22118400, .f32⟩
  | 59 => ⟨S22118400, .i32⟩
  | 60 => ⟨S22118400, .i1⟩
  | 61 => ⟨S22118400, .i1⟩
  | 62 => ⟨S_, .i32⟩
  | 63 => ⟨S_, .i32⟩
  | 64 => ⟨S22118400, .i32⟩
  | 65 => ⟨S22118400, .i32⟩
  | 66 => ⟨S16777216, .i32⟩
  | 67 => ⟨S_, .i32⟩
  | 68 => ⟨S22118400, .i32⟩
  | 69 => ⟨S22118400, .i1⟩
  | 70 => ⟨S_, .i32⟩
  | 71 => ⟨S22118400, .i32⟩
  | 72 => ⟨S22118400, .i32⟩
  | 73 => ⟨S22118400, .i32⟩
  | 74 => ⟨S22118400x1, .i32⟩
  | 75 => ⟨S16777216, .i32⟩
  | 76 => ⟨S256x256x256, .i32⟩
  | 77 => ⟨S16777216, .f32⟩
  | 78 => ⟨S_, .i32⟩
  | 79 => ⟨S22118400, .i32⟩
  | 80 => ⟨S22118400, .i1⟩
  | 81 => ⟨S_, .i32⟩
  | 82 => ⟨S22118400, .i32⟩
  | 83 => ⟨S22118400, .i32⟩
  | 84 => ⟨S22118400, .i32⟩
  | 85 => ⟨S22118400x1, .i32⟩
  | 86 => ⟨S16777216, .f32⟩
  | 87 => ⟨S256x256x256, .f32⟩
  | _ => ⟨S480x640x9, .f32⟩

abbrev hbmTy (i : Nat) : BufTy := match i / 128 with
  | 0 => hbmTy0_0 i
  | 1 => hbmTy0_1 i
  | _ => ⟨S480x640x9, .f32⟩

abbrev bufTy : (tb : Table) → Fin (tcTables nBuf tb) → BufTy
  | .hbm, ⟨i, _⟩ => hbmTy i
  | _, _ => ⟨S480x640x9, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_c_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_c_1 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_2 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_3 : Ref sig .tc := ⟨.hbm, 39, rfl⟩
abbrev main_v26 : Ref sig .tc := ⟨.hbm, 40, rfl⟩
abbrev main_v27 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_c_4 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_c_5 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_c_6 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_c_7 : Ref sig .tc := ⟨.hbm, 63, rfl⟩
abbrev main_call0_v0 : Ref sig .tc := ⟨.hbm, 64, rfl⟩
abbrev main_call0_v1 : Ref sig .tc := ⟨.hbm, 65, rfl⟩
abbrev main_v46 : Ref sig .tc := ⟨.hbm, 66, rfl⟩
abbrev main_c_8 : Ref sig .tc := ⟨.hbm, 67, rfl⟩
abbrev main_call1_v0 : Ref sig .tc := ⟨.hbm, 68, rfl⟩
abbrev main_call1_v1 : Ref sig .tc := ⟨.hbm, 69, rfl⟩
abbrev main_v47 : Ref sig .tc := ⟨.hbm, 70, rfl⟩
abbrev main_cst : Ref sig .tc := ⟨.hbm, 71, rfl⟩
abbrev main_call2_v0 : Ref sig .tc := ⟨.hbm, 72, rfl⟩
abbrev main_call2_v1 : Ref sig .tc := ⟨.hbm, 73, rfl⟩
abbrev main_v48 : Ref sig .tc := ⟨.hbm, 74, rfl⟩
abbrev main_v49 : Ref sig .tc := ⟨.hbm, 75, rfl⟩
abbrev main_cst_9 : Ref sig .tc := ⟨.hbm, 76, rfl⟩
abbrev main_call3_v0 : Ref sig .tc := ⟨.hbm, 77, rfl⟩
abbrev main_call3_v1 : Ref sig .tc := ⟨.hbm, 78, rfl⟩
abbrev main_v50 : Ref sig .tc := ⟨.hbm, 79, rfl⟩
abbrev main_cst_10 : Ref sig .tc := ⟨.hbm, 80, rfl⟩
abbrev main_v51 : Ref sig .tc := ⟨.hbm, 81, rfl⟩
abbrev main_v52 : Ref sig .tc := ⟨.hbm, 82, rfl⟩
abbrev main_v53 : Ref sig .tc := ⟨.hbm, 83, rfl⟩
abbrev main_cst_11 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_c_12 : Ref sig .tc := ⟨.hbm, 88, rfl⟩
abbrev main_v57 : Ref sig .tc := ⟨.hbm, 89, rfl⟩
abbrev main_v58 : Ref sig .tc := ⟨.hbm, 90, rfl⟩
abbrev main_c_13 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_c_14 : Ref sig .tc := ⟨.hbm, 97, rfl⟩
abbrev main_v64 : Ref sig .tc := ⟨.hbm, 98, rfl⟩
abbrev main_v65 : Ref sig .tc := ⟨.hbm, 99, rfl⟩
abbrev main_c_15 : Ref sig .tc := ⟨.hbm, 100, rfl⟩
abbrev main_v66 : Ref sig .tc := ⟨.hbm, 101, rfl⟩
abbrev main_v67 : Ref sig .tc := ⟨.hbm, 102, rfl⟩
abbrev main_v68 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_c_16 : Ref sig .tc := ⟨.hbm, 107, rfl⟩
abbrev main_v72 : Ref sig .tc := ⟨.hbm, 108, rfl⟩
abbrev main_v73 : Ref sig .tc := ⟨.hbm, 109, rfl⟩
abbrev main_c_17 : Ref sig .tc := ⟨.hbm, 110, rfl⟩
abbrev main_v74 : Ref sig .tc := ⟨.hbm, 111, rfl⟩
abbrev main_v75 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_c_18 : Ref sig .tc := ⟨.hbm, 117, rfl⟩
abbrev main_v80 : Ref sig .tc := ⟨.hbm, 118, rfl⟩
abbrev main_v81 : Ref sig .tc := ⟨.hbm, 119, rfl⟩
abbrev main_c_19 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_cst_20 : Ref sig .tc := ⟨.hbm, 127, rfl⟩
abbrev main_v88 : Ref sig .tc := ⟨.hbm, 128, rfl⟩
abbrev main_v89 : Ref sig .tc := ⟨.hbm, 129, rfl⟩
abbrev main_cst_21 : Ref sig .tc := ⟨.hbm, 130, rfl⟩
abbrev main_call4_v0 : Ref sig .tc := ⟨.hbm, 131, rfl⟩
abbrev main_call4_v1 : Ref sig .tc := ⟨.hbm, 132, rfl⟩
abbrev main_v90 : Ref sig .tc := ⟨.hbm, 133, rfl⟩
abbrev main_v91 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_c_22 : Ref sig .tc := ⟨.hbm, 138, rfl⟩
abbrev main_v95 : Ref sig .tc := ⟨.hbm, 139, rfl⟩
abbrev main_v96 : Ref sig .tc := ⟨.hbm, 140, rfl⟩
abbrev main_c_23 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_c_24 : Ref sig .tc := ⟨.hbm, 149, rfl⟩
abbrev main_v104 : Ref sig .tc := ⟨.hbm, 150, rfl⟩
abbrev main_v105 : Ref sig .tc := ⟨.hbm, 151, rfl⟩
abbrev main_c_25 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_c_26 : Ref sig .tc := ⟨.hbm, 166, rfl⟩
abbrev main_v119 : Ref sig .tc := ⟨.hbm, 167, rfl⟩
abbrev main_v120 : Ref sig .tc := ⟨.hbm, 168, rfl⟩
abbrev main_c_27 : Ref sig .tc := ⟨.hbm, 169, rfl⟩
abbrev main_v121 : Ref sig .tc := ⟨.hbm, 170, rfl⟩
abbrev main_v122 : Ref sig .tc := ⟨.hbm, 171, rfl⟩
abbrev main_v123 : Ref sig .tc := ⟨.hbm, 172, rfl⟩
abbrev main_v124 : Ref sig .tc := ⟨.hbm, 173, rfl⟩
abbrev main_v125 : Ref sig .tc := ⟨.hbm, 174, rfl⟩
abbrev main_v126 : Ref sig .tc := ⟨.hbm, 175, rfl⟩
abbrev main_c_28 : Ref sig .tc := ⟨.hbm, 176, rfl⟩
abbrev main_v127 : Ref sig .tc := ⟨.hbm, 177, rfl⟩
abbrev main_v128 : Ref sig .tc := ⟨.hbm, 178, rfl⟩
abbrev main_c_29 : Ref sig .tc := ⟨.hbm, 179, rfl⟩
abbrev main_v129 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_30 : Ref sig .tc := ⟨.hbm, 190, rfl⟩
abbrev main_call7_v0 : Ref sig .tc := ⟨.hbm, 191, rfl⟩
abbrev main_call7_v1 : Ref sig .tc := ⟨.hbm, 192, rfl⟩
abbrev main_v139 : Ref sig .tc := ⟨.hbm, 193, rfl⟩
abbrev main_v140 : Ref sig .tc := ⟨.hbm, 194, rfl⟩
abbrev main_c_31 : Ref sig .tc := ⟨.hbm, 195, rfl⟩
abbrev main_v141 : Ref sig .tc := ⟨.hbm, 196, rfl⟩
abbrev main_v142 : Ref sig .tc := ⟨.hbm, 197, rfl⟩
abbrev main_c_32 : Ref sig .tc := ⟨.hbm, 198, rfl⟩
abbrev main_v143 : Ref sig .tc := ⟨.hbm, 199, rfl⟩
abbrev main_v144 : Ref sig .tc := ⟨.hbm, 200, rfl⟩
abbrev main_v145 : Ref sig .tc := ⟨.hbm, 201, rfl⟩
abbrev main_v146 : Ref sig .tc := ⟨.hbm, 202, rfl⟩
abbrev main_v147 : Ref sig .tc := ⟨.hbm, 203, rfl⟩
abbrev main_v148 : Ref sig .tc := ⟨.hbm, 204, rfl⟩
abbrev main_v149 : Ref sig .tc := ⟨.hbm, 205, rfl⟩
abbrev main_c_33 : Ref sig .tc := ⟨.hbm, 206, rfl⟩
abbrev main_v150 : Ref sig .tc := ⟨.hbm, 207, rfl⟩
abbrev main_v151 : Ref sig .tc := ⟨.hbm, 208, rfl⟩
abbrev main_c_34 : Ref sig .tc := ⟨.hbm, 209, rfl⟩
abbrev main_v152 : Ref sig .tc := ⟨.hbm, 210, rfl⟩
abbrev main_v153 : Ref sig .tc := ⟨.hbm, 211, rfl⟩
abbrev main_v154 : Ref sig .tc := ⟨.hbm, 212, rfl⟩
abbrev main_v155 : Ref sig .tc := ⟨.hbm, 213, rfl⟩
abbrev main_v156 : Ref sig .tc := ⟨.hbm, 214, rfl⟩
abbrev main_v157 : Ref sig .tc := ⟨.hbm, 215, rfl⟩

abbrev nD : Nat := 1
abbrev τ : Topo := Topo.v7x

variable {F : FTy → Type} [FloatOps F]

class Facts₀ : Prop where
  shapeCasts_S480x640x9x8x3_S22118400x3 : S480x640x9x8x3.ShapeCasts S22118400x3
  shapeCasts_S480x640x9x8_S22118400 : S480x640x9x8.ShapeCasts S22118400
  shapeCasts_S480x640x9_S2764800x1 : S480x640x9.ShapeCasts S2764800x1
  bcast_S2764800x1_S2764800x8_0_1 : S2764800x1.BroadcastsInDim S2764800x8 (![0, 1] : Fin 2 → Fin S2764800x8.rank)
  shapeCasts_S2764800x8_S22118400 : S2764800x8.ShapeCasts S22118400
  slices_S22118400x3_S22118400x1_0_0 : S22118400x3.Slices ![0, 0] S22118400x1
  shapeCasts_S22118400x1_S22118400 : S22118400x1.ShapeCasts S22118400
  bcast_S_S22118400 : S_.BroadcastsInDim S22118400 (![] : Fin 0 → Fin S22118400.rank)
  slices_S22118400x3_S22118400x1_0_1 : S22118400x3.Slices ![0, 1] S22118400x1
  slices_S22118400x3_S22118400x1_0_2 : S22118400x3.Slices ![0, 2] S22118400x1
  bcast_S_S16777216 : S_.BroadcastsInDim S16777216 (![] : Fin 0 → Fin S16777216.rank)
  bcast_S22118400_S22118400x1_0 : S22118400.BroadcastsInDim S22118400x1 (![0] : Fin 1 → Fin S22118400x1.rank)
  shapeCasts_S256x256x256_S16777216 : S256x256x256.ShapeCasts S16777216
  shapeCasts_S16777216_S256x256x256 : S16777216.ShapeCasts S256x256x256
  scatter_S16777216_S22118400x1_S22118400_n_0_0_1_wf : ScatterDims.WF S16777216 S22118400x1 S22118400 [] [0] [0] 1
  gather_S16777216_S22118400x1_S22118400_n_0_n_n_0_1_1_wf : GatherDims.WF S16777216 S22118400x1 S22118400 [] [0] [] [0] [] 1 ![1]

variable [Facts₀]

def scatter_S16777216_S22118400x1_S22118400_n_0_0_1 : ScatterDims S16777216 S22118400x1 S22118400 where
  updateWindowDims := []
  insertedWindowDims := [0]
  scatterDimsToOperandDims := [0]
  indexVectorDim := 1
  wf := scatter_S16777216_S22118400x1_S22118400_n_0_0_1_wf
def gather_S16777216_S22118400x1_S22118400_n_0_n_n_0_1_1 : GatherDims S16777216 S22118400x1 S22118400 where
  offsetDims := []
  collapsedSliceDims := [0]
  operandBatchingDims := []
  startIndicesBatchingDims := []
  startIndexMap := [0]
  indexVectorDim := 1
  sliceSizes := ![1]
  wf := gather_S16777216_S22118400x1_S22118400_n_0_n_n_0_1_1_wf

class Facts : Prop extends Facts₀ where

variable [Facts]
-- ==== Proof.Spec.lean ====
/-
  The two computations on FLAT index spaces, as pure functions: entries (one per point and neighbour voxel,
  22118400 of them) and voxels (256³ = 16777216).

  Every entry carries three integer coordinates. It is VALID when each lies in [0, 256); its voxel is then
  (x·256 + y)·256 + z. An invalid entry is sent to the sentinel 16777216, one past the last voxel.

  The dense form sums the entries' masked weights, weighted values and validity indicators per voxel (into an array
  with one trash slot for the sentinel) and updates every voxel from those sums. The scattered form sums into the
  voxel array itself (invalid entries adding zero at voxel 0), reads the sums back per entry, and writes each entry's
  update at its voxel, dropping the sentinel. The label and score fusion is per entry in both forms; they differ only
  in what an invalid entry reads as the old label and score, and that entry is dropped by the final write.
-/
import Idealize.ShloMosaic.PureOps.Ideal
import Idealize.ShloMosaic.PureOps.Contract
import Idealize.ShloMosaic.Lib.ValueIdx

noncomputable section

namespace Cert.Fusion

open Idealize.ShloMosaic Idealize.ShloMosaic.ValueIdx

/-- Entries. -/
abbrev E : Shape := ⟨1, ![22118400]⟩
/-- Entries as a column (the shape of a list of one-component scatter or gather indices). -/
abbrev EC : Shape := ⟨2, ![22118400, 1]⟩
/-- Entries by coordinate. -/
abbrev E3 : Shape := ⟨2, ![22118400, 3]⟩
/-- Voxels. -/
abbrev Vx : Shape := ⟨1, ![16777216]⟩
/-- Voxels and one trash slot. -/
abbrev Vx1 : Shape := ⟨1, ![16777217]⟩

/-- Writing or adding at one-component indices along the only axis of a voxel array. -/
def d16 : ScatterDims Vx EC E where
  updateWindowDims := []
  insertedWindowDims := [0]
  scatterDimsToOperandDims := [0]
  indexVectorDim := 1
/-- The same into the array with the trash slot. -/
def d17 : ScatterDims Vx1 EC E where
  updateWindowDims := []
  insertedWindowDims := [0]
  scatterDimsToOperandDims := [0]
  indexVectorDim := 1
/-- Reading a voxel array at one-component indices. -/
def g16 : GatherDims Vx EC E where
  offsetDims := []
  collapsedSliceDims := [0]
  operandBatchingDims := []
  startIndicesBatchingDims := []
  startIndexMap := [0]
  indexVectorDim := 1
  sliceSizes := ![1]

variable {F : FTy → Type} [FloatOps F]

/-- The float zero and one. -/
abbrev f0 : F .f32 := FloatOps.ofBits .f32 0x00000000#32
abbrev f1 : F .f32 := FloatOps.ofBits .f32 0x3F800000#32
/-- The sentinel index, one past the last voxel. -/
abbrev nvox : BitVec 32 := 16777216#32

/-- A per-entry word list as the column of indices a scatter or gather reads. -/
def col (v : E.Idx → BitVec 32) : EC.Idx → BitVec 32 := fun j => v (ix1 (j 0))

/-- A negative index counted from the end (what array indexing does before it reads or writes). -/
def norm (v : E.Idx → BitVec 32) : E.Idx → BitVec 32 :=
  fun e => Scalar.select (IntOp.cmpi .slt (v e) 0#32) (IntOp.addi (v e) nvox) (v e)

section PerEntry
variable (xr : E3.Idx → BitVec 32)

/-- Coordinate k of entry e. -/
abbrev crd (k : Fin 3) (e : E.Idx) : BitVec 32 := xr (ix2 (e 0) k)

/-- All three coordinates in [0, 256). -/
def valid (e : E.Idx) : BitVec 1 :=
  IntOp.andi (IntOp.andi (IntOp.andi (IntOp.andi (IntOp.andi
    (IntOp.cmpi .sge (crd xr 0 e) 0#32) (IntOp.cmpi .slt (crd xr 0 e) 256#32))
    (IntOp.cmpi .sge (crd xr 1 e) 0#32)) (IntOp.cmpi .slt (crd xr 1 e) 256#32))
    (IntOp.cmpi .sge (crd xr 2 e) 0#32)) (IntOp.cmpi .slt (crd xr 2 e) 256#32)

/-- The voxel number (x·256 + y)·256 + z, in 32-bit arithmetic. -/
def flat (e : E.Idx) : BitVec 32 :=
  IntOp.addi (IntOp.muli (IntOp.addi (IntOp.muli (crd xr 0 e) 256#32) (crd xr 1 e)) 256#32) (crd xr 2 e)

/-- The voxel of a valid entry, the sentinel for an invalid one. -/
def oob (e : E.Idx) : BitVec 32 := Scalar.select (valid xr e) (flat xr e) nvox
/-- The voxel of a valid entry, voxel 0 for an invalid one. -/
def safe (e : E.Idx) : BitVec 32 := Scalar.select (valid xr e) (flat xr e) 0#32

variable (wf vf : E.Idx → F .f32)
/-- The entry's weight, zero when invalid. -/
def wc (e : E.Idx) : F .f32 := Scalar.select (valid xr e) (wf e) f0
/-- The entry's weighted value, zero when invalid. -/
def uc (e : E.Idx) : F .f32 := Scalar.select (valid xr e) (FloatOps.mulf (wf e) (vf e)) f0
/-- One for a valid entry, zero for an invalid one. -/
def ind (e : E.Idx) : F .f32 := Scalar.select (valid xr e) (f1 (F := F)) f0
end PerEntry

/-! ## Pointwise pieces -/

/-- Old weight plus summed weight, per voxel. -/
def updW (w ws : Vx.Idx → F .f32) : Vx.Idx → F .f32 := fun p => FloatOps.addf (w p) (ws p)

/-- The weighted mean (old weight · old value + summed weighted values) / (new weight, or one where that is zero)
    where the count ts is positive, else the old value. -/
def updV (w v ws us ts : Vx.Idx → F .f32) : Vx.Idx → F .f32 := fun p =>
  Scalar.select (FloatOps.cmpf .ogt (ts p) f0)
    (FloatOps.divf (FloatOps.addf (FloatOps.mulf (w p) (v p)) (us p))
      (Scalar.select (FloatOps.cmpf .oeq (FloatOps.addf (w p) (ws p)) f0) f1 (FloatOps.addf (w p) (ws p))))
    (v p)

/-- The larger of the new and old score (the new one only when strictly larger). -/
def fuseSc (sc so : E.Idx → F .f32) : E.Idx → F .f32 :=
  fun e => Scalar.select (FloatOps.cmpf .ogt (sc e) (so e)) (sc e) (so e)
/-- The label that goes with the larger score. -/
def fuseId (idn : E.Idx → BitVec 32) (sc : E.Idx → F .f32) (ido : E.Idx → BitVec 32) (so : E.Idx → F .f32) : E.Idx → BitVec 32 :=
  fun e => Scalar.select (FloatOps.cmpf .ogt (sc e) (so e)) (idn e) (ido e)
/-- Where the label is written: the entry's index unless that is the sentinel or the label is unchanged. -/
def fuseIdx (ob idn ido : E.Idx → BitVec 32) : E.Idx → BitVec 32 :=
  fun e => Scalar.select (IntOp.andi (IntOp.cmpi .ne (ob e) nvox) (IntOp.cmpi .ne (ido e) (idn e))) (ob e) nvox

/-- The index is a voxel number: 0 ≤ v ≤ 16777215, as a one-bit word. -/
def inb (v : E.Idx → BitVec 32) : E.Idx → BitVec 1 :=
  fun e => IntOp.andi (IntOp.cmpi .sge (v e) 0#32) (IntOp.cmpi .sle (v e) 16777215#32)

/-! ## The argument arrays, flattened -/

abbrev A3 : Shape := ⟨3, ![480, 640, 9]⟩
abbrev A4 : Shape := ⟨4, ![480, 640, 9, 8]⟩
abbrev A5 : Shape := ⟨5, ![480, 640, 9, 8, 3]⟩
abbrev Vol : Shape := ⟨3, ![256, 256, 256]⟩
/-- Points (one per pixel and depth sample). -/
abbrev P : Shape := ⟨1, ![2764800]⟩

/-- The index tensor as entries by coordinate. -/
def xrOf (a : A5.Idx → BitVec 32) : E3.Idx → BitVec 32 := shapeCast E3 a
/-- A per-neighbour tensor as a per-entry list. -/
def wfOf {α : Type} (a : A4.Idx → α) : E.Idx → α := shapeCast E a
/-- A per-point tensor repeated for the point's eight entries. -/
def perEntry {α : Type} (a : A3.Idx → α) : E.Idx → α :=
  fun e => (shapeCast P a) (ix1 (n := 2764800) ⟨(e 0).val / 8, by have h : (e 0).val < 22118400 := (e 0).isLt; omega⟩)
/-- A volume as a voxel list, and back. -/
def volOf {α : Type} (a : Vol.Idx → α) : Vx.Idx → α := shapeCast Vx a
def unflat {α : Type} (v : Vx.Idx → α) : Vol.Idx → α := shapeCast Vol v

/-! ## The dense form -/

section Dense
variable (xr : E3.Idx → BitVec 32) (wf vf : E.Idx → F .f32) (idf : E.Idx → BitVec 32) (scf : E.Idx → F .f32)
  (vvol wvol scvol : Vx.Idx → F .f32) (semvol : Vx.Idx → BitVec 32)

/-- Per-voxel sum of a per-entry quantity, by the entries' sentinel-marked voxels; the trash slot cut off. -/
def vsum (u : E.Idx → F .f32) : Vx.Idx → F .f32 :=
  fun p => Host.scatterAdd d17 (fun _ => f0) (col (oob xr)) u (ix1 ⟨(p 0).val, by have h : (p 0).val < 16777216 := (p 0).isLt; omega⟩)

/-- The new weight of every voxel: old weight plus the summed weights. -/
def denseW : Vx.Idx → F .f32 := updW wvol (vsum xr (wc xr wf))

/-- The new value of every voxel: the weighted mean where some valid entry hits the voxel, else the old value. -/
def denseV : Vx.Idx → F .f32 := updV wvol vvol (vsum xr (wc xr wf)) (vsum xr (uc xr wf vf)) (vsum xr (ind (F := F) xr))

-- The old label and score an entry sees: read at its voxel where the mask `mk` says the index is a voxel, else a fill.
variable (mk : E.Idx → BitVec 1)
def oldIdK (e : E.Idx) : BitVec 32 := Scalar.select (mk e) (Host.gather g16 semvol (col (norm (oob xr))) e) 0#32
def oldScK (e : E.Idx) : F .f32 := Scalar.select (mk e) (Host.gather g16 scvol (col (norm (oob xr))) e) f0

/-- The fused score and label of an entry, and where the label is written (the sentinel unless valid and changed). -/
def scuK : E.Idx → F .f32 := fuseSc scf (oldScK xr scvol mk)
def semuK : E.Idx → BitVec 32 := fuseId idf scf (oldIdK xr semvol mk) (oldScK xr scvol mk)
def semidxK : E.Idx → BitVec 32 := fuseIdx (oob xr) idf (oldIdK xr semvol mk)

def newScK : Vx.Idx → F .f32 :=
  Host.scatter d16 (fun _ b => b) scvol (col (norm (oob xr))) (scuK xr scf scvol mk)
def newSemK : Vx.Idx → BitVec 32 :=
  Host.scatter d16 (fun _ b => b) semvol (col (norm (semidxK xr idf semvol mk))) (semuK xr idf scf scvol semvol mk)
end Dense

/-! ## The scattered form -/

section Scattered
variable (xr : E3.Idx → BitVec 32) (wf vf : E.Idx → F .f32) (idf : E.Idx → BitVec 32) (scf : E.Idx → F .f32)
  (vvol wvol scvol : Vx.Idx → F .f32) (semvol : Vx.Idx → BitVec 32)

/-- Per-voxel sum of a per-entry quantity, by the entries' voxels with invalid entries at voxel 0. -/
def vsumR (u : E.Idx → F .f32) : Vx.Idx → F .f32 := Host.scatterAdd d16 (fun _ => f0) (col (safe xr)) u

/-- A voxel array read at each entry's (safe) voxel. -/
def atSafe {α : Type} (x : Vx.Idx → α) : E.Idx → α := Host.gather g16 x (col (norm (safe xr)))

def wupd (e : E.Idx) : F .f32 := FloatOps.addf (atSafe xr wvol e) (atSafe xr (vsumR xr (wc xr wf)) e)
def vupd (e : E.Idx) : F .f32 :=
  FloatOps.hostDivf (FloatOps.addf (FloatOps.mulf (atSafe xr wvol e) (atSafe xr vvol e)) (atSafe xr (vsumR xr (uc xr wf vf)) e))
    (Scalar.select (FloatOps.cmpf .oeq (wupd xr wf wvol e) f0) f1 (wupd xr wf wvol e))

def scatW : Vx.Idx → F .f32 := Host.scatter d16 (fun _ b => b) wvol (col (norm (oob xr))) (wupd xr wf wvol)
def scatV : Vx.Idx → F .f32 := Host.scatter d16 (fun _ b => b) vvol (col (norm (oob xr))) (vupd xr wf vf vvol wvol)

def scuR : E.Idx → F .f32 := fuseSc scf (atSafe xr scvol)
def semuR : E.Idx → BitVec 32 := fuseId idf scf (atSafe xr semvol) (atSafe xr scvol)
def semidxR (e : E.Idx) : BitVec 32 :=
  Scalar.select (IntOp.andi (valid xr e) (IntOp.cmpi .ne (atSafe xr semvol e) (idf e))) (flat xr e) nvox

def newScR : Vx.Idx → F .f32 :=
  Host.scatter d16 (fun _ b => b) scvol (col (norm (oob xr))) (scuR xr scf scvol)
def newSemR : Vx.Idx → BitVec 32 :=
  Host.scatter d16 (fun _ b => b) semvol (col (norm (semidxR xr idf semvol))) (semuR xr idf scf scvol semvol)
end Scattered

end Cert.Fusion

end
-- ==== Proof.Layout.lean ====
/-
  Layout operations of the two programs read on flat index spaces: a reshape of a reshape, a list as a column of
  indices, one column of the entries-by-coordinate table, a per-point array repeated eight times, cutting the trash slot.
-/
import proofs.«422224_j54460185313483_3_alg».proof.Proof.Spec
import Idealize.ShloMosaic.Lib.Pipeline.Value

noncomputable section

namespace Cert.Fusion

open Idealize.ShloMosaic Idealize.ShloMosaic.ValueIdx

/-- Reshaping twice is reshaping once: a reshape keeps every element's row-major position. -/
theorem shapeCast_comp {α : Type} {s t u : Shape} (x : s.Idx → α) (h : s.ShapeCasts t) (h' : t.ShapeCasts u) (h'' : s.ShapeCasts u) :
    shapeCast u (shapeCast t x h) h' = shapeCast u x h'' := by
  funext j
  show x (Shape.reshapeEquiv h (Shape.reshapeEquiv h' j)) = x (Shape.reshapeEquiv h'' j)
  exact congrArg x (Shape.reshapeEquiv_reshapeEquiv h h' j)

/-- A list laid out as an [n, 1] column is the column of indices col reads. -/
theorem bcast_col (v : E.Idx → BitVec 32) (h : E.BroadcastsInDim EC ![0]) :
    broadcastInDim EC ![0] h v = col v := by
  funext j
  -- the operand's one axis has extent 22118400, not 1, so it reads the result's coordinate on axis 0
  refine (broadcastInDim_apply ![0] h v j (ix1 (j 0)) (fun a => match a with
    | ⟨0, _⟩ => by
      show (j 0).val = if (22118400 : Nat) = 1 then 0 else (j 0).val
      rw [if_neg (by decide)])).trans ?_
  rfl

/-- Column k of the entries-by-coordinate table, flattened, is coordinate k of each entry. -/
theorem slice_col (xr : E3.Idx → BitVec 32) (k : Fin 3) (hs : E3.Slices ![0, k.val] EC) (hc : EC.ShapeCasts E) :
    shapeCast E (extractStridedSlice EC ![0, k.val] xr hs) hc = crd xr k := by
  funext e
  -- position e of the flat list is row e, column 0 of the [n, 1] column
  refine (shapeCast_apply _ hc e (ix2 (e 0) (0 : Fin 1)) (by
    rw [Shape.rowMajor_val_two, Shape.rowMajor_val_one]
    show (e 0).val * 1 + 0 = (e 0).val
    omega)).trans ?_
  -- and the column starts at column k of the table
  exact extractStridedSlice_apply ![0, k.val] xr hs (ix2 (e 0) (0 : Fin 1)) (ix2 (e 0) k) (fun a => match a with
    | ⟨0, _⟩ => by show (e 0).val = 0 + (e 0).val; omega
    | ⟨1, _⟩ => by show k.val = k.val + 0; omega)

/-- An entry's point number e / 8 is below the number of points, 22118400 / 8 = 2764800. -/
private theorem row8 (e : E.Idx) : (e 0).val / 8 < 2764800 := by
  have h : (e 0).val < 22118400 := (e 0).isLt
  omega

/-- A per-point list broadcast along a new second axis of extent 8 and flattened repeats each point eight times. -/
theorem rep8_rows {α : Type} (a : A3.Idx → α) (h1 : A3.ShapeCasts P)
    (hb : P.BroadcastsInDim ⟨2, ![2764800, 8]⟩ ![0]) (h2 : (⟨2, ![2764800, 8]⟩ : Shape).ShapeCasts E) :
    shapeCast E (broadcastInDim ⟨2, ![2764800, 8]⟩ ![0] hb (shapeCast P a h1)) h2 = perEntry a := by
  funext e
  have he : (e 0).val < 22118400 := (e 0).isLt
  -- position e of the flat list is row e / 8, column e % 8 of the table
  refine (shapeCast_apply _ h2 e (ix2 (⟨(e 0).val / 8, row8 e⟩ : Fin 2764800) (⟨(e 0).val % 8, Nat.mod_lt _ (by decide)⟩ : Fin 8)) (by
    rw [Shape.rowMajor_val_two, Shape.rowMajor_val_one]
    show (e 0).val / 8 * 8 + (e 0).val % 8 = (e 0).val
    omega)).trans ?_
  -- whose row reads point e / 8
  refine (broadcastInDim_apply ![0] hb (shapeCast P a h1) _ (ix1 (⟨(e 0).val / 8, row8 e⟩ : Fin 2764800)) (fun b => match b with
    | ⟨0, _⟩ => by
      show (e 0).val / 8 = if (2764800 : Nat) = 1 then 0 else (e 0).val / 8
      rw [if_neg (by decide)])).trans ?_
  rfl

/-- The same through an [n, 1] column broadcast along its unit axis. -/
theorem rep8_col {α : Type} (a : A3.Idx → α) (h1 : A3.ShapeCasts ⟨2, ![2764800, 1]⟩)
    (hb : (⟨2, ![2764800, 1]⟩ : Shape).BroadcastsInDim ⟨2, ![2764800, 8]⟩ ![0, 1]) (h2 : (⟨2, ![2764800, 8]⟩ : Shape).ShapeCasts E) :
    shapeCast E (broadcastInDim ⟨2, ![2764800, 8]⟩ ![0, 1] hb (shapeCast ⟨2, ![2764800, 1]⟩ a h1)) h2 = perEntry a := by
  funext e
  have he : (e 0).val < 22118400 := (e 0).isLt
  -- position e of the flat list is row e / 8, column e % 8 of the table
  refine (shapeCast_apply _ h2 e (ix2 (⟨(e 0).val / 8, row8 e⟩ : Fin 2764800) (⟨(e 0).val % 8, Nat.mod_lt _ (by decide)⟩ : Fin 8)) (by
    rw [Shape.rowMajor_val_two, Shape.rowMajor_val_one]
    show (e 0).val / 8 * 8 + (e 0).val % 8 = (e 0).val
    omega)).trans ?_
  -- whose row reads row e / 8 of the column, at its one column
  refine (broadcastInDim_apply ![0, 1] hb (shapeCast ⟨2, ![2764800, 1]⟩ a h1) _
    (ix2 (⟨(e 0).val / 8, row8 e⟩ : Fin 2764800) (0 : Fin 1)) (fun b => match b with
    | ⟨0, _⟩ => by
      show (e 0).val / 8 = if (2764800 : Nat) = 1 then 0 else (e 0).val / 8
      rw [if_neg (by decide)]
    | ⟨1, _⟩ => by
      show 0 = if (1 : Nat) = 1 then 0 else (e 0).val % 8
      rw [if_pos rfl])).trans ?_
  -- row r of the [n, 1] column and position r of the [n] list are the same row-major position of the per-point array
  show a (Shape.reshapeEquiv h1 _) = a (Shape.reshapeEquiv _ _)
  refine congrArg a (Shape.reshapeEquiv_eq_of_rowMajor h1 ?_)
  rw [Shape.rowMajor_reshapeEquiv, Shape.rowMajor_val_two, Shape.rowMajor_val_one]
  show (e 0).val / 8 = (e 0).val / 8 * 1 + 0
  omega

/-- Cutting the trash slot off an array of 16777217 elements keeps elements 0 … 16777215. -/
theorem slice_trash {α : Type} (y : Vx1.Idx → α) (hs : Vx1.Slices ![0] Vx) :
    extractStridedSlice Vx ![0] y hs = fun p => y (ix1 ⟨(p 0).val, by have h : (p 0).val < 16777216 := (p 0).isLt; omega⟩) := by
  funext p
  exact extractStridedSlice_apply ![0] y hs p _ (fun b => match b with
    | ⟨0, _⟩ => by show (p 0).val = 0 + (p 0).val; omega)

end Cert.Fusion

end
-- ==== Proof.Region0.lean ====
/-
  The first call (one grid axis of 60 points, blocks of 2880 rows of 128 lanes): what its four output arrays hold after
  the call, when its three input arrays are the entries' coordinates (transposed to coordinate-major and cut into rows),
  weights and values laid out as 172800 rows of 128. Every block is a run of whole rows, so array position (r, l) is entry
  r·128 + l, and each output is the per-entry quantity at that entry: the sentinel-marked voxel, the masked weight, the
  masked weighted value, the validity indicator.
-/
import proofs.«422224_j54460185313483_3_alg».proof.Proof.Gen.KernelIdeal.Frame
import proofs.«422224_j54460185313483_3_alg».proof.Proof.Spec
import Idealize.ShloMosaic.Lib.Pipeline.Value
import Idealize.ShloMosaic.Lib.ValueIdx

set_option maxRecDepth 16384

noncomputable section

namespace Cert.KernelIdeal.Region0

open Cert.KernelIdeal Cert.KernelIdeal.Gen Cert.Fusion Idealize.ShloMosaic Idealize.ShloMosaic.TcCoe Idealize.SL.Sem
open Idealize.ShloMosaic.Pipeline (Dat)
open Idealize.ShloMosaic.ValueIdx

variable {F : FTy → Type} [FloatOps F]

/-! ## Reading the arrays at a position -/

/-- The zero offsets of a whole-block rectangle, however spelt. -/
private theorem hz2 : (![0, 0] : Fin 2 → Nat) = fun _ => 0 := funext fun a => by fin_cases a <;> rfl

/-- The coordinate array (coordinate-major, cut into rows of 128) at slab k, row r, lane l is coordinate k of entry
    r·128 + l. -/
private theorem coord_read (xr : E3.Idx → BitVec 32) (k : Fin 3) (i : S3x172800x128.Idx) (e : E.Idx)
    (hk : (i 0).val = k.val) (he : (e 0).val = (i 1).val * 128 + (i 2).val) :
    shapeCast S3x172800x128 (transpose S3x22118400 [1, 0] xr transposes_S22118400x3_S3x22118400_1_0) shapeCasts_S3x22118400_S3x172800x128 i
      = crd xr k e := by
  refine (shapeCast_apply _ _ i (ix2 k (e 0)) ?_).trans ?_
  · rw [Shape.rowMajor_val_two, Shape.rowMajor_val_three]
    show k.val * 22118400 + (e 0).val = ((i 0).val * 172800 + (i 1).val) * 128 + (i 2).val
    omega
  · exact transpose_apply [1, 0] xr _ (ix2 k (e 0)) (ix2 (e 0) k) fun b => match b with | ⟨0, _⟩ => rfl | ⟨1, _⟩ => rfl

/-- A per-entry list laid out as rows of 128, at position (r, l), is the list at entry r·128 + l. -/
private theorem flat_read {α : Type} (u : E.Idx → α) (i : S172800x128.Idx) (e : E.Idx) (he : (e 0).val = (i 0).val * 128 + (i 1).val) :
    shapeCast S172800x128 u shapeCasts_S22118400_S172800x128 i = u e := by
  refine shapeCast_apply _ _ i e ?_
  rw [Shape.rowMajor_val_one, Shape.rowMajor_val_two]
  exact he

/-! ## The body's payloads at a lane -/

/-- Slab k of the coordinate block, viewed as rows of lanes, at (r, l) is the block at (k, r, l). -/
private theorem slab_read (x0 : Vec F S3x2880x128 .i32) (k : Nat) (inb : ∀ a, (![k, 0, 0] : Fin 3 → Nat) a + S1x2880x128.size a ≤ S3x2880x128.size a)
    (j : S2880x128.Idx) (y : S3x2880x128.Idx)
    (h0 : (y 0).val = k) (h1 : (y 1).val = (j 0).val) (h2 : (y 2).val = (j 1).val) :
    shapeCast S2880x128 (View.ld x0 (Rect.unit (s := S3x2880x128) ![k, 0, 0] S1x2880x128.size inb)) shapeCasts_S1x2880x128_S2880x128 j = x0 y := by
  refine (shapeCast_apply _ _ j (ix3 (n0 := 1) (n1 := 2880) (n2 := 128) ⟨0, Nat.one_pos⟩ (j 0) (j 1)) ?_).trans ?_
  · rw [Shape.rowMajor_val_three, Shape.rowMajor_val_two]
    show (0 * 2880 + (j 0).val) * 128 + (j 1).val = (j 0).val * 128 + (j 1).val
    omega
  · refine congrArg x0 (funext fun a => Fin.ext ?_)
    match a with
    | ⟨0, _⟩ => show k + 1 * 0 = (y 0).val; omega
    | ⟨1, _⟩ => show 0 + 1 * (j 0).val = (y 1).val; omega
    | ⟨2, _⟩ => show 0 + 1 * (j 1).val = (y 2).val; omega

section Lane
variable (v0 v2 v4 : Vec F S1x2880x128 .i32) (j : S2880x128.Idx) (xr : E3.Idx → BitVec 32) (e : E.Idx)
  (h0 : crd xr 0 e = k0_pay4 (F := F) v0 j) (h1 : crd xr 1 e = k0_pay5 (F := F) v2 j) (h2 : crd xr 2 e = k0_pay6 (F := F) v4 j)
include h0 h1 h2

/-- The body's mask at a lane is the entry's validity. -/
private theorem mask_eq : k0_pay7 (F := F) v0 v2 v4 j = valid xr e := by
  unfold valid
  rw [h0, h1, h2]
  rfl

/-- The body's marked voxel at a lane. -/
private theorem voxel_eq : k0_pay8 (F := F) v0 v2 v4 j = oob xr e := by
  unfold oob flat
  rw [← mask_eq v0 v2 v4 j xr e h0 h1 h2, h0, h1, h2]
  rfl

/-- The body's masked weight at a lane. -/
private theorem weight_eq (w : FVec F S2880x128 .f32) (wf : E.Idx → F .f32) (hw : wf e = w j) :
    k0_pay1 (k0_pay7 (F := F) v0 v2 v4) w (k0_pay11 (F := F)) j = wc xr wf e := by
  unfold wc
  rw [← mask_eq v0 v2 v4 j xr e h0 h1 h2, hw]
  rfl

/-- The body's masked weighted value at a lane. -/
private theorem wvalue_eq (w u : FVec F S2880x128 .f32) (wf vf : E.Idx → F .f32) (hw : wf e = w j) (hu : vf e = u j) :
    k0_pay2 (k0_pay7 (F := F) v0 v2 v4) w u j = uc xr wf vf e := by
  unfold uc
  rw [← mask_eq v0 v2 v4 j xr e h0 h1 h2, hw, hu]
  rfl

/-- The body's indicator at a lane. -/
private theorem ind_eq : k0_pay3 (F := F) (k0_pay7 (F := F) v0 v2 v4) j = ind (F := F) xr e := by
  unfold ind
  rw [← mask_eq v0 v2 v4 j xr e h0 h1 h2]
  rfl
end Lane

/-! ## The windows' blocks -/

/-- The printed index maps, decided over the grid: every window's block index is the grid point along the rows and
    zero on the other axes. -/
private theorem idx_facts : ∀ t : Fin cfg0.N, t.val < 60
    ∧ win0_0.index t (0 : Fin 3) = 0 ∧ win0_0.index t (1 : Fin 3) = t.val ∧ win0_0.index t (2 : Fin 3) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0 :=
  (by decide +kernel : ∀ t : Fin grid0.N, _)

section Blocks
variable (V : (c : Dev nD) → (b : Ref sig .tc) → Buf (Elt F) ((c : Thread nD τ).loc b))
variable (c : Dev nD) (xr : E3.Idx → BitVec 32) (wfl vfl : E.Idx → F .f32)

/-- The coordinate block of point t at (k, r, l) is coordinate k of entry (t·2880 + r)·128 + l. -/
private theorem coords_blk
    (h0 : V c (Pipeline.arrRef spec0 0) = shapeCast S3x172800x128 (transpose S3x22118400 [1, 0] xr transposes_S22118400x3_S3x22118400_1_0) shapeCasts_S3x22118400_S3x172800x128)
    (t : Fin cfg0.N) (y : S3x2880x128.Idx) (k : Fin 3) (e : E.Idx)
    (hk : (y 0).val = k.val) (he : (e 0).val = (t.val * 2880 + (y 1).val) * 128 + (y 2).val) :
    iblk0 V c 0 t y = crd xr k e := by
  obtain ⟨ht, a0, a1, a2, -⟩ := idx_facts t
  show V c (Pipeline.arrRef spec0 0) (((cfg0.win 0).blk t).view.emb y) = _
  refine (congrFun h0 _).trans (coord_read xr k _ e ?_ ?_)
  · show win0_0.index t (0 : Fin 3) * 3 + 1 * (y 0).val = k.val
    omega
  · show (e 0).val = (win0_0.index t (1 : Fin 3) * 2880 + 1 * (y 1).val) * 128 + (win0_0.index t (2 : Fin 3) * 128 + 1 * (y 2).val)
    omega
end Blocks

section Blocks2
variable (V : (c : Dev nD) → (b : Ref sig .tc) → Buf (Elt F) ((c : Thread nD τ).loc b))
variable (c : Dev nD) (xr : E3.Idx → BitVec 32) (wfl vfl : E.Idx → F .f32)

/-- The entry under lane (r, l) of point t's blocks: (t·2880 + r)·128 + l. -/
private def laneEnt (t : Fin cfg0.N) (j : S2880x128.Idx) : E.Idx :=
  ix1 ⟨(t.val * 2880 + (j 0).val) * 128 + (j 1).val, by
    have ht : t.val < 60 := (idx_facts t).1
    have h0 : (j 0).val < 2880 := (j 0).isLt
    have h1 : (j 1).val < 128 := (j 1).isLt
    omega⟩

/-- The three slabs the body loads, as rows of lanes, are the three coordinates of the lane's entry. -/
private theorem coords_lane
    (h0 : V c (Pipeline.arrRef spec0 0) = shapeCast S3x172800x128 (transpose S3x22118400 [1, 0] xr transposes_S22118400x3_S3x22118400_1_0) shapeCasts_S3x22118400_S3x172800x128)
    (t : Fin cfg0.N) (j : S2880x128.Idx) :
    crd xr 0 (laneEnt t j) = k0_pay4 (F := F) (View.ld (iblk0 V c 0 t) r0_0) j
    ∧ crd xr 1 (laneEnt t j) = k0_pay5 (F := F) (View.ld (iblk0 V c 0 t) r0_1) j
    ∧ crd xr 2 (laneEnt t j) = k0_pay6 (F := F) (View.ld (iblk0 V c 0 t) r0_2) j := by
  refine ⟨?_, ?_, ?_⟩
  · exact ((slab_read (iblk0 V c 0 t) 0 _ j (ix3 (n0 := 3) (n1 := 2880) (n2 := 128) 0 (j 0) (j 1)) rfl rfl rfl).trans
      (coords_blk V c xr h0 t _ 0 _ rfl rfl)).symm
  · exact ((slab_read (iblk0 V c 0 t) 1 _ j (ix3 (n0 := 3) (n1 := 2880) (n2 := 128) 1 (j 0) (j 1)) rfl rfl rfl).trans
      (coords_blk V c xr h0 t _ 1 _ rfl rfl)).symm
  · exact ((slab_read (iblk0 V c 0 t) 2 _ j (ix3 (n0 := 3) (n1 := 2880) (n2 := 128) 2 (j 0) (j 1)) rfl rfl rfl).trans
      (coords_blk V c xr h0 t _ 2 _ rfl rfl)).symm

/-- A whole block loaded and viewed at its own shape is the block. -/
private theorem whole_read (x : Vec F S2880x128 .f32) (j : S2880x128.Idx) :
    shapeCast S2880x128 (View.ld x r0_3) shapeCasts_S2880x128_S2880x128 j = x j :=
  (congrFun (shapeCast_self (s := S2880x128) (View.ld x r0_3) shapeCasts_S2880x128_S2880x128) j).trans
    (congrFun (View.ld_unit_zero (S := S2880x128) hz2 _ x) j)

/-- The weight block the body loads, at a lane, is the lane's entry's weight. -/
private theorem weight_lane (h1 : V c (Pipeline.arrRef spec0 1) = shapeCast S172800x128 wfl shapeCasts_S22118400_S172800x128)
    (t : Fin cfg0.N) (j : S2880x128.Idx) :
    wfl (laneEnt t j) = k0_pay9 (F := F) (View.ld (iblk0 V c 1 t) r0_3) j := by
  obtain ⟨ht, -, -, -, a0, a1, -⟩ := idx_facts t
  refine Eq.symm ((whole_read (iblk0 V c 1 t) j).trans ?_)
  show V c (Pipeline.arrRef spec0 1) (((cfg0.win 1).blk t).view.emb j) = _
  refine (congrFun h1 _).trans (flat_read wfl _ _ ?_)
  show (t.val * 2880 + (j 0).val) * 128 + (j 1).val = (win0_1.index t (0 : Fin 2) * 2880 + 1 * (j 0).val) * 128 + (win0_1.index t (1 : Fin 2) * 128 + 1 * (j 1).val)
  omega

/-- The value block the body loads, at a lane, is the lane's entry's value. -/
private theorem value_lane (h2 : V c (Pipeline.arrRef spec0 2) = shapeCast S172800x128 vfl shapeCasts_S22118400_S172800x128)
    (t : Fin cfg0.N) (j : S2880x128.Idx) :
    vfl (laneEnt t j) = k0_pay10 (F := F) (View.ld (iblk0 V c 2 t) r0_3) j := by
  obtain ⟨ht, -, -, -, -, -, a0, a1, -⟩ := idx_facts t
  refine Eq.symm ((whole_read (iblk0 V c 2 t) j).trans ?_)
  show V c (Pipeline.arrRef spec0 2) (((cfg0.win 2).blk t).view.emb j) = _
  refine (congrFun h2 _).trans (flat_read vfl _ _ ?_)
  show (t.val * 2880 + (j 0).val) * 128 + (j 1).val = (win0_2.index t (0 : Fin 2) * 2880 + 1 * (j 0).val) * 128 + (win0_2.index t (1 : Fin 2) * 128 + 1 * (j 1).val)
  omega
end Blocks2

/-! ## The output windows -/

/-- Every block index along the rows is some point's. -/
private theorem pt_onto : ∀ q : Fin 60, ∃ t : Fin cfg0.N, t.val = q.val :=
  (by decide +kernel : ∀ q : Fin 60, ∃ t : Fin grid0.N, t.val = q.val)

section Outputs
variable (V : (c : Dev nD) → (b : Ref sig .tc) → Buf (Elt F) ((c : Thread nD τ).loc b))
variable (c : Dev nD) (xr : E3.Idx → BitVec 32) (wfl vfl : E.Idx → F .f32)

/-! ### Window 3: the marked voxels -/

/-- A per-entry list laid out as rows of 128, read through output window 3's block of point t at a lane, is the list
    at the lane's entry. -/
private theorem out_lane3 (u : E.Idx → Elt F .i32) (t : Fin cfg0.N) (j : S2880x128.Idx) :
    ((cfg0.win 3).blk t).view.read (Elt F) (shapeCast S172800x128 u shapeCasts_S22118400_S172800x128) j = u (laneEnt t j) := by
  have a0 : win0_3.index t (0 : Fin 2) = t.val := by have h := idx_facts t; omega
  have a1 : win0_3.index t (1 : Fin 2) = 0 := by have h := idx_facts t; omega
  show shapeCast S172800x128 u shapeCasts_S22118400_S172800x128 (((cfg0.win 3).blk t).view.emb j) = _
  refine flat_read u _ _ ?_
  show (t.val * 2880 + (j 0).val) * 128 + (j 1).val = (win0_3.index t (0 : Fin 2) * 2880 + 1 * (j 0).val) * 128 + (win0_3.index t (1 : Fin 2) * 128 + 1 * (j 1).val)
  omega

/-- An index of the array is in point t's block of window 3 iff each coordinate is in the block's range on its axis. -/
private theorem mem_blk3 (t : Fin cfg0.N) (i : S172800x128.Idx) :
    i ∈ ((cfg0.win 3).blk t).view.set ↔ ∀ a : Fin 2, win0_3.index t a * S2880x128.size a ≤ (i a).val ∧ (i a).val < win0_3.index t a * S2880x128.size a + S2880x128.size a := by
  show i ∈ ((View.whole main_v8_0).slice (win0_3.rect t)).set ↔ _
  rw [View.set_slice_whole, Rect.mem_set_unit]
  exact Iff.rfl

/-- The 60 blocks of window 3 cover its array: row r is in block r / 2880. -/
private theorem cover3 (i : S172800x128.Idx) : ∃ t : Fin cfg0.N, (cfg0.win 3).flush t = true ∧ i ∈ ((cfg0.win 3).blk t).view.set := by
  have hi0 : (i 0).val < 172800 := (i 0).isLt
  have hi1 : (i 1).val < 128 := (i 1).isLt
  obtain ⟨t, ht⟩ := pt_onto ⟨(i 0).val / 2880, by omega⟩
  have hq : t.val = (i 0).val / 2880 := ht
  have a0 : win0_3.index t (0 : Fin 2) = t.val := by have h := idx_facts t; omega
  have a1 : win0_3.index t (1 : Fin 2) = 0 := by have h := idx_facts t; omega
  refine ⟨t, flush0_3 t, ?_⟩
  rw [mem_blk3]
  intro a
  match a with
  | ⟨0, _⟩ => show win0_3.index t (0 : Fin 2) * 2880 ≤ (i 0).val ∧ (i 0).val < win0_3.index t (0 : Fin 2) * 2880 + 2880; omega
  | ⟨1, _⟩ => show win0_3.index t (1 : Fin 2) * 128 ≤ (i 1).val ∧ (i 1).val < win0_3.index t (1 : Fin 2) * 128 + 128; omega

/-- What point t writes back to window 3's array is its block of the entries' marked voxels. -/
private theorem flushed3_eq
    (h0 : V c (Pipeline.arrRef spec0 0) = shapeCast S3x172800x128 (transpose S3x22118400 [1, 0] xr transposes_S22118400x3_S3x22118400_1_0) shapeCasts_S3x22118400_S3x172800x128)
    (t : Fin cfg0.N) :
    (dat0 V c).flushed 3 t = ((cfg0.win 3).blk t).view.read (Elt F) (shapeCast S172800x128 (oob xr) shapeCasts_S22118400_S172800x128) := by
  show (cfg0.win 3).cut (grid0.coords t) ((dat0 V c).after 3 t) = _
  rw [after0_3]
  unfold out0_3
  rw [View.canon_unit_zero hz2]
  funext j
  obtain ⟨c0, c1, c2⟩ := coords_lane V c xr h0 t j
  exact (voxel_eq _ _ _ j xr _ c0 c1 c2).trans (out_lane3 (oob xr) t j).symm

/-- Window 3's array after the call: every entry's marked voxel. -/
private theorem arr3
    (h0 : V c (Pipeline.arrRef spec0 0) = shapeCast S3x172800x128 (transpose S3x22118400 [1, 0] xr transposes_S22118400x3_S3x22118400_1_0) shapeCasts_S3x22118400_S3x172800x128) :
    (dat0 V c).arrAt 3 cfg0.N = shapeCast S172800x128 (oob xr) shapeCasts_S22118400_S172800x128 :=
  (dat0 V c).arrAt_eq_of_cover 3 _ (fun t _ => flushed3_eq V c xr h0 t) cover3

/-! ### Window 4: the masked weights -/

/-- A per-entry list laid out as rows of 128, read through output window 4's block of point t at a lane, is the list
    at the lane's entry. -/
private theorem out_lane4 (u : E.Idx → Elt F .f32) (t : Fin cfg0.N) (j : S2880x128.Idx) :
    ((cfg0.win 4).blk t).view.read (Elt F) (shapeCast S172800x128 u shapeCasts_S22118400_S172800x128) j = u (laneEnt t j) := by
  have a0 : win0_4.index t (0 : Fin 2) = t.val := by have h := idx_facts t; omega
  have a1 : win0_4.index t (1 : Fin 2) = 0 := by have h := idx_facts t; omega
  show shapeCast S172800x128 u shapeCasts_S22118400_S172800x128 (((cfg0.win 4).blk t).view.emb j) = _
  refine flat_read u _ _ ?_
  show (t.val * 2880 + (j 0).val) * 128 + (j 1).val = (win0_4.index t (0 : Fin 2) * 2880 + 1 * (j 0).val) * 128 + (win0_4.index t (1 : Fin 2) * 128 + 1 * (j 1).val)
  omega

/-- An index of the array is in point t's block of window 4 iff each coordinate is in the block's range on its axis. -/
private theorem mem_blk4 (t : Fin cfg0.N) (i : S172800x128.Idx) :
    i ∈ ((cfg0.win 4).blk t).view.set ↔ ∀ a : Fin 2, win0_4.index t a * S2880x128.size a ≤ (i a).val ∧ (i a).val < win0_4.index t a * S2880x128.size a + S2880x128.size a := by
  show i ∈ ((View.whole main_v8_1).slice (win0_4.rect t)).set ↔ _
  rw [View.set_slice_whole, Rect.mem_set_unit]
  exact Iff.rfl

/-- The 60 blocks of window 4 cover its array: row r is in block r / 2880. -/
private theorem cover4 (i : S172800x128.Idx) : ∃ t : Fin cfg0.N, (cfg0.win 4).flush t = true ∧ i ∈ ((cfg0.win 4).blk t).view.set := by
  have hi0 : (i 0).val < 172800 := (i 0).isLt
  have hi1 : (i 1).val < 128 := (i 1).isLt
  obtain ⟨t, ht⟩ := pt_onto ⟨(i 0).val / 2880, by omega⟩
  have hq : t.val = (i 0).val / 2880 := ht
  have a0 : win0_4.index t (0 : Fin 2) = t.val := by have h := idx_facts t; omega
  have a1 : win0_4.index t (1 : Fin 2) = 0 := by have h := idx_facts t; omega
  refine ⟨t, flush0_4 t, ?_⟩
  rw [mem_blk4]
  intro a
  match a with
  | ⟨0, _⟩ => show win0_4.index t (0 : Fin 2) * 2880 ≤ (i 0).val ∧ (i 0).val < win0_4.index t (0 : Fin 2) * 2880 + 2880; omega
  | ⟨1, _⟩ => show win0_4.index t (1 : Fin 2) * 128 ≤ (i 1).val ∧ (i 1).val < win0_4.index t (1 : Fin 2) * 128 + 128; omega

/-- What point t writes back to window 4's array is its block of the entries' masked weights. -/
private theorem flushed4_eq
    (h0 : V c (Pipeline.arrRef spec0 0) = shapeCast S3x172800x128 (transpose S3x22118400 [1, 0] xr transposes_S22118400x3_S3x22118400_1_0) shapeCasts_S3x22118400_S3x172800x128)
    (h1 : V c (Pipeline.arrRef spec0 1) = shapeCast S172800x128 wfl shapeCasts_S22118400_S172800x128)
    (t : Fin cfg0.N) :
    (dat0 V c).flushed 4 t = ((cfg0.win 4).blk t).view.read (Elt F) (shapeCast S172800x128 (wc xr wfl) shapeCasts_S22118400_S172800x128) := by
  show (cfg0.win 4).cut (grid0.coords t) ((dat0 V c).after 4 t) = _
  rw [after0_4]
  unfold out0_4
  rw [View.canon_unit_zero hz2]
  funext j
  obtain ⟨c0, c1, c2⟩ := coords_lane V c xr h0 t j
  exact (weight_eq _ _ _ j xr _ c0 c1 c2 _ wfl (weight_lane V c wfl h1 t j)).trans (out_lane4 (wc xr wfl) t j).symm

/-- Window 4's array after the call: every entry's masked weight. -/
private theorem arr4
    (h0 : V c (Pipeline.arrRef spec0 0) = shapeCast S3x172800x128 (transpose S3x22118400 [1, 0] xr transposes_S22118400x3_S3x22118400_1_0) shapeCasts_S3x22118400_S3x172800x128)
    (h1 : V c (Pipeline.arrRef spec0 1) = shapeCast S172800x128 wfl shapeCasts_S22118400_S172800x128) :
    (dat0 V c).arrAt 4 cfg0.N = shapeCast S172800x128 (wc xr wfl) shapeCasts_S22118400_S172800x128 :=
  (dat0 V c).arrAt_eq_of_cover 4 _ (fun t _ => flushed4_eq V c xr wfl h0 h1 t) cover4

/-! ### Window 5: the masked weighted values -/

/-- A per-entry list laid out as rows of 128, read through output window 5's block of point t at a lane, is the list
    at the lane's entry. -/
private theorem out_lane5 (u : E.Idx → Elt F .f32) (t : Fin cfg0.N) (j : S2880x128.Idx) :
    ((cfg0.win 5).blk t).view.read (Elt F) (shapeCast S172800x128 u shapeCasts_S22118400_S172800x128) j = u (laneEnt t j) := by
  have a0 : win0_5.index t (0 : Fin 2) = t.val := by have h := idx_facts t; omega
  have a1 : win0_5.index t (1 : Fin 2) = 0 := by have h := idx_facts t; omega
  show shapeCast S172800x128 u shapeCasts_S22118400_S172800x128 (((cfg0.win 5).blk t).view.emb j) = _
  refine flat_read u _ _ ?_
  show (t.val * 2880 + (j 0).val) * 128 + (j 1).val = (win0_5.index t (0 : Fin 2) * 2880 + 1 * (j 0).val) * 128 + (win0_5.index t (1 : Fin 2) * 128 + 1 * (j 1).val)
  omega

/-- An index of the array is in point t's block of window 5 iff each coordinate is in the block's range on its axis. -/
private theorem mem_blk5 (t : Fin cfg0.N) (i : S172800x128.Idx) :
    i ∈ ((cfg0.win 5).blk t).view.set ↔ ∀ a : Fin 2, win0_5.index t a * S2880x128.size a ≤ (i a).val ∧ (i a).val < win0_5.index t a * S2880x128.size a + S2880x128.size a := by
  show i ∈ ((View.whole main_v8_2).slice (win0_5.rect t)).set ↔ _
  rw [View.set_slice_whole, Rect.mem_set_unit]
  exact Iff.rfl

/-- The 60 blocks of window 5 cover its array: row r is in block r / 2880. -/
private theorem cover5 (i : S172800x128.Idx) : ∃ t : Fin cfg0.N, (cfg0.win 5).flush t = true ∧ i ∈ ((cfg0.win 5).blk t).view.set := by
  have hi0 : (i 0).val < 172800 := (i 0).isLt
  have hi1 : (i 1).val < 128 := (i 1).isLt
  obtain ⟨t, ht⟩ := pt_onto ⟨(i 0).val / 2880, by omega⟩
  have hq : t.val = (i 0).val / 2880 := ht
  have a0 : win0_5.index t (0 : Fin 2) = t.val := by have h := idx_facts t; omega
  have a1 : win0_5.index t (1 : Fin 2) = 0 := by have h := idx_facts t; omega
  refine ⟨t, flush0_5 t, ?_⟩
  rw [mem_blk5]
  intro a
  match a with
  | ⟨0, _⟩ => show win0_5.index t (0 : Fin 2) * 2880 ≤ (i 0).val ∧ (i 0).val < win0_5.index t (0 : Fin 2) * 2880 + 2880; omega
  | ⟨1, _⟩ => show win0_5.index t (1 : Fin 2) * 128 ≤ (i 1).val ∧ (i 1).val < win0_5.index t (1 : Fin 2) * 128 + 128; omega

/-- What point t writes back to window 5's array is its block of the entries' masked weighted values. -/
private theorem flushed5_eq
    (h0 : V c (Pipeline.arrRef spec0 0) = shapeCast S3x172800x128 (transpose S3x22118400 [1, 0] xr transposes_S22118400x3_S3x22118400_1_0) shapeCasts_S3x22118400_S3x172800x128)
    (h1 : V c (Pipeline.arrRef spec0 1) = shapeCast S172800x128 wfl shapeCasts_S22118400_S172800x128)
    (h2 : V c (Pipeline.arrRef spec0 2) = shapeCast S172800x128 vfl shapeCasts_S22118400_S172800x128)
    (t : Fin cfg0.N) :
    (dat0 V c).flushed 5 t = ((cfg0.win 5).blk t).view.read (Elt F) (shapeCast S172800x128 (uc xr wfl vfl) shapeCasts_S22118400_S172800x128) := by
  show (cfg0.win 5).cut (grid0.coords t) ((dat0 V c).after 5 t) = _
  rw [after0_5]
  unfold out0_5
  rw [View.canon_unit_zero hz2]
  funext j
  obtain ⟨c0, c1, c2⟩ := coords_lane V c xr h0 t j
  exact (wvalue_eq _ _ _ j xr _ c0 c1 c2 _ _ wfl vfl (weight_lane V c wfl h1 t j) (value_lane V c vfl h2 t j)).trans
    (out_lane5 (uc xr wfl vfl) t j).symm

/-- Window 5's array after the call: every entry's masked weighted value. -/
private theorem arr5
    (h0 : V c (Pipeline.arrRef spec0 0) = shapeCast S3x172800x128 (transpose S3x22118400 [1, 0] xr transposes_S22118400x3_S3x22118400_1_0) shapeCasts_S3x22118400_S3x172800x128)
    (h1 : V c (Pipeline.arrRef spec0 1) = shapeCast S172800x128 wfl shapeCasts_S22118400_S172800x128)
    (h2 : V c (Pipeline.arrRef spec0 2) = shapeCast S172800x128 vfl shapeCasts_S22118400_S172800x128) :
    (dat0 V c).arrAt 5 cfg0.N = shapeCast S172800x128 (uc xr wfl vfl) shapeCasts_S22118400_S172800x128 :=
  (dat0 V c).arrAt_eq_of_cover 5 _ (fun t _ => flushed5_eq V c xr wfl vfl h0 h1 h2 t) cover5

/-! ### Window 6: the validity indicators -/

/-- A per-entry list laid out as rows of 128, read through output window 6's block of point t at a lane, is the list
    at the lane's entry. -/
private theorem out_lane6 (u : E.Idx → Elt F .f32) (t : Fin cfg0.N) (j : S2880x128.Idx) :
    ((cfg0.win 6).blk t).view.read (Elt F) (shapeCast S172800x128 u shapeCasts_S22118400_S172800x128) j = u (laneEnt t j) := by
  have a0 : win0_6.index t (0 : Fin 2) = t.val := by have h := idx_facts t; omega
  have a1 : win0_6.index t (1 : Fin 2) = 0 := by have h := idx_facts t; omega
  show shapeCast S172800x128 u shapeCasts_S22118400_S172800x128 (((cfg0.win 6).blk t).view.emb j) = _
  refine flat_read u _ _ ?_
  show (t.val * 2880 + (j 0).val) * 128 + (j 1).val = (win0_6.index t (0 : Fin 2) * 2880 + 1 * (j 0).val) * 128 + (win0_6.index t (1 : Fin 2) * 128 + 1 * (j 1).val)
  omega

/-- An index of the array is in point t's block of window 6 iff each coordinate is in the block's range on its axis. -/
private theorem mem_blk6 (t : Fin cfg0.N) (i : S172800x128.Idx) :
    i ∈ ((cfg0.win 6).blk t).view.set ↔ ∀ a : Fin 2, win0_6.index t a * S2880x128.size a ≤ (i a).val ∧ (i a).val < win0_6.index t a * S2880x128.size a + S2880x128.size a := by
  show i ∈ ((View.whole main_v8_3).slice (win0_6.rect t)).set ↔ _
  rw [View.set_slice_whole, Rect.mem_set_unit]
  exact Iff.rfl

/-- The 60 blocks of window 6 cover its array: row r is in block r / 2880. -/
private theorem cover6 (i : S172800x128.Idx) : ∃ t : Fin cfg0.N, (cfg0.win 6).flush t = true ∧ i ∈ ((cfg0.win 6).blk t).view.set := by
  have hi0 : (i 0).val < 172800 := (i 0).isLt
  have hi1 : (i 1).val < 128 := (i 1).isLt
  obtain ⟨t, ht⟩ := pt_onto ⟨(i 0).val / 2880, by omega⟩
  have hq : t.val = (i 0).val / 2880 := ht
  have a0 : win0_6.index t (0 : Fin 2) = t.val := by have h := idx_facts t; omega
  have a1 : win0_6.index t (1 : Fin 2) = 0 := by have h := idx_facts t; omega
  refine ⟨t, flush0_6 t, ?_⟩
  rw [mem_blk6]
  intro a
  match a with
  | ⟨0, _⟩ => show win0_6.index t (0 : Fin 2) * 2880 ≤ (i 0).val ∧ (i 0).val < win0_6.index t (0 : Fin 2) * 2880 + 2880; omega
  | ⟨1, _⟩ => show win0_6.index t (1 : Fin 2) * 128 ≤ (i 1).val ∧ (i 1).val < win0_6.index t (1 : Fin 2) * 128 + 128; omega

/-- What point t writes back to window 6's array is its block of the entries' validity indicators. -/
private theorem flushed6_eq
    (h0 : V c (Pipeline.arrRef spec0 0) = shapeCast S3x172800x128 (transpose S3x22118400 [1, 0] xr transposes_S22118400x3_S3x22118400_1_0) shapeCasts_S3x22118400_S3x172800x128)
    (t : Fin cfg0.N) :
    (dat0 V c).flushed 6 t = ((cfg0.win 6).blk t).view.read (Elt F) (shapeCast S172800x128 (ind (F := F) xr) shapeCasts_S22118400_S172800x128) := by
  show (cfg0.win 6).cut (grid0.coords t) ((dat0 V c).after 6 t) = _
  rw [after0_6]
  unfold out0_6
  rw [View.canon_unit_zero hz2]
  funext j
  obtain ⟨c0, c1, c2⟩ := coords_lane V c xr h0 t j
  exact (ind_eq _ _ _ j xr _ c0 c1 c2).trans (out_lane6 (ind (F := F) xr) t j).symm

/-- Window 6's array after the call: every entry's validity indicator. -/
private theorem arr6
    (h0 : V c (Pipeline.arrRef spec0 0) = shapeCast S3x172800x128 (transpose S3x22118400 [1, 0] xr transposes_S22118400x3_S3x22118400_1_0) shapeCasts_S3x22118400_S3x172800x128) :
    (dat0 V c).arrAt 6 cfg0.N = shapeCast S172800x128 (ind (F := F) xr) shapeCasts_S22118400_S172800x128 :=
  (dat0 V c).arrAt_eq_of_cover 6 _ (fun t _ => flushed6_eq V c xr h0 t) cover6
end Outputs

variable (V : (c : Dev nD) → (b : Ref sig .tc) → Buf (Elt F) ((c : Thread nD τ).loc b))

theorem outputs (c : Dev nD) (xr : E3.Idx → BitVec 32) (wfl vfl : E.Idx → F .f32)
    (h0 : V c (Pipeline.arrRef spec0 0) = shapeCast S3x172800x128 (transpose S3x22118400 [1, 0] xr transposes_S22118400x3_S3x22118400_1_0) shapeCasts_S3x22118400_S3x172800x128)
    (h1 : V c (Pipeline.arrRef spec0 1) = shapeCast S172800x128 wfl shapeCasts_S22118400_S172800x128)
    (h2 : V c (Pipeline.arrRef spec0 2) = shapeCast S172800x128 vfl shapeCasts_S22118400_S172800x128) :
    (dat0 V c).arrAt 3 cfg0.N = shapeCast S172800x128 (oob xr) shapeCasts_S22118400_S172800x128
    ∧ (dat0 V c).arrAt 4 cfg0.N = shapeCast S172800x128 (wc xr wfl) shapeCasts_S22118400_S172800x128
    ∧ (dat0 V c).arrAt 5 cfg0.N = shapeCast S172800x128 (uc xr wfl vfl) shapeCasts_S22118400_S172800x128
    ∧ (dat0 V c).arrAt 6 cfg0.N = shapeCast S172800x128 (ind (F := F) xr) shapeCasts_S22118400_S172800x128 :=
  ⟨arr3 V c xr h0, arr4 V c xr wfl h0 h1, arr5 V c xr wfl vfl h0 h1 h2, arr6 V c xr h0⟩

end Cert.KernelIdeal.Region0

end
-- ==== Proof.Region1.lean ====
/-
  The dense call (32 points, blocks of 4096 rows of 128 lanes) over the voxel volume laid out as 131072 rows of 128: its
  two output arrays are the pointwise weight and value updates of its five input arrays, voxel by voxel.
-/
import proofs.«422224_j54460185313483_3_alg».proof.Proof.Gen.KernelIdeal.Frame
import proofs.«422224_j54460185313483_3_alg».proof.Proof.Spec
import Idealize.ShloMosaic.Lib.Pipeline.Value

set_option maxRecDepth 16384

noncomputable section

namespace Cert.KernelIdeal.Region1

open Cert.KernelIdeal Cert.KernelIdeal.Gen Cert.Fusion Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-- The zero offsets of a whole-block access. -/
private theorem zero_off : (![0, 0] : Fin 2 → Nat) = fun _ => 0 := funext fun a => by fin_cases a <;> rfl

/-- The weight update on the 2-D layout, index by index: old weight plus summed weight. -/
private abbrev GW (a0 a2 : S131072x128.Idx → Elt F .f32) : S131072x128.Idx → Elt F .f32 :=
  fun i => FloatOps.addf (a0 i) (a2 i)

/-- The value update on the 2-D layout, index by index: the weighted mean where the count is positive, else the old value. -/
private abbrev GV (a0 a1 a2 a3 a4 : S131072x128.Idx → Elt F .f32) : S131072x128.Idx → Elt F .f32 :=
  fun i => Scalar.select (FloatOps.cmpf .ogt (a4 i) f0)
    (FloatOps.divf (FloatOps.addf (FloatOps.mulf (a0 i) (a1 i)) (a3 i))
      (Scalar.select (FloatOps.cmpf .oeq (FloatOps.addf (a0 i) (a2 i)) f0) f1 (FloatOps.addf (a0 i) (a2 i))))
    (a1 i)

/-- The weight payload is the elementwise sum of its two blocks. -/
private theorem payW_eq (x0 x2 : Vec F S4096x128 .f32) : k1_pay2 x0 x2 = fun j => FloatOps.addf (x0 j) (x2 j) := by
  show addf (shapeCast S4096x128 x0 shapeCasts_S4096x128_S4096x128) (shapeCast S4096x128 x2 shapeCasts_S4096x128_S4096x128) = _
  rw [shapeCast_self, shapeCast_self]; rfl

/-- The value payload is the elementwise weighted-mean update of its five blocks. -/
private theorem payV_eq (x0 x1 x2 x3 x4 : Vec F S4096x128 .f32) : k1_pay3 x0 x1 x2 x3 x4 = fun j =>
    Scalar.select (FloatOps.cmpf .ogt (x4 j) f0)
      (FloatOps.divf (FloatOps.addf (FloatOps.mulf (x0 j) (x1 j)) (x3 j))
        (Scalar.select (FloatOps.cmpf .oeq (FloatOps.addf (x0 j) (x2 j)) f0) f1 (FloatOps.addf (x0 j) (x2 j))))
      (x1 j) := by
  unfold k1_pay3
  simp only [payW_eq]
  unfold k1_pay1
  simp only [shapeCast_self]
  rfl

/-- The index maps, decided over the grid: at every point each window's block index is the weight window's on both axes,
    and that index is at most 31 on the row axis and 0 on the lane axis. -/
private theorem idx_facts : ∀ t : Fin cfg1.N,
    win1_0.index t (0 : Fin 2) = win1_5.index t (0 : Fin 2) ∧ win1_0.index t (1 : Fin 2) = win1_5.index t (1 : Fin 2)
    ∧ win1_1.index t (0 : Fin 2) = win1_5.index t (0 : Fin 2) ∧ win1_1.index t (1 : Fin 2) = win1_5.index t (1 : Fin 2)
    ∧ win1_2.index t (0 : Fin 2) = win1_5.index t (0 : Fin 2) ∧ win1_2.index t (1 : Fin 2) = win1_5.index t (1 : Fin 2)
    ∧ win1_3.index t (0 : Fin 2) = win1_5.index t (0 : Fin 2) ∧ win1_3.index t (1 : Fin 2) = win1_5.index t (1 : Fin 2)
    ∧ win1_4.index t (0 : Fin 2) = win1_5.index t (0 : Fin 2) ∧ win1_4.index t (1 : Fin 2) = win1_5.index t (1 : Fin 2)
    ∧ win1_6.index t (0 : Fin 2) = win1_5.index t (0 : Fin 2) ∧ win1_6.index t (1 : Fin 2) = win1_5.index t (1 : Fin 2)
    ∧ win1_5.index t (0 : Fin 2) ≤ 31 ∧ win1_5.index t (1 : Fin 2) ≤ 0 :=
  (by decide +kernel : ∀ t : Fin grid1.N, _)

/-- Every row-block of the array is some point's, for either output window. -/
private theorem idx_onto5 : ∀ q0 : Fin 32, ∃ t : Fin cfg1.N, win1_5.index t = ![q0.val, 0] :=
  (by decide +kernel : ∀ q0 : Fin 32, ∃ t : Fin grid1.N, win1_5.index t = ![q0.val, 0])
private theorem idx_onto6 : ∀ q0 : Fin 32, ∃ t : Fin cfg1.N, win1_6.index t = ![q0.val, 0] :=
  (by decide +kernel : ∀ q0 : Fin 32, ∃ t : Fin grid1.N, win1_6.index t = ![q0.val, 0])

/-! Block t of each input window sits in its array where block t of either output window sits in its own: the element
    the body reads at a block index is the array's element at the output block's position. -/
private theorem emb_0_5 (t : Fin cfg1.N) (j : S4096x128.Idx) :
    ((cfg1.win 0).blk t).view.emb j = ((cfg1.win 5).blk t).view.emb j := by
  obtain ⟨a0, b0, a1, b1, a2, b2, a3, b3, a4, b4, a6, b6, -, -⟩ := idx_facts t
  funext a; apply Fin.ext
  match a with
  | ⟨0, _⟩ => show win1_0.index t (0 : Fin 2) * 4096 + 1 * (j 0).val = win1_5.index t (0 : Fin 2) * 4096 + 1 * (j 0).val; omega
  | ⟨1, _⟩ => show win1_0.index t (1 : Fin 2) * 128 + 1 * (j 1).val = win1_5.index t (1 : Fin 2) * 128 + 1 * (j 1).val; omega
private theorem emb_2_5 (t : Fin cfg1.N) (j : S4096x128.Idx) :
    ((cfg1.win 2).blk t).view.emb j = ((cfg1.win 5).blk t).view.emb j := by
  obtain ⟨a0, b0, a1, b1, a2, b2, a3, b3, a4, b4, a6, b6, -, -⟩ := idx_facts t
  funext a; apply Fin.ext
  match a with
  | ⟨0, _⟩ => show win1_2.index t (0 : Fin 2) * 4096 + 1 * (j 0).val = win1_5.index t (0 : Fin 2) * 4096 + 1 * (j 0).val; omega
  | ⟨1, _⟩ => show win1_2.index t (1 : Fin 2) * 128 + 1 * (j 1).val = win1_5.index t (1 : Fin 2) * 128 + 1 * (j 1).val; omega
private theorem emb_0_6 (t : Fin cfg1.N) (j : S4096x128.Idx) :
    ((cfg1.win 0).blk t).view.emb j = ((cfg1.win 6).blk t).view.emb j := by
  obtain ⟨a0, b0, a1, b1, a2, b2, a3, b3, a4, b4, a6, b6, -, -⟩ := idx_facts t
  funext a; apply Fin.ext
  match a with
  | ⟨0, _⟩ => show win1_0.index t (0 : Fin 2) * 4096 + 1 * (j 0).val = win1_6.index t (0 : Fin 2) * 4096 + 1 * (j 0).val; omega
  | ⟨1, _⟩ => show win1_0.index t (1 : Fin 2) * 128 + 1 * (j 1).val = win1_6.index t (1 : Fin 2) * 128 + 1 * (j 1).val; omega
private theorem emb_1_6 (t : Fin cfg1.N) (j : S4096x128.Idx) :
    ((cfg1.win 1).blk t).view.emb j = ((cfg1.win 6).blk t).view.emb j := by
  obtain ⟨a0, b0, a1, b1, a2, b2, a3, b3, a4, b4, a6, b6, -, -⟩ := idx_facts t
  funext a; apply Fin.ext
  match a with
  | ⟨0, _⟩ => show win1_1.index t (0 : Fin 2) * 4096 + 1 * (j 0).val = win1_6.index t (0 : Fin 2) * 4096 + 1 * (j 0).val; omega
  | ⟨1, _⟩ => show win1_1.index t (1 : Fin 2) * 128 + 1 * (j 1).val = win1_6.index t (1 : Fin 2) * 128 + 1 * (j 1).val; omega
private theorem emb_2_6 (t : Fin cfg1.N) (j : S4096x128.Idx) :
    ((cfg1.win 2).blk t).view.emb j = ((cfg1.win 6).blk t).view.emb j := by
  obtain ⟨a0, b0, a1, b1, a2, b2, a3, b3, a4, b4, a6, b6, -, -⟩ := idx_facts t
  funext a; apply Fin.ext
  match a with
  | ⟨0, _⟩ => show win1_2.index t (0 : Fin 2) * 4096 + 1 * (j 0).val = win1_6.index t (0 : Fin 2) * 4096 + 1 * (j 0).val; omega
  | ⟨1, _⟩ => show win1_2.index t (1 : Fin 2) * 128 + 1 * (j 1).val = win1_6.index t (1 : Fin 2) * 128 + 1 * (j 1).val; omega
private theorem emb_3_6 (t : Fin cfg1.N) (j : S4096x128.Idx) :
    ((cfg1.win 3).blk t).view.emb j = ((cfg1.win 6).blk t).view.emb j := by
  obtain ⟨a0, b0, a1, b1, a2, b2, a3, b3, a4, b4, a6, b6, -, -⟩ := idx_facts t
  funext a; apply Fin.ext
  match a with
  | ⟨0, _⟩ => show win1_3.index t (0 : Fin 2) * 4096 + 1 * (j 0).val = win1_6.index t (0 : Fin 2) * 4096 + 1 * (j 0).val; omega
  | ⟨1, _⟩ => show win1_3.index t (1 : Fin 2) * 128 + 1 * (j 1).val = win1_6.index t (1 : Fin 2) * 128 + 1 * (j 1).val; omega
private theorem emb_4_6 (t : Fin cfg1.N) (j : S4096x128.Idx) :
    ((cfg1.win 4).blk t).view.emb j = ((cfg1.win 6).blk t).view.emb j := by
  obtain ⟨a0, b0, a1, b1, a2, b2, a3, b3, a4, b4, a6, b6, -, -⟩ := idx_facts t
  funext a; apply Fin.ext
  match a with
  | ⟨0, _⟩ => show win1_4.index t (0 : Fin 2) * 4096 + 1 * (j 0).val = win1_6.index t (0 : Fin 2) * 4096 + 1 * (j 0).val; omega
  | ⟨1, _⟩ => show win1_4.index t (1 : Fin 2) * 128 + 1 * (j 1).val = win1_6.index t (1 : Fin 2) * 128 + 1 * (j 1).val; omega

private theorem rd_0_5 (c : Dev nD) (t : Fin cfg1.N) (j : S4096x128.Idx) :
    iblk1 V c 0 t j = V c (Pipeline.arrRef spec1 0) (((cfg1.win 5).blk t).view.emb j) :=
  congrArg (V c (Pipeline.arrRef spec1 0)) (emb_0_5 t j)
private theorem rd_2_5 (c : Dev nD) (t : Fin cfg1.N) (j : S4096x128.Idx) :
    iblk1 V c 2 t j = V c (Pipeline.arrRef spec1 2) (((cfg1.win 5).blk t).view.emb j) :=
  congrArg (V c (Pipeline.arrRef spec1 2)) (emb_2_5 t j)
private theorem rd_0_6 (c : Dev nD) (t : Fin cfg1.N) (j : S4096x128.Idx) :
    iblk1 V c 0 t j = V c (Pipeline.arrRef spec1 0) (((cfg1.win 6).blk t).view.emb j) :=
  congrArg (V c (Pipeline.arrRef spec1 0)) (emb_0_6 t j)
private theorem rd_1_6 (c : Dev nD) (t : Fin cfg1.N) (j : S4096x128.Idx) :
    iblk1 V c 1 t j = V c (Pipeline.arrRef spec1 1) (((cfg1.win 6).blk t).view.emb j) :=
  congrArg (V c (Pipeline.arrRef spec1 1)) (emb_1_6 t j)
private theorem rd_2_6 (c : Dev nD) (t : Fin cfg1.N) (j : S4096x128.Idx) :
    iblk1 V c 2 t j = V c (Pipeline.arrRef spec1 2) (((cfg1.win 6).blk t).view.emb j) :=
  congrArg (V c (Pipeline.arrRef spec1 2)) (emb_2_6 t j)
private theorem rd_3_6 (c : Dev nD) (t : Fin cfg1.N) (j : S4096x128.Idx) :
    iblk1 V c 3 t j = V c (Pipeline.arrRef spec1 3) (((cfg1.win 6).blk t).view.emb j) :=
  congrArg (V c (Pipeline.arrRef spec1 3)) (emb_3_6 t j)
private theorem rd_4_6 (c : Dev nD) (t : Fin cfg1.N) (j : S4096x128.Idx) :
    iblk1 V c 4 t j = V c (Pipeline.arrRef spec1 4) (((cfg1.win 6).blk t).view.emb j) :=
  congrArg (V c (Pipeline.arrRef spec1 4)) (emb_4_6 t j)

/-- The weight update of equal arguments. -/
private theorem gw_congr {x0 x2 y0 y2 : F .f32} (h0 : x0 = y0) (h2 : x2 = y2) : FloatOps.addf x0 x2 = FloatOps.addf y0 y2 := by
  subst h0 h2; rfl

/-- The value update of equal arguments. -/
private theorem gv_congr {x0 x1 x2 x3 x4 y0 y1 y2 y3 y4 : F .f32} (h0 : x0 = y0) (h1 : x1 = y1) (h2 : x2 = y2) (h3 : x3 = y3) (h4 : x4 = y4) :
    Scalar.select (FloatOps.cmpf .ogt x4 f0)
      (FloatOps.divf (FloatOps.addf (FloatOps.mulf x0 x1) x3)
        (Scalar.select (FloatOps.cmpf .oeq (FloatOps.addf x0 x2) f0) f1 (FloatOps.addf x0 x2)))
      x1
    = Scalar.select (FloatOps.cmpf .ogt y4 f0)
      (FloatOps.divf (FloatOps.addf (FloatOps.mulf y0 y1) y3)
        (Scalar.select (FloatOps.cmpf .oeq (FloatOps.addf y0 y2) f0) f1 (FloatOps.addf y0 y2)))
      y1 := by
  subst h0 h1 h2 h3 h4; rfl

/-- What point t writes back through the weight window is block t of the pointwise weight update of the arrays as the
    call finds them. -/
private theorem flushedW_eq (c : Dev nD) (t : Fin cfg1.N) :
    (dat1 V c).flushed 5 t = ((cfg1.win 5).blk t).view.read (Elt F)
      (GW (V c (Pipeline.arrRef spec1 0)) (V c (Pipeline.arrRef spec1 2))) := by
  show (cfg1.win 5).cut (grid1.coords t) ((dat1 V c).after 5 t) = _
  rw [after1_5]
  unfold out1_5
  rw [View.canon_unit_zero zero_off]
  simp only [View.ld_unit_zero (S := S4096x128) zero_off]
  rw [payW_eq]
  funext j
  exact gw_congr (rd_0_5 V c t j) (rd_2_5 V c t j)

/-- What point t writes back through the value window is block t of the pointwise value update of the arrays as the
    call finds them. -/
private theorem flushedV_eq (c : Dev nD) (t : Fin cfg1.N) :
    (dat1 V c).flushed 6 t = ((cfg1.win 6).blk t).view.read (Elt F)
      (GV (V c (Pipeline.arrRef spec1 0)) (V c (Pipeline.arrRef spec1 1)) (V c (Pipeline.arrRef spec1 2)) (V c (Pipeline.arrRef spec1 3)) (V c (Pipeline.arrRef spec1 4))) := by
  show (cfg1.win 6).cut (grid1.coords t) ((dat1 V c).after 6 t) = _
  rw [after1_6]
  unfold out1_6
  rw [View.canon_unit_zero zero_off]
  simp only [View.ld_unit_zero (S := S4096x128) zero_off]
  rw [payV_eq]
  funext j
  exact gv_congr (rd_0_6 V c t j) (rd_1_6 V c t j) (rd_2_6 V c t j) (rd_3_6 V c t j) (rd_4_6 V c t j)

/-- An index of the array is in point t's block iff each coordinate is in the block's range on its axis. -/
private theorem mem_blk5 (t : Fin cfg1.N) (i : S131072x128.Idx) :
    i ∈ ((cfg1.win 5).blk t).view.set ↔ ∀ a : Fin 2, win1_5.index t a * S4096x128.size a ≤ (i a).val ∧ (i a).val < win1_5.index t a * S4096x128.size a + S4096x128.size a := by
  show i ∈ ((View.whole main_v30_0).slice (win1_5.rect t)).set ↔ _
  rw [View.set_slice_whole, Rect.mem_set_unit]
  exact Iff.rfl

/-- The blocks fill the array: every index is in some point's block. -/
private theorem cover5 (i : S131072x128.Idx) :
    ∃ t : Fin cfg1.N, (cfg1.win 5).flush t = true ∧ i ∈ ((cfg1.win 5).blk t).view.set := by
  have hi0 : (i 0).val < 131072 := (i 0).isLt
  have hi1 : (i 1).val < 128 := (i 1).isLt
  obtain ⟨t, ht⟩ := idx_onto5 ⟨(i 0).val / 4096, by omega⟩
  have q0 : win1_5.index t (0 : Fin 2) = (i 0).val / 4096 := congrFun ht 0
  have q1 : win1_5.index t (1 : Fin 2) = 0 := congrFun ht 1
  refine ⟨t, flush1_5 t, ?_⟩
  rw [mem_blk5]
  intro a
  match a with
  | ⟨0, _⟩ => show win1_5.index t (0 : Fin 2) * 4096 ≤ (i 0).val ∧ (i 0).val < win1_5.index t (0 : Fin 2) * 4096 + 4096; omega
  | ⟨1, _⟩ => show win1_5.index t (1 : Fin 2) * 128 ≤ (i 1).val ∧ (i 1).val < win1_5.index t (1 : Fin 2) * 128 + 128; omega

/-- An index of the array is in point t's block iff each coordinate is in the block's range on its axis. -/
private theorem mem_blk6 (t : Fin cfg1.N) (i : S131072x128.Idx) :
    i ∈ ((cfg1.win 6).blk t).view.set ↔ ∀ a : Fin 2, win1_6.index t a * S4096x128.size a ≤ (i a).val ∧ (i a).val < win1_6.index t a * S4096x128.size a + S4096x128.size a := by
  show i ∈ ((View.whole main_v30_1).slice (win1_6.rect t)).set ↔ _
  rw [View.set_slice_whole, Rect.mem_set_unit]
  exact Iff.rfl

/-- The blocks fill the array: every index is in some point's block. -/
private theorem cover6 (i : S131072x128.Idx) :
    ∃ t : Fin cfg1.N, (cfg1.win 6).flush t = true ∧ i ∈ ((cfg1.win 6).blk t).view.set := by
  have hi0 : (i 0).val < 131072 := (i 0).isLt
  have hi1 : (i 1).val < 128 := (i 1).isLt
  obtain ⟨t, ht⟩ := idx_onto6 ⟨(i 0).val / 4096, by omega⟩
  have q0 : win1_6.index t (0 : Fin 2) = (i 0).val / 4096 := congrFun ht 0
  have q1 : win1_6.index t (1 : Fin 2) = 0 := congrFun ht 1
  refine ⟨t, flush1_6 t, ?_⟩
  rw [mem_blk6]
  intro a
  match a with
  | ⟨0, _⟩ => show win1_6.index t (0 : Fin 2) * 4096 ≤ (i 0).val ∧ (i 0).val < win1_6.index t (0 : Fin 2) * 4096 + 4096; omega
  | ⟨1, _⟩ => show win1_6.index t (1 : Fin 2) * 128 ≤ (i 1).val ∧ (i 1).val < win1_6.index t (1 : Fin 2) * 128 + 128; omega

/-- The weight array after the call: the per-voxel weight update, in the 2-D layout. -/
private theorem finalW (c : Dev nD) (w ws : Vx.Idx → F .f32)
    (h0 : V c (Pipeline.arrRef spec1 0) = shapeCast S131072x128 w shapeCasts_S16777216_S131072x128)
    (h2 : V c (Pipeline.arrRef spec1 2) = shapeCast S131072x128 ws shapeCasts_S16777216_S131072x128) :
    (dat1 V c).arrAt 5 cfg1.N = shapeCast S131072x128 (updW w ws) shapeCasts_S16777216_S131072x128 := by
  have hG : shapeCast S131072x128 (updW w ws) shapeCasts_S16777216_S131072x128
      = GW (V c (Pipeline.arrRef spec1 0)) (V c (Pipeline.arrRef spec1 2)) := by rw [h0, h2]; rfl
  rw [hG]
  exact (dat1 V c).arrAt_eq_of_cover 5 _ (fun t _ => flushedW_eq V c t) cover5

/-- The value array after the call: the per-voxel value update, in the 2-D layout. -/
private theorem finalV (c : Dev nD) (w v ws us ts : Vx.Idx → F .f32)
    (h0 : V c (Pipeline.arrRef spec1 0) = shapeCast S131072x128 w shapeCasts_S16777216_S131072x128)
    (h1 : V c (Pipeline.arrRef spec1 1) = shapeCast S131072x128 v shapeCasts_S16777216_S131072x128)
    (h2 : V c (Pipeline.arrRef spec1 2) = shapeCast S131072x128 ws shapeCasts_S16777216_S131072x128)
    (h3 : V c (Pipeline.arrRef spec1 3) = shapeCast S131072x128 us shapeCasts_S16777216_S131072x128)
    (h4 : V c (Pipeline.arrRef spec1 4) = shapeCast S131072x128 ts shapeCasts_S16777216_S131072x128) :
    (dat1 V c).arrAt 6 cfg1.N = shapeCast S131072x128 (updV w v ws us ts) shapeCasts_S16777216_S131072x128 := by
  have hG : shapeCast S131072x128 (updV w v ws us ts) shapeCasts_S16777216_S131072x128
      = GV (V c (Pipeline.arrRef spec1 0)) (V c (Pipeline.arrRef spec1 1)) (V c (Pipeline.arrRef spec1 2)) (V c (Pipeline.arrRef spec1 3)) (V c (Pipeline.arrRef spec1 4)) := by rw [h0, h1, h2, h3, h4]; rfl
  rw [hG]
  exact (dat1 V c).arrAt_eq_of_cover 6 _ (fun t _ => flushedV_eq V c t) cover6

theorem outputs (c : Dev nD) (w v ws us ts : Vx.Idx → F .f32)
    (h0 : V c (Pipeline.arrRef spec1 0) = shapeCast S131072x128 w shapeCasts_S16777216_S131072x128)
    (h1 : V c (Pipeline.arrRef spec1 1) = shapeCast S131072x128 v shapeCasts_S16777216_S131072x128)
    (h2 : V c (Pipeline.arrRef spec1 2) = shapeCast S131072x128 ws shapeCasts_S16777216_S131072x128)
    (h3 : V c (Pipeline.arrRef spec1 3) = shapeCast S131072x128 us shapeCasts_S16777216_S131072x128)
    (h4 : V c (Pipeline.arrRef spec1 4) = shapeCast S131072x128 ts shapeCasts_S16777216_S131072x128) :
    (dat1 V c).arrAt 5 cfg1.N = shapeCast S131072x128 (updW w ws) shapeCasts_S16777216_S131072x128
    ∧ (dat1 V c).arrAt 6 cfg1.N = shapeCast S131072x128 (updV w v ws us ts) shapeCasts_S16777216_S131072x128 :=
  ⟨finalW V c w ws h0 h2, finalV V c w v ws us ts h0 h1 h2 h3 h4⟩

end Cert.KernelIdeal.Region1

end
-- ==== Proof.KHostA.lean ====
/-
  The kernel program's buffers between its calls, followed from the launch memory: the first call's inputs are the
  entries' coordinates, weights and values in rows of 128; its outputs, flattened, are the per-entry sentinel-marked
  voxel, masked weight, masked weighted value and validity indicator. The three per-voxel sums of those (with a trash
  slot for the sentinel, then cut off) and the two old volumes, in rows of 128, are the dense call's inputs; its
  outputs, reshaped to the volume, are two of the program's results.
-/
import proofs.«422224_j54460185313483_3_alg».proof.Proof.Gen.KernelIdeal.Frame
import proofs.«422224_j54460185313483_3_alg».proof.Proof.Spec
import proofs.«422224_j54460185313483_3_alg».proof.Proof.Layout
import proofs.«422224_j54460185313483_3_alg».proof.Proof.Region0
import proofs.«422224_j54460185313483_3_alg».proof.Proof.Region1
set_option maxRecDepth 16384

noncomputable section

namespace Cert.KernelIdeal.HostRun

open Cert.KernelIdeal Cert.KernelIdeal.Gen Cert.Fusion Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-- The argument arrays on the flat index spaces. -/
abbrev xr (c : Dev nD) : E3.Idx → BitVec 32 := xrOf (m ((c.tc : Thread nD τ).loc main_arg1))
abbrev wf (c : Dev nD) : E.Idx → F .f32 := wfOf (m ((c.tc : Thread nD τ).loc main_arg2))
abbrev vf (c : Dev nD) : E.Idx → F .f32 := perEntry (m ((c.tc : Thread nD τ).loc main_arg0))
abbrev idf (c : Dev nD) : E.Idx → BitVec 32 := perEntry (m ((c.tc : Thread nD τ).loc main_arg3))
abbrev scf (c : Dev nD) : E.Idx → F .f32 := perEntry (m ((c.tc : Thread nD τ).loc main_arg4))
abbrev vvol (c : Dev nD) : Vx.Idx → F .f32 := volOf (m ((c.tc : Thread nD τ).loc main_arg5))
abbrev wvol (c : Dev nD) : Vx.Idx → F .f32 := volOf (m ((c.tc : Thread nD τ).loc main_arg6))
abbrev semvol (c : Dev nD) : Vx.Idx → BitVec 32 := volOf (m ((c.tc : Thread nD τ).loc main_arg7))
abbrev scvol (c : Dev nD) : Vx.Idx → F .f32 := volOf (m ((c.tc : Thread nD τ).loc main_arg8))

/-- After the first call: its four output arrays. -/
theorem exit0 (c : Dev nD) :
    V2 m ρ c (Pipeline.arrRef spec0 3) = shapeCast S172800x128 (oob (xr m c)) shapeCasts_S22118400_S172800x128
    ∧ V2 m ρ c (Pipeline.arrRef spec0 4) = shapeCast S172800x128 (wc (xr m c) (wf m c)) shapeCasts_S22118400_S172800x128
    ∧ V2 m ρ c (Pipeline.arrRef spec0 5) = shapeCast S172800x128 (uc (xr m c) (wf m c) (vf m c)) shapeCasts_S22118400_S172800x128
    ∧ V2 m ρ c (Pipeline.arrRef spec0 6) = shapeCast S172800x128 (ind (F := F) (xr m c)) shapeCasts_S22118400_S172800x128 := by
  have h0 : V1 m ρ c (Pipeline.arrRef spec0 0) = shapeCast S3x172800x128 (transpose S3x22118400 [1, 0] (xr m c) transposes_S22118400x3_S3x22118400_1_0) shapeCasts_S3x22118400_S3x172800x128 := by
    show StableHlo.after hostOps0 (W0 m ρ c) (Proc.devRef .tc main_v2) = _
    after_results
    rfl
  have h1 : V1 m ρ c (Pipeline.arrRef spec0 1) = shapeCast S172800x128 (wf m c) shapeCasts_S22118400_S172800x128 := by
    show StableHlo.after hostOps0 (W0 m ρ c) (Proc.devRef .tc main_v3) = _
    after_results
    exact (shapeCast_comp (m ((c.tc : Thread nD τ).loc main_arg2)) _ shapeCasts_S22118400_S172800x128 _).symm
  have h2 : V1 m ρ c (Pipeline.arrRef spec0 2) = shapeCast S172800x128 (vf m c) shapeCasts_S22118400_S172800x128 := by
    show StableHlo.after hostOps0 (W0 m ρ c) (Proc.devRef .tc main_v7) = _
    after_results
    exact congrArg (fun y => shapeCast S172800x128 y shapeCasts_S22118400_S172800x128)
      (rep8_rows (m ((c.tc : Thread nD τ).loc main_arg0)) shapeCasts_S480x640x9_S2764800 bcast_S2764800_S2764800x8_0 shapeCasts_S2764800x8_S22118400)
  obtain ⟨o3, o4, o5, o6⟩ := Region0.outputs (V1 m ρ) c (xr m c) (wf m c) (vf m c) h0 h1 h2
  exact ⟨(hF0 m ρ c 3).symm.trans o3, (hF0 m ρ c 4).symm.trans o4, (hF0 m ρ c 5).symm.trans o5, (hF0 m ρ c 6).symm.trans o6⟩

/-- One per-voxel sum as the second stretch computes it — the entries' indices and the summed quantity flattened from
    their rows of 128, added into zeros with a trash slot, the slot cut off, the voxels laid out in rows of 128 — is
    Spec's per-voxel sum in that layout. -/
theorem sum_stage (o : E.Idx → BitVec 32) (u : E.Idx → F .f32) :
    shapeCast S131072x128 (extractStridedSlice S16777216 ![0]
      (Host.scatterAdd scatter_S16777217_S22118400x1_S22118400_n_0_0_1
        (broadcastInDim S16777217 ![] bcast_S_S16777217 (constant S_ .f32 0x00000000#32))
        (broadcastInDim S22118400x1 ![0] bcast_S22118400_S22118400x1_0
          (shapeCast S22118400 (shapeCast S172800x128 o shapeCasts_S22118400_S172800x128) shapeCasts_S172800x128_S22118400))
        (shapeCast S22118400 (shapeCast S172800x128 u shapeCasts_S22118400_S172800x128) shapeCasts_S172800x128_S22118400))
      slices_S16777217_S16777216_0) shapeCasts_S16777216_S131072x128
    = shapeCast S131072x128 (fun p => Host.scatterAdd d17 (fun _ => f0) (col o) u
        (ValueIdx.ix1 ⟨(p 0).val, by have h : (p 0).val < 16777216 := (p 0).isLt; omega⟩)) shapeCasts_S16777216_S131072x128 := by
  rw [shapeCast_shapeCast, shapeCast_shapeCast, bcast_col, slice_trash]
  rfl

set_option maxHeartbeats 8000000 in
/-- After the dense call: its two output arrays. -/
theorem exit1 (c : Dev nD) :
    V4 m ρ c (Pipeline.arrRef spec1 5) = shapeCast S131072x128 (denseW (xr m c) (wf m c) (wvol m c)) shapeCasts_S16777216_S131072x128
    ∧ V4 m ρ c (Pipeline.arrRef spec1 6) = shapeCast S131072x128 (denseV (xr m c) (wf m c) (vf m c) (vvol m c) (wvol m c)) shapeCasts_S16777216_S131072x128 := by
  obtain ⟨e3, e4, e5, e6⟩ := exit0 m ρ c
  -- the two old volumes are still the launch memory's when the dense call is entered
  have a6 : W2 m ρ c (Proc.devRef .tc main_arg6) = m ((c.tc : Thread nD τ).loc main_arg6) :=
    (W2_of_ne m ρ c main_arg6 (by decide)).trans (by
      show StableHlo.after hostOps0 (W0 m ρ c) (Proc.devRef .tc main_arg6) = _
      after_results <;> rfl)
  have a5 : W2 m ρ c (Proc.devRef .tc main_arg5) = m ((c.tc : Thread nD τ).loc main_arg5) :=
    (W2_of_ne m ρ c main_arg5 (by decide)).trans (by
      show StableHlo.after hostOps0 (W0 m ρ c) (Proc.devRef .tc main_arg5) = _
      after_results <;> rfl)
  have i0 : V3 m ρ c (Pipeline.arrRef spec1 0) = shapeCast S131072x128 (wvol m c) shapeCasts_S16777216_S131072x128 := by
    show StableHlo.after hostOps1 (W2 m ρ c) (Proc.devRef .tc main_v25) = _
    after_results
    rw [a6]
    exact (shapeCast_comp (m ((c.tc : Thread nD τ).loc main_arg6)) _ shapeCasts_S16777216_S131072x128 _).symm
  have i1 : V3 m ρ c (Pipeline.arrRef spec1 1) = shapeCast S131072x128 (vvol m c) shapeCasts_S16777216_S131072x128 := by
    show StableHlo.after hostOps1 (W2 m ρ c) (Proc.devRef .tc main_v26) = _
    after_results
    rw [a5]
    exact (shapeCast_comp (m ((c.tc : Thread nD τ).loc main_arg5)) _ shapeCasts_S16777216_S131072x128 _).symm
  have i2 : V3 m ρ c (Pipeline.arrRef spec1 2) = shapeCast S131072x128 (vsum (xr m c) (wc (xr m c) (wf m c))) shapeCasts_S16777216_S131072x128 := by
    show StableHlo.after hostOps1 (W2 m ρ c) (Proc.devRef .tc main_v27) = _
    after_results
    rw [show W2 m ρ c (Proc.devRef .tc main_v8_0) = _ from e3, show W2 m ρ c (Proc.devRef .tc main_v8_1) = _ from e4]
    exact sum_stage _ _
  have i3 : V3 m ρ c (Pipeline.arrRef spec1 3) = shapeCast S131072x128 (vsum (xr m c) (uc (xr m c) (wf m c) (vf m c))) shapeCasts_S16777216_S131072x128 := by
    show StableHlo.after hostOps1 (W2 m ρ c) (Proc.devRef .tc main_v28) = _
    after_results
    rw [show W2 m ρ c (Proc.devRef .tc main_v8_0) = _ from e3, show W2 m ρ c (Proc.devRef .tc main_v8_2) = _ from e5]
    exact sum_stage _ _
  have i4 : V3 m ρ c (Pipeline.arrRef spec1 4) = shapeCast S131072x128 (vsum (xr m c) (ind (F := F) (xr m c))) shapeCasts_S16777216_S131072x128 := by
    show StableHlo.after hostOps1 (W2 m ρ c) (Proc.devRef .tc main_v29) = _
    after_results
    rw [show W2 m ρ c (Proc.devRef .tc main_v8_0) = _ from e3, show W2 m ρ c (Proc.devRef .tc main_v8_3) = _ from e6]
    exact sum_stage _ _
  obtain ⟨o5, o6⟩ := Region1.outputs (V3 m ρ) c (wvol m c) (vvol m c) (vsum (xr m c) (wc (xr m c) (wf m c))) (vsum (xr m c) (uc (xr m c) (wf m c) (vf m c))) (vsum (xr m c) (ind (F := F) (xr m c))) i0 i1 i2 i3 i4
  exact ⟨(hF1 m ρ c 5).symm.trans o5, (hF1 m ρ c 6).symm.trans o6⟩

set_option maxHeartbeats 8000000 in
/-- The new weight volume and the new value volume, at the program's end. -/
theorem res_v31 (c : Dev nD) : W7 m ρ c (Proc.devRef .tc main_v31) = unflat (denseW (xr m c) (wf m c) (wvol m c)) := by
  obtain ⟨o5, -⟩ := exit1 m ρ c
  have h7 : W7 m ρ c (Proc.devRef .tc main_v31) = W6 m ρ c (Proc.devRef .tc main_v31) := by
    show StableHlo.after hostOps3 (W6 m ρ c) (Proc.devRef .tc main_v31) = _
    after_results <;> rfl
  rw [h7, W6_of_ne m ρ c main_v31 (by decide)]
  show StableHlo.after hostOps2 (W4 m ρ c) (Proc.devRef .tc main_v31) = _
  after_results
  rw [show W4 m ρ c (Proc.devRef .tc main_v30_0) = _ from o5]
  exact shapeCast_comp _ _ _ _
set_option maxHeartbeats 8000000 in
theorem res_v32 (c : Dev nD) : W7 m ρ c (Proc.devRef .tc main_v32) = unflat (denseV (xr m c) (wf m c) (vf m c) (vvol m c) (wvol m c)) := by
  obtain ⟨-, o6⟩ := exit1 m ρ c
  have h7 : W7 m ρ c (Proc.devRef .tc main_v32) = W6 m ρ c (Proc.devRef .tc main_v32) := by
    show StableHlo.after hostOps3 (W6 m ρ c) (Proc.devRef .tc main_v32) = _
    after_results <;> rfl
  rw [h7, W6_of_ne m ρ c main_v32 (by decide)]
  show StableHlo.after hostOps2 (W4 m ρ c) (Proc.devRef .tc main_v32) = _
  after_results
  rw [show W4 m ρ c (Proc.devRef .tc main_v30_1) = _ from o6]
  exact shapeCast_comp _ _ _ _

end Cert.KernelIdeal.HostRun

end
-- ==== Proof.Region2.lean ====
/-
  The label-and-score call (60 points, blocks of 2880 rows of 128 lanes) over the entries laid out as 172800 rows of 128:
  its three outputs are the fused score, the fused label and the label's write index, entry by entry.
-/
import proofs.«422224_j54460185313483_3_alg».proof.Proof.Gen.KernelIdeal.Frame
import proofs.«422224_j54460185313483_3_alg».proof.Proof.Spec
import Idealize.ShloMosaic.Lib.Pipeline.Value

set_option maxRecDepth 16384

noncomputable section

namespace Cert.KernelIdeal.Region2

open Cert.KernelIdeal Cert.KernelIdeal.Gen Cert.Fusion Idealize.ShloMosaic Idealize.ShloMosaic.TcCoe Idealize.SL.Sem
open Idealize.ShloMosaic.Pipeline (Dat)

variable {F : FTy → Type} [FloatOps F]
variable (V : (c : Dev nD) → (b : Ref sig .tc) → Buf (Elt F) ((c : Thread nD τ).loc b))

/-! ## The blocks -/

/-- The zero offset of a whole-block access, as a constant function. -/
theorem off_zero : (![0, 0] : Fin 2 → Nat) = fun _ => 0 := funext fun a => by fin_cases a <;> rfl

/-- Every window's block index at point t is (t, 0): decided over the 60 points. -/
theorem idx_facts : ∀ t : Fin cfg2.N,
    (win2_0.index t (0 : Fin 2) = t.val ∧ win2_0.index t (1 : Fin 2) = 0)
    ∧ (win2_1.index t (0 : Fin 2) = t.val ∧ win2_1.index t (1 : Fin 2) = 0)
    ∧ (win2_2.index t (0 : Fin 2) = t.val ∧ win2_2.index t (1 : Fin 2) = 0)
    ∧ (win2_3.index t (0 : Fin 2) = t.val ∧ win2_3.index t (1 : Fin 2) = 0)
    ∧ (win2_4.index t (0 : Fin 2) = t.val ∧ win2_4.index t (1 : Fin 2) = 0)
    ∧ (win2_5.index t (0 : Fin 2) = t.val ∧ win2_5.index t (1 : Fin 2) = 0)
    ∧ (win2_6.index t (0 : Fin 2) = t.val ∧ win2_6.index t (1 : Fin 2) = 0)
    ∧ (win2_7.index t (0 : Fin 2) = t.val ∧ win2_7.index t (1 : Fin 2) = 0) :=
  (by decide +kernel : ∀ t : Fin grid2.N, _)

/-- Every row block 0 … 59 is some point's. -/
theorem pt_onto : ∀ q : Fin 60, ∃ t : Fin cfg2.N, t.val = q.val :=
  (by decide +kernel : ∀ q : Fin 60, ∃ t : Fin grid2.N, t.val = q.val)

set_option maxHeartbeats 1000000 in
/-- Window 2's block and window 5's block at one point sit at the same place of their arrays. -/
theorem blk2_5 (t : Fin cfg2.N) (j : ((cfg2.win 5).xblock (cfg2.grid.coords t)).Idx) :
    ((cfg2.win 2).blk t).view.emb j = ((cfg2.win 5).blk t).view.emb j := by
  obtain ⟨e0, e1, e2, e3, e4, e5, e6, e7⟩ := idx_facts t
  funext a; apply Fin.ext
  match a with
  | ⟨0, _⟩ => show win2_2.index t (0 : Fin 2) * 2880 + 1 * (j 0).val = win2_5.index t (0 : Fin 2) * 2880 + 1 * (j 0).val; omega
  | ⟨1, _⟩ => show win2_2.index t (1 : Fin 2) * 128 + 1 * (j 1).val = win2_5.index t (1 : Fin 2) * 128 + 1 * (j 1).val; omega

set_option maxHeartbeats 1000000 in
/-- Window 4's block and window 5's block at one point sit at the same place of their arrays. -/
theorem blk4_5 (t : Fin cfg2.N) (j : ((cfg2.win 5).xblock (cfg2.grid.coords t)).Idx) :
    ((cfg2.win 4).blk t).view.emb j = ((cfg2.win 5).blk t).view.emb j := by
  obtain ⟨e0, e1, e2, e3, e4, e5, e6, e7⟩ := idx_facts t
  funext a; apply Fin.ext
  match a with
  | ⟨0, _⟩ => show win2_4.index t (0 : Fin 2) * 2880 + 1 * (j 0).val = win2_5.index t (0 : Fin 2) * 2880 + 1 * (j 0).val; omega
  | ⟨1, _⟩ => show win2_4.index t (1 : Fin 2) * 128 + 1 * (j 1).val = win2_5.index t (1 : Fin 2) * 128 + 1 * (j 1).val; omega

set_option maxHeartbeats 1000000 in
/-- Window 1's block and window 6's block at one point sit at the same place of their arrays. -/
theorem blk1_6 (t : Fin cfg2.N) (j : ((cfg2.win 6).xblock (cfg2.grid.coords t)).Idx) :
    ((cfg2.win 1).blk t).view.emb j = ((cfg2.win 6).blk t).view.emb j := by
  obtain ⟨e0, e1, e2, e3, e4, e5, e6, e7⟩ := idx_facts t
  funext a; apply Fin.ext
  match a with
  | ⟨0, _⟩ => show win2_1.index t (0 : Fin 2) * 2880 + 1 * (j 0).val = win2_6.index t (0 : Fin 2) * 2880 + 1 * (j 0).val; omega
  | ⟨1, _⟩ => show win2_1.index t (1 : Fin 2) * 128 + 1 * (j 1).val = win2_6.index t (1 : Fin 2) * 128 + 1 * (j 1).val; omega

set_option maxHeartbeats 1000000 in
/-- Window 2's block and window 6's block at one point sit at the same place of their arrays. -/
theorem blk2_6 (t : Fin cfg2.N) (j : ((cfg2.win 6).xblock (cfg2.grid.coords t)).Idx) :
    ((cfg2.win 2).blk t).view.emb j = ((cfg2.win 6).blk t).view.emb j := by
  obtain ⟨e0, e1, e2, e3, e4, e5, e6, e7⟩ := idx_facts t
  funext a; apply Fin.ext
  match a with
  | ⟨0, _⟩ => show win2_2.index t (0 : Fin 2) * 2880 + 1 * (j 0).val = win2_6.index t (0 : Fin 2) * 2880 + 1 * (j 0).val; omega
  | ⟨1, _⟩ => show win2_2.index t (1 : Fin 2) * 128 + 1 * (j 1).val = win2_6.index t (1 : Fin 2) * 128 + 1 * (j 1).val; omega

set_option maxHeartbeats 1000000 in
/-- Window 3's block and window 6's block at one point sit at the same place of their arrays. -/
theorem blk3_6 (t : Fin cfg2.N) (j : ((cfg2.win 6).xblock (cfg2.grid.coords t)).Idx) :
    ((cfg2.win 3).blk t).view.emb j = ((cfg2.win 6).blk t).view.emb j := by
  obtain ⟨e0, e1, e2, e3, e4, e5, e6, e7⟩ := idx_facts t
  funext a; apply Fin.ext
  match a with
  | ⟨0, _⟩ => show win2_3.index t (0 : Fin 2) * 2880 + 1 * (j 0).val = win2_6.index t (0 : Fin 2) * 2880 + 1 * (j 0).val; omega
  | ⟨1, _⟩ => show win2_3.index t (1 : Fin 2) * 128 + 1 * (j 1).val = win2_6.index t (1 : Fin 2) * 128 + 1 * (j 1).val; omega

set_option maxHeartbeats 1000000 in
/-- Window 4's block and window 6's block at one point sit at the same place of their arrays. -/
theorem blk4_6 (t : Fin cfg2.N) (j : ((cfg2.win 6).xblock (cfg2.grid.coords t)).Idx) :
    ((cfg2.win 4).blk t).view.emb j = ((cfg2.win 6).blk t).view.emb j := by
  obtain ⟨e0, e1, e2, e3, e4, e5, e6, e7⟩ := idx_facts t
  funext a; apply Fin.ext
  match a with
  | ⟨0, _⟩ => show win2_4.index t (0 : Fin 2) * 2880 + 1 * (j 0).val = win2_6.index t (0 : Fin 2) * 2880 + 1 * (j 0).val; omega
  | ⟨1, _⟩ => show win2_4.index t (1 : Fin 2) * 128 + 1 * (j 1).val = win2_6.index t (1 : Fin 2) * 128 + 1 * (j 1).val; omega

set_option maxHeartbeats 1000000 in
/-- Window 0's block and window 7's block at one point sit at the same place of their arrays. -/
theorem blk0_7 (t : Fin cfg2.N) (j : ((cfg2.win 7).xblock (cfg2.grid.coords t)).Idx) :
    ((cfg2.win 0).blk t).view.emb j = ((cfg2.win 7).blk t).view.emb j := by
  obtain ⟨e0, e1, e2, e3, e4, e5, e6, e7⟩ := idx_facts t
  funext a; apply Fin.ext
  match a with
  | ⟨0, _⟩ => show win2_0.index t (0 : Fin 2) * 2880 + 1 * (j 0).val = win2_7.index t (0 : Fin 2) * 2880 + 1 * (j 0).val; omega
  | ⟨1, _⟩ => show win2_0.index t (1 : Fin 2) * 128 + 1 * (j 1).val = win2_7.index t (1 : Fin 2) * 128 + 1 * (j 1).val; omega

set_option maxHeartbeats 1000000 in
/-- Window 1's block and window 7's block at one point sit at the same place of their arrays. -/
theorem blk1_7 (t : Fin cfg2.N) (j : ((cfg2.win 7).xblock (cfg2.grid.coords t)).Idx) :
    ((cfg2.win 1).blk t).view.emb j = ((cfg2.win 7).blk t).view.emb j := by
  obtain ⟨e0, e1, e2, e3, e4, e5, e6, e7⟩ := idx_facts t
  funext a; apply Fin.ext
  match a with
  | ⟨0, _⟩ => show win2_1.index t (0 : Fin 2) * 2880 + 1 * (j 0).val = win2_7.index t (0 : Fin 2) * 2880 + 1 * (j 0).val; omega
  | ⟨1, _⟩ => show win2_1.index t (1 : Fin 2) * 128 + 1 * (j 1).val = win2_7.index t (1 : Fin 2) * 128 + 1 * (j 1).val; omega

set_option maxHeartbeats 1000000 in
/-- Window 3's block and window 7's block at one point sit at the same place of their arrays. -/
theorem blk3_7 (t : Fin cfg2.N) (j : ((cfg2.win 7).xblock (cfg2.grid.coords t)).Idx) :
    ((cfg2.win 3).blk t).view.emb j = ((cfg2.win 7).blk t).view.emb j := by
  obtain ⟨e0, e1, e2, e3, e4, e5, e6, e7⟩ := idx_facts t
  funext a; apply Fin.ext
  match a with
  | ⟨0, _⟩ => show win2_3.index t (0 : Fin 2) * 2880 + 1 * (j 0).val = win2_7.index t (0 : Fin 2) * 2880 + 1 * (j 0).val; omega
  | ⟨1, _⟩ => show win2_3.index t (1 : Fin 2) * 128 + 1 * (j 1).val = win2_7.index t (1 : Fin 2) * 128 + 1 * (j 1).val; omega

/-! ## The score -/

/-- The larger score, index by index of the 2-D arrays. -/
abbrev GSc (a2 a4 : S172800x128.Idx → Elt F .f32) : S172800x128.Idx → Elt F .f32 :=
  fun i => Scalar.select (FloatOps.cmpf .ogt (a2 i) (a4 i)) (a2 i) (a4 i)

/-- The score payload is that selection of its loaded blocks, element by element (its shape casts are identities). -/
theorem paySc_eq (x2 x4 : Vec F S2880x128 .f32) :
    k2_pay6 x2 x4 = fun j => Scalar.select (FloatOps.cmpf .ogt (x2 j) (x4 j)) (x2 j) (x4 j) := by
  unfold k2_pay6 k2_pay5 k2_pay2 k2_pay4
  simp only [shapeCast_self]
  rfl

set_option maxHeartbeats 1000000 in
/-- What point t writes back to the score array is block t of the selection of the two score arrays. -/
theorem flushedSc_eq (c : Dev nD) (t : Fin cfg2.N) :
    (dat2 V c).flushed 5 t = ((cfg2.win 5).blk t).view.read (Elt F) (GSc (V c (Pipeline.arrRef spec2 2)) (V c (Pipeline.arrRef spec2 4))) := by
  show (cfg2.win 5).cut (grid2.coords t) ((dat2 V c).after 5 t) = _
  rw [after2_5]
  unfold out2_5
  rw [View.canon_unit_zero off_zero]
  simp only [View.ld_unit_zero (S := S2880x128) off_zero]
  rw [paySc_eq]
  funext j
  show Scalar.select (FloatOps.cmpf .ogt (V c (Pipeline.arrRef spec2 2) (((cfg2.win 2).blk t).view.emb j)) (V c (Pipeline.arrRef spec2 4) (((cfg2.win 4).blk t).view.emb j))) (V c (Pipeline.arrRef spec2 2) (((cfg2.win 2).blk t).view.emb j)) (V c (Pipeline.arrRef spec2 4) (((cfg2.win 4).blk t).view.emb j))
      = Scalar.select (FloatOps.cmpf .ogt (V c (Pipeline.arrRef spec2 2) (((cfg2.win 5).blk t).view.emb j)) (V c (Pipeline.arrRef spec2 4) (((cfg2.win 5).blk t).view.emb j))) (V c (Pipeline.arrRef spec2 2) (((cfg2.win 5).blk t).view.emb j)) (V c (Pipeline.arrRef spec2 4) (((cfg2.win 5).blk t).view.emb j))
  rw [blk2_5 t j, blk4_5 t j]

/-- An index of the score array is in point t's block iff each coordinate is in the block's range on its axis. -/
theorem mem_blk5 (t : Fin cfg2.N) (i : S172800x128.Idx) :
    i ∈ ((cfg2.win 5).blk t).view.set ↔ ∀ a : Fin 2, win2_5.index t a * S2880x128.size a ≤ (i a).val ∧ (i a).val < win2_5.index t a * S2880x128.size a + S2880x128.size a := by
  show i ∈ ((View.whole main_v77_0).slice (win2_5.rect t)).set ↔ _
  rw [View.set_slice_whole, Rect.mem_set_unit]
  exact Iff.rfl

/-- The 60 blocks of 2880 rows fill the 172800 rows: every index of the score array is in the block of point (row / 2880). -/
theorem cover5 (i : S172800x128.Idx) :
    ∃ t : Fin cfg2.N, (cfg2.win 5).flush t = true ∧ i ∈ ((cfg2.win 5).blk t).view.set := by
  have hi0 : (i 0).val < 172800 := (i 0).isLt
  have hi1 : (i 1).val < 128 := (i 1).isLt
  obtain ⟨t, ht⟩ := pt_onto ⟨(i 0).val / 2880, by omega⟩
  have ht' : t.val = (i 0).val / 2880 := ht
  obtain ⟨e0, e1, e2, e3, e4, e5, e6, e7⟩ := idx_facts t
  refine ⟨t, flush2_5 t, ?_⟩
  rw [mem_blk5]
  intro a
  match a with
  | ⟨0, _⟩ => show win2_5.index t (0 : Fin 2) * 2880 ≤ (i 0).val ∧ (i 0).val < win2_5.index t (0 : Fin 2) * 2880 + 2880; omega
  | ⟨1, _⟩ => show win2_5.index t (1 : Fin 2) * 128 ≤ (i 1).val ∧ (i 1).val < win2_5.index t (1 : Fin 2) * 128 + 128; omega

/-- The score array after the call is the fused score, entry by entry. -/
theorem outSc (c : Dev nD) (sc so : E.Idx → F .f32)
    (h2 : V c (Pipeline.arrRef spec2 2) = shapeCast S172800x128 sc shapeCasts_S22118400_S172800x128)
    (h4 : V c (Pipeline.arrRef spec2 4) = shapeCast S172800x128 so shapeCasts_S22118400_S172800x128) :
    (dat2 V c).arrAt 5 cfg2.N = shapeCast S172800x128 (fuseSc sc so) shapeCasts_S22118400_S172800x128 := by
  refine ((dat2 V c).arrAt_eq_of_cover 5 _ (fun t _ => flushedSc_eq V c t) cover5).trans ?_
  rw [h2, h4]
  rfl

/-! ## The label -/

/-- The label of the larger score, index by index of the 2-D arrays. -/
abbrev GId (a1 : S172800x128.Idx → Elt F .i32) (a2 : S172800x128.Idx → Elt F .f32) (a3 : S172800x128.Idx → Elt F .i32)
    (a4 : S172800x128.Idx → Elt F .f32) : S172800x128.Idx → Elt F .i32 :=
  fun i => Scalar.select (FloatOps.cmpf .ogt (a2 i) (a4 i)) (a1 i) (a3 i)

/-- The label payload is that selection of its loaded blocks, element by element. -/
theorem payId_eq (x1 : Vec F S2880x128 .i32) (x2 : Vec F S2880x128 .f32) (x3 : Vec F S2880x128 .i32) (x4 : Vec F S2880x128 .f32) :
    k2_pay7 x1 x2 x3 x4 = fun j => Scalar.select (FloatOps.cmpf .ogt (x2 j) (x4 j)) (x1 j) (x3 j) := by
  unfold k2_pay7 k2_pay5 k2_pay1 k2_pay2 k2_pay3 k2_pay4
  simp only [shapeCast_self]
  rfl

set_option maxHeartbeats 1000000 in
/-- What point t writes back to the label array is block t of the selection of the two label arrays by the scores. -/
theorem flushedId_eq (c : Dev nD) (t : Fin cfg2.N) :
    (dat2 V c).flushed 6 t = ((cfg2.win 6).blk t).view.read (Elt F) (GId (V c (Pipeline.arrRef spec2 1)) (V c (Pipeline.arrRef spec2 2)) (V c (Pipeline.arrRef spec2 3)) (V c (Pipeline.arrRef spec2 4))) := by
  show (cfg2.win 6).cut (grid2.coords t) ((dat2 V c).after 6 t) = _
  rw [after2_6]
  unfold out2_6
  rw [View.canon_unit_zero off_zero]
  simp only [View.ld_unit_zero (S := S2880x128) off_zero]
  rw [payId_eq]
  funext j
  show Scalar.select (FloatOps.cmpf .ogt (V c (Pipeline.arrRef spec2 2) (((cfg2.win 2).blk t).view.emb j)) (V c (Pipeline.arrRef spec2 4) (((cfg2.win 4).blk t).view.emb j))) (V c (Pipeline.arrRef spec2 1) (((cfg2.win 1).blk t).view.emb j)) (V c (Pipeline.arrRef spec2 3) (((cfg2.win 3).blk t).view.emb j))
      = Scalar.select (FloatOps.cmpf .ogt (V c (Pipeline.arrRef spec2 2) (((cfg2.win 6).blk t).view.emb j)) (V c (Pipeline.arrRef spec2 4) (((cfg2.win 6).blk t).view.emb j))) (V c (Pipeline.arrRef spec2 1) (((cfg2.win 6).blk t).view.emb j)) (V c (Pipeline.arrRef spec2 3) (((cfg2.win 6).blk t).view.emb j))
  rw [blk1_6 t j, blk2_6 t j, blk3_6 t j, blk4_6 t j]

/-- An index of the label array is in point t's block iff each coordinate is in the block's range on its axis. -/
theorem mem_blk6 (t : Fin cfg2.N) (i : S172800x128.Idx) :
    i ∈ ((cfg2.win 6).blk t).view.set ↔ ∀ a : Fin 2, win2_6.index t a * S2880x128.size a ≤ (i a).val ∧ (i a).val < win2_6.index t a * S2880x128.size a + S2880x128.size a := by
  show i ∈ ((View.whole main_v77_1).slice (win2_6.rect t)).set ↔ _
  rw [View.set_slice_whole, Rect.mem_set_unit]
  exact Iff.rfl

/-- The 60 blocks of 2880 rows fill the 172800 rows: every index of the label array is in the block of point (row / 2880). -/
theorem cover6 (i : S172800x128.Idx) :
    ∃ t : Fin cfg2.N, (cfg2.win 6).flush t = true ∧ i ∈ ((cfg2.win 6).blk t).view.set := by
  have hi0 : (i 0).val < 172800 := (i 0).isLt
  have hi1 : (i 1).val < 128 := (i 1).isLt
  obtain ⟨t, ht⟩ := pt_onto ⟨(i 0).val / 2880, by omega⟩
  have ht' : t.val = (i 0).val / 2880 := ht
  obtain ⟨e0, e1, e2, e3, e4, e5, e6, e7⟩ := idx_facts t
  refine ⟨t, flush2_6 t, ?_⟩
  rw [mem_blk6]
  intro a
  match a with
  | ⟨0, _⟩ => show win2_6.index t (0 : Fin 2) * 2880 ≤ (i 0).val ∧ (i 0).val < win2_6.index t (0 : Fin 2) * 2880 + 2880; omega
  | ⟨1, _⟩ => show win2_6.index t (1 : Fin 2) * 128 ≤ (i 1).val ∧ (i 1).val < win2_6.index t (1 : Fin 2) * 128 + 128; omega

/-- The label array after the call is the fused label, entry by entry. -/
theorem outId (c : Dev nD) (idn : E.Idx → BitVec 32) (sc : E.Idx → F .f32) (ido : E.Idx → BitVec 32) (so : E.Idx → F .f32)
    (h1 : V c (Pipeline.arrRef spec2 1) = shapeCast S172800x128 idn shapeCasts_S22118400_S172800x128)
    (h2 : V c (Pipeline.arrRef spec2 2) = shapeCast S172800x128 sc shapeCasts_S22118400_S172800x128)
    (h3 : V c (Pipeline.arrRef spec2 3) = shapeCast S172800x128 ido shapeCasts_S22118400_S172800x128)
    (h4 : V c (Pipeline.arrRef spec2 4) = shapeCast S172800x128 so shapeCasts_S22118400_S172800x128) :
    (dat2 V c).arrAt 6 cfg2.N = shapeCast S172800x128 (fuseId idn sc ido so) shapeCasts_S22118400_S172800x128 := by
  refine ((dat2 V c).arrAt_eq_of_cover 6 _ (fun t _ => flushedId_eq V c t) cover6).trans ?_
  rw [h1, h2, h3, h4]
  rfl

/-! ## The label's write index -/

/-- The voxel index kept where it is not the sentinel and the label changes, else the sentinel, index by index of the 2-D arrays. -/
abbrev GIdx (a0 a1 a3 : S172800x128.Idx → Elt F .i32) : S172800x128.Idx → Elt F .i32 :=
  fun i => Scalar.select (IntOp.andi (IntOp.cmpi .ne (a0 i) 16777216#32) (IntOp.cmpi .ne (a3 i) (a1 i))) (a0 i) 16777216#32

/-- The write-index payload is that selection of its loaded blocks, element by element (the old label compared with the new). -/
theorem payIdx_eq (x0 x1 x3 : Vec F S2880x128 .i32) :
    k2_pay8 x0 x1 x3 = fun j => Scalar.select (IntOp.andi (IntOp.cmpi .ne (x0 j) 16777216#32) (IntOp.cmpi .ne (x3 j) (x1 j))) (x0 j) 16777216#32 := by
  unfold k2_pay8 k2_pay1 k2_pay3
  simp only [shapeCast_self]
  rfl

set_option maxHeartbeats 1000000 in
/-- What point t writes back to the write-index array is block t of that selection of the index and the two label arrays. -/
theorem flushedIdx_eq (c : Dev nD) (t : Fin cfg2.N) :
    (dat2 V c).flushed 7 t = ((cfg2.win 7).blk t).view.read (Elt F) (GIdx (V c (Pipeline.arrRef spec2 0)) (V c (Pipeline.arrRef spec2 1)) (V c (Pipeline.arrRef spec2 3))) := by
  show (cfg2.win 7).cut (grid2.coords t) ((dat2 V c).after 7 t) = _
  rw [after2_7]
  unfold out2_7
  rw [View.canon_unit_zero off_zero]
  simp only [View.ld_unit_zero (S := S2880x128) off_zero]
  rw [payIdx_eq]
  funext j
  show Scalar.select (IntOp.andi (IntOp.cmpi .ne (V c (Pipeline.arrRef spec2 0) (((cfg2.win 0).blk t).view.emb j)) 16777216#32) (IntOp.cmpi .ne (V c (Pipeline.arrRef spec2 3) (((cfg2.win 3).blk t).view.emb j)) (V c (Pipeline.arrRef spec2 1) (((cfg2.win 1).blk t).view.emb j)))) (V c (Pipeline.arrRef spec2 0) (((cfg2.win 0).blk t).view.emb j)) 16777216#32
      = Scalar.select (IntOp.andi (IntOp.cmpi .ne (V c (Pipeline.arrRef spec2 0) (((cfg2.win 7).blk t).view.emb j)) 16777216#32) (IntOp.cmpi .ne (V c (Pipeline.arrRef spec2 3) (((cfg2.win 7).blk t).view.emb j)) (V c (Pipeline.arrRef spec2 1) (((cfg2.win 7).blk t).view.emb j)))) (V c (Pipeline.arrRef spec2 0) (((cfg2.win 7).blk t).view.emb j)) 16777216#32
  rw [blk0_7 t j, blk1_7 t j, blk3_7 t j]

/-- An index of the write-index array is in point t's block iff each coordinate is in the block's range on its axis. -/
theorem mem_blk7 (t : Fin cfg2.N) (i : S172800x128.Idx) :
    i ∈ ((cfg2.win 7).blk t).view.set ↔ ∀ a : Fin 2, win2_7.index t a * S2880x128.size a ≤ (i a).val ∧ (i a).val < win2_7.index t a * S2880x128.size a + S2880x128.size a := by
  show i ∈ ((View.whole main_v77_2).slice (win2_7.rect t)).set ↔ _
  rw [View.set_slice_whole, Rect.mem_set_unit]
  exact Iff.rfl

/-- The 60 blocks of 2880 rows fill the 172800 rows: every index of the write-index array is in the block of point (row / 2880). -/
theorem cover7 (i : S172800x128.Idx) :
    ∃ t : Fin cfg2.N, (cfg2.win 7).flush t = true ∧ i ∈ ((cfg2.win 7).blk t).view.set := by
  have hi0 : (i 0).val < 172800 := (i 0).isLt
  have hi1 : (i 1).val < 128 := (i 1).isLt
  obtain ⟨t, ht⟩ := pt_onto ⟨(i 0).val / 2880, by omega⟩
  have ht' : t.val = (i 0).val / 2880 := ht
  obtain ⟨e0, e1, e2, e3, e4, e5, e6, e7⟩ := idx_facts t
  refine ⟨t, flush2_7 t, ?_⟩
  rw [mem_blk7]
  intro a
  match a with
  | ⟨0, _⟩ => show win2_7.index t (0 : Fin 2) * 2880 ≤ (i 0).val ∧ (i 0).val < win2_7.index t (0 : Fin 2) * 2880 + 2880; omega
  | ⟨1, _⟩ => show win2_7.index t (1 : Fin 2) * 128 ≤ (i 1).val ∧ (i 1).val < win2_7.index t (1 : Fin 2) * 128 + 128; omega

/-- The write-index array after the call is the label's write index, entry by entry. -/
theorem outIdx (c : Dev nD) (ob idn ido : E.Idx → BitVec 32)
    (h0 : V c (Pipeline.arrRef spec2 0) = shapeCast S172800x128 ob shapeCasts_S22118400_S172800x128)
    (h1 : V c (Pipeline.arrRef spec2 1) = shapeCast S172800x128 idn shapeCasts_S22118400_S172800x128)
    (h3 : V c (Pipeline.arrRef spec2 3) = shapeCast S172800x128 ido shapeCasts_S22118400_S172800x128) :
    (dat2 V c).arrAt 7 cfg2.N = shapeCast S172800x128 (fuseIdx ob idn ido) shapeCasts_S22118400_S172800x128 := by
  refine ((dat2 V c).arrAt_eq_of_cover 7 _ (fun t _ => flushedIdx_eq V c t) cover7).trans ?_
  rw [h0, h1, h3]
  rfl

/-! ## The three outputs -/

theorem outputs (c : Dev nD) (ob idn : E.Idx → BitVec 32) (sc : E.Idx → F .f32) (ido : E.Idx → BitVec 32) (so : E.Idx → F .f32)
    (h0 : V c (Pipeline.arrRef spec2 0) = shapeCast S172800x128 ob shapeCasts_S22118400_S172800x128)
    (h1 : V c (Pipeline.arrRef spec2 1) = shapeCast S172800x128 idn shapeCasts_S22118400_S172800x128)
    (h2 : V c (Pipeline.arrRef spec2 2) = shapeCast S172800x128 sc shapeCasts_S22118400_S172800x128)
    (h3 : V c (Pipeline.arrRef spec2 3) = shapeCast S172800x128 ido shapeCasts_S22118400_S172800x128)
    (h4 : V c (Pipeline.arrRef spec2 4) = shapeCast S172800x128 so shapeCasts_S22118400_S172800x128) :
    (dat2 V c).arrAt 5 cfg2.N = shapeCast S172800x128 (fuseSc sc so) shapeCasts_S22118400_S172800x128
    ∧ (dat2 V c).arrAt 6 cfg2.N = shapeCast S172800x128 (fuseId idn sc ido so) shapeCasts_S22118400_S172800x128
    ∧ (dat2 V c).arrAt 7 cfg2.N = shapeCast S172800x128 (fuseIdx ob idn ido) shapeCasts_S22118400_S172800x128 := by
  exact ⟨outSc V c sc so h2 h4, outId V c idn sc ido so h1 h2 h3 h4, outIdx V c ob idn ido h0 h1 h3⟩

end Cert.KernelIdeal.Region2

end
-- ==== Proof.KHostB.lean ====
/-
  The kernel program's label and score branch, followed from the launch memory: each entry's old label and old score are
  read at its sentinel-marked voxel (a fill where that is the sentinel); the third call fuses them with the entry's new
  label and score; two writes at the entries' indices, dropping the sentinel, give the new score and label volumes.
-/
import proofs.«422224_j54460185313483_3_alg».proof.Proof.Gen.KernelIdeal.Frame
import proofs.«422224_j54460185313483_3_alg».proof.Proof.Spec
import proofs.«422224_j54460185313483_3_alg».proof.Proof.Layout
import proofs.«422224_j54460185313483_3_alg».proof.Proof.Region2
import proofs.«422224_j54460185313483_3_alg».proof.Proof.KHostA
import Idealize.ShloMosaic.PureOps.Reduce
set_option maxRecDepth 16384

noncomputable section

namespace Cert.KernelIdeal.HostRun

open Cert.KernelIdeal Cert.KernelIdeal.Gen Cert.Fusion Idealize.ShloMosaic Idealize.ShloMosaic.TcCoe Idealize.SL.Sem
open Idealize.ShloMosaic.StableHlo

variable {F : FTy → Type} [FloatOps F]
variable (m : (ℓ : Loc nD τ sig) → Buf (Elt F) ℓ) (ρ : Dev nD → PrngReg)

/-! ## The program's words in the vocabulary of the two computations -/

/-- And with the one-bit word 1 is the identity. -/
private theorem andi_true (b : BitVec 1) : IntOp.andi b 1#1 = b := by
  show b &&& BitVec.allOnes 1 = b
  exact BitVec.and_allOnes

/-- A negative index counted from the end, as the program writes it: compare with 0, add 16777216, select. -/
private theorem norm_eq (v : S22118400.Idx → BitVec 32) :
    select (cmpi .slt v (broadcastInDim S22118400 ![] bcast_S_S22118400 (constantI S_ 32 0#32)))
      (addi v (broadcastInDim S22118400 ![] bcast_S_S22118400 (constantI S_ 32 16777216#32))) v = Fusion.norm v := rfl

/-- The two range tests on the column of indices, reduced by "and" over the column's unit axis, are the range test
    per entry: the reduction over an axis of extent 1 is one step from the initial value 1. -/
private theorem inb_eq (v : S22118400.Idx → BitVec 32) :
    Host.reduce IntOp.andi
      (andi (cmpi .sge (col v) (broadcastInDim S22118400x1 ![] bcast_S_S22118400x1 (constantI S_ 32 0#32)))
        (cmpi .sle (col v) (broadcastInDim S22118400x1 ![0, 1] bcast_S1x1_S22118400x1_0_1
          (broadcastInDim S1x1 ![1] bcast_S1_S1x1_1 (constantI S1 32 16777215#32)))))
      (constantI S_ 1 1#1) reducesTo_S22118400x1_S22118400_d1 h_S_ = inb v := by
  funext e
  obtain ⟨a, rfl⟩ : ∃ a, e = ValueIdx.ix1 a := ⟨e 0, ValueIdx.eq_ix1 e⟩
  have hR : S22118400x1.Reduces [1] S22118400 := by decide
  rw [Host.reduce_eq_fold_single IntOp.andi _ _ reducesTo_S22118400x1_S22118400_d1 hR h_S_ (ValueIdx.ix1 a)]
  refine (congrArg (fun S : Finset (Fin 1) => S.fold IntOp.andi _ _) (Finset.univ_unique (α := Fin 1))).trans ?_
  refine (Finset.fold_singleton (α := Fin 1) (β := BitVec 1) (op := IntOp.andi)).trans ?_
  exact andi_true _

/-! ## The arguments and the first call's sentinel-marked voxels, unchanged up to the stretches that read them -/

private theorem W4_arg3 (c : Dev nD) : W4 m ρ c (Proc.devRef .tc main_arg3) = m ((c.tc : Thread nD τ).loc main_arg3) := by
  rw [W4_of_ne m ρ c main_arg3 (by decide)]
  show StableHlo.after hostOps1 (W2 m ρ c) (Proc.devRef .tc main_arg3) = _
  after_results
  rw [W2_of_ne m ρ c main_arg3 (by decide)]
  show StableHlo.after hostOps0 (W0 m ρ c) (Proc.devRef .tc main_arg3) = _
  after_results

private theorem W4_arg4 (c : Dev nD) : W4 m ρ c (Proc.devRef .tc main_arg4) = m ((c.tc : Thread nD τ).loc main_arg4) := by
  rw [W4_of_ne m ρ c main_arg4 (by decide)]
  show StableHlo.after hostOps1 (W2 m ρ c) (Proc.devRef .tc main_arg4) = _
  after_results
  rw [W2_of_ne m ρ c main_arg4 (by decide)]
  show StableHlo.after hostOps0 (W0 m ρ c) (Proc.devRef .tc main_arg4) = _
  after_results

private theorem W4_arg7 (c : Dev nD) : W4 m ρ c (Proc.devRef .tc main_arg7) = m ((c.tc : Thread nD τ).loc main_arg7) := by
  rw [W4_of_ne m ρ c main_arg7 (by decide)]
  show StableHlo.after hostOps1 (W2 m ρ c) (Proc.devRef .tc main_arg7) = _
  after_results
  rw [W2_of_ne m ρ c main_arg7 (by decide)]
  show StableHlo.after hostOps0 (W0 m ρ c) (Proc.devRef .tc main_arg7) = _
  after_results

private theorem W4_arg8 (c : Dev nD) : W4 m ρ c (Proc.devRef .tc main_arg8) = m ((c.tc : Thread nD τ).loc main_arg8) := by
  rw [W4_of_ne m ρ c main_arg8 (by decide)]
  show StableHlo.after hostOps1 (W2 m ρ c) (Proc.devRef .tc main_arg8) = _
  after_results
  rw [W2_of_ne m ρ c main_arg8 (by decide)]
  show StableHlo.after hostOps0 (W0 m ρ c) (Proc.devRef .tc main_arg8) = _
  after_results

private theorem W6_arg7 (c : Dev nD) : W6 m ρ c (Proc.devRef .tc main_arg7) = m ((c.tc : Thread nD τ).loc main_arg7) := by
  rw [W6_of_ne m ρ c main_arg7 (by decide)]
  show StableHlo.after hostOps2 (W4 m ρ c) (Proc.devRef .tc main_arg7) = _
  after_results_simp
  exact W4_arg7 m ρ c

private theorem W6_arg8 (c : Dev nD) : W6 m ρ c (Proc.devRef .tc main_arg8) = m ((c.tc : Thread nD τ).loc main_arg8) := by
  rw [W6_of_ne m ρ c main_arg8 (by decide)]
  show StableHlo.after hostOps2 (W4 m ρ c) (Proc.devRef .tc main_arg8) = _
  after_results_simp
  exact W4_arg8 m ρ c

/-- The flat list of sentinel-marked voxels, as the stretch before the third call reads it. -/
private theorem W4_v9 (c : Dev nD) : W4 m ρ c (Proc.devRef .tc main_v9) = oob (xr m c) := by
  rw [W4_of_ne m ρ c main_v9 (by decide)]
  show StableHlo.after hostOps1 (W2 m ρ c) (Proc.devRef .tc main_v9) = _
  after_results
  show shapeCast S22118400 (V2 m ρ c (Pipeline.arrRef spec0 3)) shapeCasts_S172800x128_S22118400 = _
  rw [(exit0 m ρ c).1]
  exact shapeCast_shapeCast _ _ _

/-- The same list as the last stretch reads it. -/
private theorem W6_v9 (c : Dev nD) : W6 m ρ c (Proc.devRef .tc main_v9) = oob (xr m c) := by
  rw [W6_of_ne m ρ c main_v9 (by decide)]
  show StableHlo.after hostOps2 (W4 m ρ c) (Proc.devRef .tc main_v9) = _
  after_results_simp
  exact W4_v9 m ρ c

/-- The third call's window 0 is the first call's output, in rows of 128. -/
private theorem W5_v8_0 (c : Dev nD) :
    W5 m ρ c (Proc.devRef .tc main_v8_0) = shapeCast S172800x128 (oob (xr m c)) shapeCasts_S22118400_S172800x128 := by
  show StableHlo.after hostOps2 (W4 m ρ c) (Proc.devRef .tc main_v8_0) = _
  after_results_simp
  rw [W4_of_ne m ρ c main_v8_0 (by decide)]
  show StableHlo.after hostOps1 (W2 m ρ c) (Proc.devRef .tc main_v8_0) = _
  after_results
  exact (exit0 m ρ c).1

/-- Window 1: the new labels, one per entry. -/
private theorem W5_v73 (c : Dev nD) :
    W5 m ρ c (Proc.devRef .tc main_v73) = shapeCast S172800x128 (idf m c) shapeCasts_S22118400_S172800x128 := by
  show StableHlo.after hostOps2 (W4 m ρ c) (Proc.devRef .tc main_v73) = _
  after_results_simp
  rw [W4_arg3 m ρ c]
  exact congrArg (fun y => shapeCast S172800x128 y shapeCasts_S22118400_S172800x128)
    (rep8_rows (m ((c.tc : Thread nD τ).loc main_arg3)) shapeCasts_S480x640x9_S2764800 bcast_S2764800_S2764800x8_0 shapeCasts_S2764800x8_S22118400)

/-- Window 2: the new scores, one per entry. -/
private theorem W5_v74 (c : Dev nD) :
    W5 m ρ c (Proc.devRef .tc main_v74) = shapeCast S172800x128 (scf m c) shapeCasts_S22118400_S172800x128 := by
  show StableHlo.after hostOps2 (W4 m ρ c) (Proc.devRef .tc main_v74) = _
  after_results_simp
  rw [W4_arg4 m ρ c]
  exact congrArg (fun y => shapeCast S172800x128 y shapeCasts_S22118400_S172800x128)
    (rep8_rows (m ((c.tc : Thread nD τ).loc main_arg4)) shapeCasts_S480x640x9_S2764800 bcast_S2764800_S2764800x8_0 shapeCasts_S2764800x8_S22118400)

/-- Window 3: the old label each entry sees. -/
private theorem W5_v75 (c : Dev nD) :
    W5 m ρ c (Proc.devRef .tc main_v75)
      = shapeCast S172800x128 (oldIdK (xr m c) (semvol m c) (inb (Fusion.norm (oob (xr m c))))) shapeCasts_S22118400_S172800x128 := by
  show StableHlo.after hostOps2 (W4 m ρ c) (Proc.devRef .tc main_v75) = _
  after_results_simp
  rw [W4_v9 m ρ c, W4_arg7 m ρ c]
  rw [norm_eq (oob (xr m c)), bcast_col (Fusion.norm (oob (xr m c))) bcast_S22118400_S22118400x1_0, inb_eq (Fusion.norm (oob (xr m c)))]
  rfl

/-- Window 4: the old score each entry sees. -/
private theorem W5_v76 (c : Dev nD) :
    W5 m ρ c (Proc.devRef .tc main_v76)
      = shapeCast S172800x128 (oldScK (xr m c) (scvol m c) (inb (Fusion.norm (oob (xr m c))))) shapeCasts_S22118400_S172800x128 := by
  show StableHlo.after hostOps2 (W4 m ρ c) (Proc.devRef .tc main_v76) = _
  after_results_simp
  rw [W4_v9 m ρ c, W4_arg8 m ρ c]
  rw [norm_eq (oob (xr m c)), bcast_col (Fusion.norm (oob (xr m c))) bcast_S22118400_S22118400x1_0, inb_eq (Fusion.norm (oob (xr m c)))]
  rfl

set_option maxHeartbeats 1600000 in
/-- After the third call: the fused score, the fused label, the label's write index. -/
theorem exit2 (c : Dev nD) :
    V6 m ρ c (Pipeline.arrRef spec2 5) = shapeCast S172800x128 (scuK (xr m c) (scf m c) (scvol m c) (inb (norm (oob (xr m c))))) shapeCasts_S22118400_S172800x128
    ∧ V6 m ρ c (Pipeline.arrRef spec2 6) = shapeCast S172800x128 (semuK (xr m c) (idf m c) (scf m c) (scvol m c) (semvol m c) (inb (norm (oob (xr m c))))) shapeCasts_S22118400_S172800x128
    ∧ V6 m ρ c (Pipeline.arrRef spec2 7) = shapeCast S172800x128 (semidxK (xr m c) (idf m c) (semvol m c) (inb (norm (oob (xr m c))))) shapeCasts_S22118400_S172800x128 := by
  have h0 : V5 m ρ c (Pipeline.arrRef spec2 0) = shapeCast S172800x128 (oob (xr m c)) shapeCasts_S22118400_S172800x128 := W5_v8_0 m ρ c
  have h1 : V5 m ρ c (Pipeline.arrRef spec2 1) = shapeCast S172800x128 (idf m c) shapeCasts_S22118400_S172800x128 := W5_v73 m ρ c
  have h2 : V5 m ρ c (Pipeline.arrRef spec2 2) = shapeCast S172800x128 (scf m c) shapeCasts_S22118400_S172800x128 := W5_v74 m ρ c
  have h3 : V5 m ρ c (Pipeline.arrRef spec2 3) = shapeCast S172800x128 (oldIdK (xr m c) (semvol m c) (inb (Fusion.norm (oob (xr m c))))) shapeCasts_S22118400_S172800x128 := W5_v75 m ρ c
  have h4 : V5 m ρ c (Pipeline.arrRef spec2 4) = shapeCast S172800x128 (oldScK (xr m c) (scvol m c) (inb (Fusion.norm (oob (xr m c))))) shapeCasts_S22118400_S172800x128 := W5_v76 m ρ c
  obtain ⟨o5, o6, o7⟩ := Region2.outputs (V5 m ρ) c (oob (xr m c)) (idf m c) (scf m c)
    (oldIdK (xr m c) (semvol m c) (inb (Fusion.norm (oob (xr m c))))) (oldScK (xr m c) (scvol m c) (inb (Fusion.norm (oob (xr m c))))) h0 h1 h2 h3 h4
  exact ⟨(hF2 m ρ c 5).symm.trans o5, (hF2 m ρ c 6).symm.trans o6, (hF2 m ρ c 7).symm.trans o7⟩

/-- The third call's outputs, as the last stretch reads them. -/
private theorem W6_v77_0 (c : Dev nD) :
    W6 m ρ c (Proc.devRef .tc main_v77_0) = shapeCast S172800x128 (scuK (xr m c) (scf m c) (scvol m c) (inb (Fusion.norm (oob (xr m c))))) shapeCasts_S22118400_S172800x128 := (exit2 m ρ c).1
private theorem W6_v77_1 (c : Dev nD) :
    W6 m ρ c (Proc.devRef .tc main_v77_1) = shapeCast S172800x128 (semuK (xr m c) (idf m c) (scf m c) (scvol m c) (semvol m c) (inb (Fusion.norm (oob (xr m c))))) shapeCasts_S22118400_S172800x128 := (exit2 m ρ c).2.1
private theorem W6_v77_2 (c : Dev nD) :
    W6 m ρ c (Proc.devRef .tc main_v77_2) = shapeCast S172800x128 (semidxK (xr m c) (idf m c) (semvol m c) (inb (Fusion.norm (oob (xr m c))))) shapeCasts_S22118400_S172800x128 := (exit2 m ρ c).2.2

/-- The new score volume and the new label volume, at the program's end. -/
theorem res_v89 (c : Dev nD) : W7 m ρ c (Proc.devRef .tc main_v89) = unflat (newScK (xr m c) (scf m c) (scvol m c) (inb (norm (oob (xr m c))))) := by
  show StableHlo.after hostOps3 (W6 m ρ c) (Proc.devRef .tc main_v89) = _
  after_results_simp
  rw [W6_v9 m ρ c, W6_arg8 m ρ c, W6_v77_0 m ρ c]
  show shapeCast S256x256x256 (Host.scatter d16 (fun _ b => b) (scvol m c)
      (broadcastInDim S22118400x1 ![0] bcast_S22118400_S22118400x1_0 (Fusion.norm (oob (xr m c))))
      (shapeCast S22118400 (shapeCast S172800x128 (scuK (xr m c) (scf m c) (scvol m c) (inb (Fusion.norm (oob (xr m c))))) shapeCasts_S22118400_S172800x128) shapeCasts_S172800x128_S22118400))
    shapeCasts_S16777216_S256x256x256 = _
  rw [shapeCast_shapeCast, bcast_col]
  rfl
theorem res_v98 (c : Dev nD) : W7 m ρ c (Proc.devRef .tc main_v98) = unflat (newSemK (xr m c) (idf m c) (scf m c) (scvol m c) (semvol m c) (inb (norm (oob (xr m c))))) := by
  show StableHlo.after hostOps3 (W6 m ρ c) (Proc.devRef .tc main_v98) = _
  after_results_simp
  rw [W6_arg7 m ρ c, W6_v77_1 m ρ c, W6_v77_2 m ρ c]
  show shapeCast S256x256x256 (Host.scatter d16 (fun _ b => b) (semvol m c)
      (broadcastInDim S22118400x1 ![0] bcast_S22118400_S22118400x1_0
        (Fusion.norm (shapeCast S22118400 (shapeCast S172800x128 (semidxK (xr m c) (idf m c) (semvol m c) (inb (Fusion.norm (oob (xr m c))))) shapeCasts_S22118400_S172800x128) shapeCasts_S172800x128_S22118400)))
      (shapeCast S22118400 (shapeCast S172800x128 (semuK (xr m c) (idf m c) (scf m c) (scvol m c) (semvol m c) (inb (Fusion.norm (oob (xr m c))))) shapeCasts_S22118400_S172800x128) shapeCasts_S172800x128_S22118400))
    shapeCasts_S16777216_S256x256x256 = _
  rw [shapeCast_shapeCast, shapeCast_shapeCast, bcast_col]
  rfl

end Cert.KernelIdeal.HostRun

end
-- ==== Proof.RefValue.lean ====
/-
  The reference program's four results, read off its operations one at a time, are the scattered form of the fusion
  on the flat index spaces, reshaped to the volume.
-/
import proofs.«422224_j54460185313483_3_alg».proof.Proof.Gen.ReferenceIdeal.Read
import proofs.«422224_j54460185313483_3_alg».proof.Proof.Spec
import proofs.«422224_j54460185313483_3_alg».proof.Proof.Layout

set_option maxRecDepth 16384

noncomputable section

namespace Cert.ReferenceIdeal.RefValue

open Cert.ReferenceIdeal Cert.ReferenceIdeal.Read Cert.Fusion Idealize.ShloMosaic Idealize.ShloMosaic.TcCoe Idealize.SL.Sem

variable {F : FTy → Type} [FloatOps F]

/-! ## The stages, in program order

Each key operation's value as a whole array: the coordinates of the entries, their validity and voxel, the masked weights
and weighted values, the per-voxel sums, the arrays read back at each entry's voxel, the per-entry updates, and the four
writes. A stage follows from the stages of its operands, the operation itself being the same scalar operation at every
index on both sides; the layout steps (a column of a table flattened, a per-point array repeated eightfold, a list laid
out as a column of indices) are the lemmas about the flat index spaces. -/

section Stages
variable (x0 : A3.Idx → F .f32) (x1 : A5.Idx → BitVec 32) (x2 : A4.Idx → F .f32) (x3 : A3.Idx → BitVec 32)
  (x4 : A3.Idx → F .f32) (x5 x6 x8 : Vol.Idx → F .f32) (x7 : Vol.Idx → BitVec 32)

private theorem v0_eq : val_main_v0 (F := F) x1 = xrOf x1 := by
  rfl

private theorem v6_eq : val_main_v6 (F := F) x1 = crd (xrOf x1) 0 := by
  unfold val_main_v6 val_main_v5
  rw [v0_eq]
  exact slice_col (xrOf x1) 0 _ _

private theorem v10_eq : val_main_v10 (F := F) x1 = crd (xrOf x1) 0 := by
  unfold val_main_v10 val_main_v9
  rw [v0_eq]
  exact slice_col (xrOf x1) 0 _ _

private theorem v35_eq : val_main_v35 (F := F) x1 = crd (xrOf x1) 0 := by
  unfold val_main_v35 val_main_v34
  rw [v0_eq]
  exact slice_col (xrOf x1) 0 _ _

private theorem v15_eq : val_main_v15 (F := F) x1 = crd (xrOf x1) 1 := by
  unfold val_main_v15 val_main_v14
  rw [v0_eq]
  exact slice_col (xrOf x1) 1 _ _

private theorem v20_eq : val_main_v20 (F := F) x1 = crd (xrOf x1) 1 := by
  unfold val_main_v20 val_main_v19
  rw [v0_eq]
  exact slice_col (xrOf x1) 1 _ _

private theorem v39_eq : val_main_v39 (F := F) x1 = crd (xrOf x1) 1 := by
  unfold val_main_v39 val_main_v38
  rw [v0_eq]
  exact slice_col (xrOf x1) 1 _ _

private theorem v25_eq : val_main_v25 (F := F) x1 = crd (xrOf x1) 2 := by
  unfold val_main_v25 val_main_v24
  rw [v0_eq]
  exact slice_col (xrOf x1) 2 _ _

private theorem v30_eq : val_main_v30 (F := F) x1 = crd (xrOf x1) 2 := by
  unfold val_main_v30 val_main_v29
  rw [v0_eq]
  exact slice_col (xrOf x1) 2 _ _

private theorem v44_eq : val_main_v44 (F := F) x1 = crd (xrOf x1) 2 := by
  unfold val_main_v44 val_main_v43
  rw [v0_eq]
  exact slice_col (xrOf x1) 2 _ _

private theorem v33_eq : val_main_v33 (F := F) x1 = valid (xrOf x1) := by
  unfold val_main_v33 val_main_v28 val_main_v23 val_main_v18 val_main_v13 val_main_v8 val_main_v12 val_main_v17 val_main_v22 val_main_v27 val_main_v32
  rw [v6_eq, v10_eq, v15_eq, v20_eq, v25_eq, v30_eq]
  rfl

private theorem v45_eq : val_main_v45 (F := F) x1 = flat (xrOf x1) := by
  unfold val_main_v45 val_main_v42 val_main_v40 val_main_v37
  rw [v35_eq, v39_eq, v44_eq]
  rfl

private theorem v46_eq : val_main_v46 (F := F) x1 = safe (xrOf x1) := by
  unfold val_main_v46
  rw [v33_eq, v45_eq]
  rfl

private theorem v47_eq : val_main_v47 (F := F) x1 = oob (xrOf x1) := by
  unfold val_main_v47
  rw [v33_eq, v45_eq]
  rfl

private theorem v1_eq : val_main_v1 (F := F) x2 = wfOf x2 := by
  rfl

private theorem v4_eq : val_main_v4 (F := F) x0 = perEntry x0 := by
  unfold val_main_v4 val_main_v3 val_main_v2
  exact rep8_col x0 _ _ _

private theorem v48_eq : val_main_v48 (F := F) x1 x2 = wc (xrOf x1) (wfOf x2) := by
  unfold val_main_v48
  rw [v33_eq, v1_eq]
  rfl

private theorem v50_eq : val_main_v50 (F := F) x0 x1 x2 = uc (xrOf x1) (wfOf x2) (perEntry x0) := by
  unfold val_main_v50 val_main_v49
  rw [v33_eq, v1_eq, v4_eq]
  rfl

private theorem v52_eq : val_main_v52 (F := F) x1 = col (safe (xrOf x1)) := by
  unfold val_main_v52
  rw [v46_eq]
  exact bcast_col _ _

private theorem v55_eq : val_main_v55 (F := F) x1 = col (safe (xrOf x1)) := by
  unfold val_main_v55
  rw [v46_eq]
  exact bcast_col _ _

private theorem v53_eq : val_main_v53 (F := F) x1 x2 = vsumR (xrOf x1) (wc (xrOf x1) (wfOf x2)) := by
  unfold val_main_v53
  rw [v52_eq, v48_eq]
  rfl

private theorem v56_eq : val_main_v56 (F := F) x0 x1 x2 = vsumR (xrOf x1) (uc (xrOf x1) (wfOf x2) (perEntry x0)) := by
  unfold val_main_v56
  rw [v55_eq, v50_eq]
  rfl

private theorem v61_eq : val_main_v61 (F := F) x1 = norm (safe (xrOf x1)) := by
  unfold val_main_v61 val_main_v58 val_main_v60
  rw [v46_eq]
  rfl

private theorem v62_eq : val_main_v62 (F := F) x1 = col (norm (safe (xrOf x1))) := by
  unfold val_main_v62
  rw [v61_eq]
  exact bcast_col _ _

private theorem v63_eq : val_main_v63 (F := F) x1 x2 = atSafe (xrOf x1) (vsumR (xrOf x1) (wc (xrOf x1) (wfOf x2))) := by
  unfold val_main_v63
  rw [v53_eq, v62_eq]
  rfl

private theorem v68_eq : val_main_v68 (F := F) x1 = norm (safe (xrOf x1)) := by
  unfold val_main_v68 val_main_v65 val_main_v67
  rw [v46_eq]
  rfl

private theorem v69_eq : val_main_v69 (F := F) x1 = col (norm (safe (xrOf x1))) := by
  unfold val_main_v69
  rw [v68_eq]
  exact bcast_col _ _

private theorem v70_eq : val_main_v70 (F := F) x0 x1 x2 = atSafe (xrOf x1) (vsumR (xrOf x1) (uc (xrOf x1) (wfOf x2) (perEntry x0))) := by
  unfold val_main_v70
  rw [v56_eq, v69_eq]
  rfl

private theorem v71_eq : val_main_v71 (F := F) x6 = volOf x6 := by
  rfl

private theorem v76_eq : val_main_v76 (F := F) x1 = norm (safe (xrOf x1)) := by
  unfold val_main_v76 val_main_v73 val_main_v75
  rw [v46_eq]
  rfl

private theorem v77_eq : val_main_v77 (F := F) x1 = col (norm (safe (xrOf x1))) := by
  unfold val_main_v77
  rw [v76_eq]
  exact bcast_col _ _

private theorem v78_eq : val_main_v78 (F := F) x1 x6 = atSafe (xrOf x1) (volOf x6) := by
  unfold val_main_v78
  rw [v71_eq, v77_eq]
  rfl

private theorem v79_eq : val_main_v79 (F := F) x5 = volOf x5 := by
  rfl

private theorem v84_eq : val_main_v84 (F := F) x1 = norm (safe (xrOf x1)) := by
  unfold val_main_v84 val_main_v81 val_main_v83
  rw [v46_eq]
  rfl

private theorem v85_eq : val_main_v85 (F := F) x1 = col (norm (safe (xrOf x1))) := by
  unfold val_main_v85
  rw [v84_eq]
  exact bcast_col _ _

private theorem v86_eq : val_main_v86 (F := F) x1 x5 = atSafe (xrOf x1) (volOf x5) := by
  unfold val_main_v86
  rw [v79_eq, v85_eq]
  rfl

private theorem v87_eq : val_main_v87 (F := F) x1 x2 x6 = wupd (xrOf x1) (wfOf x2) (volOf x6) := by
  unfold val_main_v87
  rw [v78_eq, v63_eq]
  rfl

private theorem v93_eq : val_main_v93 (F := F) x0 x1 x2 x5 x6 = vupd (xrOf x1) (wfOf x2) (perEntry x0) (volOf x5) (volOf x6) := by
  unfold val_main_v93 val_main_v92 val_main_v91 val_main_v90 val_main_v89
  rw [v87_eq, v78_eq, v86_eq, v70_eq]
  rfl

private theorem v94_eq : val_main_v94 (F := F) x6 = volOf x6 := by
  rfl

private theorem v99_eq : val_main_v99 (F := F) x1 = norm (oob (xrOf x1)) := by
  unfold val_main_v99 val_main_v96 val_main_v98
  rw [v47_eq]
  rfl

private theorem v100_eq : val_main_v100 (F := F) x1 = col (norm (oob (xrOf x1))) := by
  unfold val_main_v100
  rw [v99_eq]
  exact bcast_col _ _

private theorem v101_eq : val_main_v101 (F := F) x1 x2 x6 = scatW (xrOf x1) (wfOf x2) (volOf x6) := by
  unfold val_main_v101
  rw [v94_eq, v100_eq, v87_eq]
  rfl

private theorem v103_eq : val_main_v103 (F := F) x5 = volOf x5 := by
  rfl

private theorem v108_eq : val_main_v108 (F := F) x1 = norm (oob (xrOf x1)) := by
  unfold val_main_v108 val_main_v105 val_main_v107
  rw [v47_eq]
  rfl

private theorem v109_eq : val_main_v109 (F := F) x1 = col (norm (oob (xrOf x1))) := by
  unfold val_main_v109
  rw [v108_eq]
  exact bcast_col _ _

private theorem v110_eq : val_main_v110 (F := F) x0 x1 x2 x5 x6 = scatV (xrOf x1) (wfOf x2) (perEntry x0) (volOf x5) (volOf x6) := by
  unfold val_main_v110
  rw [v103_eq, v109_eq, v93_eq]
  rfl

private theorem v114_eq : val_main_v114 (F := F) x3 = perEntry x3 := by
  unfold val_main_v114 val_main_v113 val_main_v112
  exact rep8_col x3 _ _ _

private theorem v117_eq : val_main_v117 (F := F) x4 = perEntry x4 := by
  unfold val_main_v117 val_main_v116 val_main_v115
  exact rep8_col x4 _ _ _

private theorem v118_eq : val_main_v118 (F := F) x7 = volOf x7 := by
  rfl

private theorem v123_eq : val_main_v123 (F := F) x1 = norm (safe (xrOf x1)) := by
  unfold val_main_v123 val_main_v120 val_main_v122
  rw [v46_eq]
  rfl

private theorem v124_eq : val_main_v124 (F := F) x1 = col (norm (safe (xrOf x1))) := by
  unfold val_main_v124
  rw [v123_eq]
  exact bcast_col _ _

private theorem v125_eq : val_main_v125 (F := F) x1 x7 = atSafe (xrOf x1) (volOf x7) := by
  unfold val_main_v125
  rw [v118_eq, v124_eq]
  rfl

private theorem v126_eq : val_main_v126 (F := F) x8 = volOf x8 := by
  rfl

private theorem v131_eq : val_main_v131 (F := F) x1 = norm (safe (xrOf x1)) := by
  unfold val_main_v131 val_main_v128 val_main_v130
  rw [v46_eq]
  rfl

private theorem v132_eq : val_main_v132 (F := F) x1 = col (norm (safe (xrOf x1))) := by
  unfold val_main_v132
  rw [v131_eq]
  exact bcast_col _ _

private theorem v133_eq : val_main_v133 (F := F) x1 x8 = atSafe (xrOf x1) (volOf x8) := by
  unfold val_main_v133
  rw [v126_eq, v132_eq]
  rfl

private theorem v135_eq : val_main_v135 (F := F) x1 x4 x8 = scuR (xrOf x1) (perEntry x4) (volOf x8) := by
  unfold val_main_v135 val_main_v134
  rw [v117_eq, v133_eq]
  rfl

private theorem v136_eq : val_main_v136 (F := F) x1 x3 x4 x7 x8 = semuR (xrOf x1) (perEntry x3) (perEntry x4) (volOf x8) (volOf x7) := by
  unfold val_main_v136 val_main_v134
  rw [v117_eq, v133_eq, v114_eq, v125_eq]
  rfl

private theorem v139_eq : val_main_v139 (F := F) x1 x3 x7 = semidxR (xrOf x1) (perEntry x3) (volOf x7) := by
  unfold val_main_v139 val_main_v138 val_main_v137
  rw [v33_eq, v125_eq, v114_eq, v45_eq]
  rfl

private theorem v140_eq : val_main_v140 (F := F) x7 = volOf x7 := by
  rfl

private theorem v145_eq : val_main_v145 (F := F) x1 x3 x7 = norm (semidxR (xrOf x1) (perEntry x3) (volOf x7)) := by
  unfold val_main_v145 val_main_v142 val_main_v144
  rw [v139_eq]
  rfl

private theorem v146_eq : val_main_v146 (F := F) x1 x3 x7 = col (norm (semidxR (xrOf x1) (perEntry x3) (volOf x7))) := by
  unfold val_main_v146
  rw [v145_eq]
  exact bcast_col _ _

private theorem v147_eq : val_main_v147 (F := F) x1 x3 x4 x7 x8 = newSemR (xrOf x1) (perEntry x3) (perEntry x4) (volOf x8) (volOf x7) := by
  unfold val_main_v147
  rw [v140_eq, v146_eq, v136_eq]
  rfl

private theorem v149_eq : val_main_v149 (F := F) x8 = volOf x8 := by
  rfl

private theorem v154_eq : val_main_v154 (F := F) x1 = norm (oob (xrOf x1)) := by
  unfold val_main_v154 val_main_v151 val_main_v153
  rw [v47_eq]
  rfl

private theorem v155_eq : val_main_v155 (F := F) x1 = col (norm (oob (xrOf x1))) := by
  unfold val_main_v155
  rw [v154_eq]
  exact bcast_col _ _

private theorem v156_eq : val_main_v156 (F := F) x1 x4 x8 = newScR (xrOf x1) (perEntry x4) (volOf x8) := by
  unfold val_main_v156
  rw [v149_eq, v155_eq, v135_eq]
  rfl

end Stages

/-- The new value volume. -/
theorem v111_eq (x0 : A3.Idx → F .f32) (x1 : A5.Idx → BitVec 32) (x2 : A4.Idx → F .f32) (x5 x6 : Vol.Idx → F .f32) :
    val_main_v111 (F := F) x0 x1 x2 x5 x6 = unflat (scatV (xrOf x1) (wfOf x2) (perEntry x0) (volOf x5) (volOf x6)) := by
  unfold val_main_v111
  rw [v110_eq]
  rfl

/-- The new weight volume. -/
theorem v102_eq (x1 : A5.Idx → BitVec 32) (x2 : A4.Idx → F .f32) (x6 : Vol.Idx → F .f32) :
    val_main_v102 (F := F) x1 x2 x6 = unflat (scatW (xrOf x1) (wfOf x2) (volOf x6)) := by
  unfold val_main_v102
  rw [v101_eq]
  rfl

/-- The new label volume. -/
theorem v148_eq (x1 : A5.Idx → BitVec 32) (x3 : A3.Idx → BitVec 32) (x4 : A3.Idx → F .f32) (x7 : Vol.Idx → BitVec 32) (x8 : Vol.Idx → F .f32) :
    val_main_v148 (F := F) x1 x3 x4 x7 x8 = unflat (newSemR (xrOf x1) (perEntry x3) (perEntry x4) (volOf x8) (volOf x7)) := by
  unfold val_main_v148
  rw [v147_eq]
  rfl

/-- The new score volume. -/
theorem v157_eq (x1 : A5.Idx → BitVec 32) (x4 : A3.Idx → F .f32) (x8 : Vol.Idx → F .f32) :
    val_main_v157 (F := F) x1 x4 x8 = unflat (newScR (xrOf x1) (perEntry x4) (volOf x8)) := by
  unfold val_main_v157
  rw [v156_eq]
  rfl

end Cert.ReferenceIdeal.RefValue

end
-- ==== Proof.Bits.lean ====
/-
  A valid entry's voxel number is a voxel: with each coordinate in [0, 256) the 32-bit (x·256 + y)·256 + z does not wrap
  and is below 256³.
-/
import proofs.«422224_j54460185313483_3_alg».proof.Proof.Spec

namespace Cert.Fusion

open Idealize.ShloMosaic Idealize.ShloMosaic.ValueIdx

/-- A conjunction of one-bit words is one exactly when both are. -/
private theorem andi_one {c d : BitVec 1} : IntOp.andi c d = 1#1 ↔ c = 1#1 ∧ d = 1#1 := by
  revert c d; decide

/-- The word of a truth value is one exactly when it is true. -/
private theorem ofBool_one {b : Bool} : BitVec.ofBool b = 1#1 ↔ b = true := by
  cases b <;> decide

/-- A word in [0, 256) read signed is below 256 read unsigned. -/
private theorem toNat_lt_256 (a : BitVec 32) (h0 : (0#32).sle a = true) (h1 : a.slt 256#32 = true) : a.toNat < 256 := by
  rw [BitVec.sle_iff_toInt_le] at h0
  rw [BitVec.slt_iff_toInt_lt] at h1
  have e0 : (0#32).toInt = 0 := by decide
  have e1 : (256#32).toInt = 256 := by decide
  rw [e0] at h0
  rw [e1] at h1
  rw [BitVec.toInt_eq_toNat_cond] at h0 h1
  split at h0 <;> split at h1 <;> omega

/-- Three words in [0, 256), read signed, combine without wrapping. -/
private theorem flat_range (a b c : BitVec 32) (ha0 : (0#32).sle a = true) (ha1 : a.slt 256#32 = true)
    (hb0 : (0#32).sle b = true) (hb1 : b.slt 256#32 = true) (hc0 : (0#32).sle c = true) (hc1 : c.slt 256#32 = true) :
    0 ≤ ((a * 256#32 + b) * 256#32 + c).toInt ∧ ((a * 256#32 + b) * 256#32 + c).toInt < 16777216 := by
  have ha := toNat_lt_256 a ha0 ha1
  have hb := toNat_lt_256 b hb0 hb1
  have hc := toNat_lt_256 c hc0 hc1
  have hn : ((a * 256#32 + b) * 256#32 + c).toNat = (a.toNat * 256 + b.toNat) * 256 + c.toNat := by
    simp only [BitVec.toNat_add, BitVec.toNat_mul, BitVec.toNat_ofNat]
    omega
  rw [BitVec.toInt_eq_toNat_cond, hn]
  split <;> omega

theorem valid_range (xr : E3.Idx → BitVec 32) (e : E.Idx) (h : valid xr e = 1#1) :
    0 ≤ (flat xr e).toInt ∧ (flat xr e).toInt < 16777216 := by
  unfold valid at h
  simp only [andi_one, IntOp.cmpi, ofBool_one] at h
  obtain ⟨⟨⟨⟨⟨h0, h1⟩, h2⟩, h3⟩, h4⟩, h5⟩ := h
  exact flat_range _ _ _ h0 h1 h2 h3 h4 h5

/-- An entry that is not valid has validity word zero (a one-bit word is zero or one). -/
theorem valid_eq_zero_of_ne (xr : E3.Idx → BitVec 32) (e : E.Idx) (h : valid xr e ≠ 1#1) : valid xr e = 0#1 := by
  generalize valid xr e = c at h ⊢
  revert c; decide

end Cert.Fusion
-- ==== Proof.LibScatterFold.lean ====
/-
  General facts about a scatter that WRITES (the body returns the update) read as a left fold over the updates in
  row-major order, and about the result index of a scatter along the one axis of a rank-1 array at one-component indices.
-/
import Idealize.ShloMosaic.PureOps.ShapeOps
import Idealize.ShloMosaic.PureOps.Dims
import Idealize.ShloMosaic.Lib.ValueIdx
import Idealize.ShloMosaic.Lib.StableHlo.Predicate

namespace Idealize.ShloMosaic.ScatterFold

open Idealize.ShloMosaic Idealize.ShloMosaic.ValueIdx Idealize.ShloMosaic.StableHlo.Predicate

/-- Two step functions that agree on every member of the list fold to the same value. -/
private theorem foldl_congr_mem {β γ : Type} (l : List γ) (f g : β → γ → β) (h : ∀ r n, n ∈ l → f r n = g r n) (x : β) :
    l.foldl f x = l.foldl g x := by
  induction l generalizing x with
  | nil => rfl
  | cons a l ih =>
    simp only [List.foldl_cons]
    rw [h x a (List.mem_cons_self ..)]
    exact ih (fun r n hn => h r n (List.mem_cons_of_mem _ hn)) _

open Classical in
/-- A fold of steps, member n of the list writing v n at the element t n when there is one and nothing otherwise: if
    every write that lands on i writes g i, the fold holds g i at i when some member lands there, and the start value
    otherwise. -/
private theorem foldl_set_apply {α ι κ : Type} (t : κ → Option ι) (v : κ → α) (g : ι → α)
    (step : (ι → α) → κ → ι → α)
    (hnone : ∀ r n, t n = none → step r n = r)
    (hhit : ∀ r n k, t n = some k → step r n k = v n)
    (hmiss : ∀ r n k i, t n = some k → i ≠ k → step r n i = r i)
    (h : ∀ n i, t n = some i → v n = g i) (l : List κ) (x : ι → α) (i : ι) :
    (l.foldl step x) i = if ∃ n ∈ l, t n = some i then g i else x i := by
  induction l generalizing x with
  | nil => simp
  | cons a l ih =>
    rw [List.foldl_cons, ih]
    rcases hta : t a with _ | k
    · have e : (∃ n ∈ a :: l, t n = some i) ↔ ∃ n ∈ l, t n = some i := by
        constructor
        · rintro ⟨n, hn, hi⟩
          rcases List.mem_cons.1 hn with rfl | hn
          · rw [hta] at hi; cases hi
          · exact ⟨n, hn, hi⟩
        · rintro ⟨n, hn, hi⟩
          exact ⟨n, List.mem_cons_of_mem _ hn, hi⟩
      rw [hnone x a hta]
      simp only [e]
    · by_cases hik : i = k
      · subst hik
        have e : ∃ n ∈ a :: l, t n = some i := ⟨a, List.mem_cons_self .., hta⟩
        rw [if_pos e, hhit x a i hta, h a i hta]
        simp only [ite_self]
      · have e : (∃ n ∈ a :: l, t n = some i) ↔ ∃ n ∈ l, t n = some i := by
          constructor
          · rintro ⟨n, hn, hi⟩
            rcases List.mem_cons.1 hn with rfl | hn
            · rw [hta] at hi; exact absurd (Option.some.inj hi) (fun hk => hik hk.symm)
            · exact ⟨n, hn, hi⟩
          · rintro ⟨n, hn, hi⟩
            exact ⟨n, List.mem_cons_of_mem _ hn, hi⟩
        rw [hmiss x a k i hta hik]
        simp only [e]

/-- Two update arrays that agree at every update that lands inside the operand scatter to the same result: a dropped
    update is never read. -/
theorem scatter_congr_upd {α : Type} {s si u : Shape} {w : Nat} (d : ScatterDims s si u) (f : α → α → α)
    (x : s.Idx → α) (idx : IVec si w) (upd upd' : u.Idx → α)
    (h : ∀ j, d.resultIdx? j idx ≠ none → upd j = upd' j) :
    Host.scatter d f x idx upd = Host.scatter d f x idx upd' := by
  unfold Host.scatter
  apply foldl_congr_mem
  intro r n _
  have hj := h (u.rowMajor.symm n)
  generalize d.resultIdx? (u.rowMajor.symm n) idx = o at hj
  cases o with
  | none => rfl
  | some i => simp only []; rw [hj (by simp)]

/-- The scatter's step at an update that is dropped changes nothing. -/
private theorem step_none {α : Type} {s si u : Shape} {w : Nat} (d : ScatterDims s si u) (f : α → α → α) (idx : IVec si w)
    (upd : u.Idx → α) (r : s.Idx → α) (n : Fin u.numel) (hn : d.resultIdx? (u.rowMajor.symm n) idx = none) :
    (match d.resultIdx? (u.rowMajor.symm n) idx with
      | some i => fun i' => if i' = i then f (r i) (upd (u.rowMajor.symm n)) else r i'
      | none => r) = r := by
  rw [hn]

/-- The writing scatter's step at an update that lands on k holds the update at k. -/
private theorem step_hit {α : Type} {s si u : Shape} {w : Nat} (d : ScatterDims s si u) (idx : IVec si w)
    (upd : u.Idx → α) (r : s.Idx → α) (n : Fin u.numel) (k : s.Idx) (hn : d.resultIdx? (u.rowMajor.symm n) idx = some k) :
    (match d.resultIdx? (u.rowMajor.symm n) idx with
      | some i => fun i' => if i' = i then (fun _ b => b) (r i) (upd (u.rowMajor.symm n)) else r i'
      | none => r) k = upd (u.rowMajor.symm n) := by
  rw [hn]; simp

/-- The scatter's step at an update that lands on k changes no other element. -/
private theorem step_miss {α : Type} {s si u : Shape} {w : Nat} (d : ScatterDims s si u) (f : α → α → α) (idx : IVec si w)
    (upd : u.Idx → α) (r : s.Idx → α) (n : Fin u.numel) (k i : s.Idx) (hn : d.resultIdx? (u.rowMajor.symm n) idx = some k)
    (hik : i ≠ k) :
    (match d.resultIdx? (u.rowMajor.symm n) idx with
      | some i => fun i' => if i' = i then f (r i) (upd (u.rowMajor.symm n)) else r i'
      | none => r) i = r i := by
  rw [hn]; simp [hik]

open Classical in
/-- When every update that lands on element i carries the same value g i, the written array holds g i at every element
    some update lands on and the operand elsewhere: the order of the writes does not matter. -/
theorem scatter_set_of_const {α : Type} {s si u : Shape} {w : Nat} (d : ScatterDims s si u)
    (x : s.Idx → α) (idx : IVec si w) (upd : u.Idx → α) (g : s.Idx → α)
    (h : ∀ j i, d.resultIdx? j idx = some i → upd j = g i) :
    Host.scatter d (fun _ b => b) x idx upd = fun i => if ∃ j, d.resultIdx? j idx = some i then g i else x i := by
  funext i
  unfold Host.scatter
  have key := foldl_set_apply (fun n : Fin u.numel => d.resultIdx? (u.rowMajor.symm n) idx) (fun n => upd (u.rowMajor.symm n)) g _
    (step_none d (fun _ b => b) idx upd) (step_hit d idx upd) (step_miss d (fun _ b => b) idx upd)
    (fun n k hk => h _ k hk) (List.finRange u.numel) x i
  have e : (∃ n ∈ List.finRange u.numel, d.resultIdx? (u.rowMajor.symm n) idx = some i) ↔ ∃ j, d.resultIdx? j idx = some i := by
    constructor
    · rintro ⟨n, _, hn⟩
      exact ⟨_, hn⟩
    · rintro ⟨j, hj⟩
      exact ⟨u.rowMajor j, List.mem_finRange _, by rw [Equiv.symm_apply_apply]; exact hj⟩
  by_cases hE : ∃ j, d.resultIdx? j idx = some i
  · rw [if_pos hE]
    rw [if_pos (e.2 hE)] at key
    exact key
  · rw [if_neg hE]
    rw [if_neg (fun hc => hE (e.1 hc))] at key
    exact key

/-- Along the one axis of a rank-1 array, at one-component indices (the printed dimension numbers, each by rfl): update
    j lands at its index read SIGNED when that is inside the array, and is dropped otherwise. -/
theorem resultIdx_take {N n w : Nat} (d : ScatterDims ⟨1, ![N]⟩ ⟨2, ![n, 1]⟩ ⟨1, ![n]⟩)
    (huw : d.updateWindowDims = []) (hins : d.insertedWindowDims = [0]) (hsd : d.scatterDimsToOperandDims = [0])
    (hivd : d.indexVectorDim = 1) (idx : IVec ⟨2, ![n, 1]⟩ w) (j : Fin n) :
    d.resultIdx? (ix1 j) idx =
      if h : 0 ≤ (idx (ixP j)).toInt ∧ (idx (ixP j)).toInt < N then
        some (ix1 ⟨(idx (ixP j)).toInt.toNat, by omega⟩)
      else none := by
  have hk : (0 : Fin 1) ∉ d.sKept := by
    simp [ScatterDims.sKept, Shape.kept, hins]
  have hm : (0 : Fin 1) ∈ d.scatterDimsToOperandDims := by rw [hsd]; exact List.mem_singleton.mpr rfl
  have hsi : d.siIdx (ix1 j) ⟨d.scatterDimsToOperandDims.idxOf (0 : Fin 1), List.idxOf_lt_length_iff.2 hm⟩ = ixP j := by
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 j : (⟨1, ![n]⟩ : Shape).Idx) X).val = j.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hstart : ∀ a : Fin 1, d.start (ix1 j) idx a = (idx (ixP j)).toInt := by
    intro a
    have ha0 : a = 0 := Subsingleton.elim _ _
    subst ha0
    unfold ScatterDims.start
    rw [dif_pos hm, hsi]
  have hwin : ∀ a : Fin 1, d.window (ix1 j) a = 0 := by
    intro a
    have ha0 : a = 0 := Subsingleton.elim _ _
    subst ha0
    unfold ScatterDims.window
    rw [dif_neg hk]
  have hsz : ∀ a : Fin 1, (⟨1, ![N]⟩ : Shape).size a = N := by
    intro a
    have ha0 : a = 0 := Subsingleton.elim _ _
    subst ha0; rfl
  unfold ScatterDims.resultIdx?
  by_cases hc : 0 ≤ (idx (ixP j)).toInt ∧ (idx (ixP j)).toInt < N
  · have hall : ∀ a, 0 ≤ d.start (ix1 j) idx a + d.window (ix1 j) a ∧ d.start (ix1 j) idx a + d.window (ix1 j) a < (⟨1, ![N]⟩ : Shape).size a := by
      intro a
      rw [hstart, hwin, hsz]
      simpa using hc
    rw [dif_pos hc, dif_pos hall]
    congr 1
    funext a
    have ha0 : a = 0 := Subsingleton.elim _ _
    subst ha0
    apply Fin.ext
    show (d.start (ix1 j) idx 0 + (d.window (ix1 j) 0 : Int)).toNat = (idx (ixP j)).toInt.toNat
    rw [hstart, hwin]
    simp
  · have hall : ¬ ∀ a, 0 ≤ d.start (ix1 j) idx a + d.window (ix1 j) a ∧ d.start (ix1 j) idx a + d.window (ix1 j) a < (⟨1, ![N]⟩ : Shape).size a := by
      intro hh
      apply hc
      have := hh 0
      rw [hstart, hwin, hsz] at this
      simpa using this
    rw [dif_neg hc, dif_neg hall]

end Idealize.ShloMosaic.ScatterFold
-- ==== Proof.Bridge.lean ====
/-
  The dense form and the scattered form compute the same four voxel arrays, on the extended reals.

  Weights and values. Every entry that writes voxel i writes the same update, a function of i alone, so the scattered
  write leaves that function at the voxels some valid entry hits and the old contents elsewhere. The dense form computes
  that function at every voxel; at a voxel no valid entry hits the three sums are empty, so the weight gets old + 0 and
  the value, its count being 0, keeps the old value. The two per-voxel sums agree because an invalid entry adds zero
  (at voxel 0 in one form, at the trash slot in the other).

  Labels and scores. Both forms write the same per-entry update at the same indices wherever the index is a voxel; they
  differ only at invalid entries, whose index is the sentinel and whose write is dropped.
-/
import proofs.«422224_j54460185313483_3_alg».proof.Proof.Spec
import proofs.«422224_j54460185313483_3_alg».proof.Proof.Bits
import proofs.«422224_j54460185313483_3_alg».proof.Proof.LibScatterFold
import Idealize.ShloMosaic.PureOps.Ideal.Laws
import Idealize.ShloMosaic.Lib.StableHlo.Predicate

noncomputable section

namespace Cert.Fusion

open Idealize.ShloMosaic Idealize.ShloMosaic.ValueIdx

variable (xr : E3.Idx → BitVec 32) (wf vf : E.Idx → Ideal .f32) (idf : E.Idx → BitVec 32) (scf : E.Idx → Ideal .f32)
  (vvol wvol scvol : Vx.Idx → Ideal .f32) (semvol : Vx.Idx → BitVec 32)

/-! ## Words -/

private theorem nvox_toInt : nvox.toInt = 16777216 := by decide

/-- A word that reads as a nonnegative integer is not below zero. -/
private theorem cmpi_slt_zero {v : BitVec 32} (h : 0 ≤ v.toInt) : IntOp.cmpi .slt v 0#32 = 0#1 := by
  show BitVec.ofBool (decide (v.toInt < (0#32 : BitVec 32).toInt)) = 0#1
  rw [show (0#32 : BitVec 32).toInt = 0 from rfl, decide_eq_false (by omega)]
  rfl

/-- Counting from the end leaves a nonnegative index alone. -/
private theorem norm_of_nonneg (v : E.Idx → BitVec 32) (e : E.Idx) (h : 0 ≤ (v e).toInt) : norm v e = v e := by
  unfold norm
  rw [cmpi_slt_zero h, select_zero]

/-- Counting from the end reads only the entry's own word. -/
private theorem norm_congr {v v' : E.Idx → BitVec 32} {e : E.Idx} (h : v e = v' e) : norm v e = norm v' e := by
  unfold norm
  rw [h]

/-- An entry is valid, and both its indices are its voxel number, a voxel; or invalid, its indices the sentinel and 0. -/
private theorem entry_cases (e : E.Idx) :
    (valid xr e = 1#1 ∧ oob xr e = flat xr e ∧ safe xr e = flat xr e ∧ 0 ≤ (flat xr e).toInt ∧ (flat xr e).toInt < 16777216)
    ∨ (valid xr e = 0#1 ∧ oob xr e = nvox ∧ safe xr e = 0#32) := by
  by_cases h : valid xr e = 1#1
  · refine Or.inl ⟨h, ?_, ?_, valid_range xr e h⟩
    · unfold oob; rw [h, select_one]
    · unfold safe; rw [h, select_one]
  · have h0 := valid_eq_zero_of_ne xr e h
    refine Or.inr ⟨h0, ?_, ?_⟩
    · unfold oob; rw [h0, select_zero]
    · unfold safe; rw [h0, select_zero]

private theorem safe_nonneg (e : E.Idx) : 0 ≤ (safe xr e).toInt := by
  rcases entry_cases xr e with ⟨_, _, hs, h0, _⟩ | ⟨_, _, hs⟩
  · rw [hs]; exact h0
  · rw [hs]; decide

/-! ## Indices -/

/-- The voxel an entry's safe index names. -/
private def vx (e : E.Idx) : Vx.Idx := ix1 ⟨min (safe xr e).toInt.toNat 16777215, by omega⟩

/-- A voxel as an index of the array with the trash slot. -/
private def up (p : Vx.Idx) : Vx1.Idx := ix1 ⟨(p 0).val, by have h : (p 0).val < 16777216 := (p 0).isLt; omega⟩

private theorem up_inj {p q : Vx.Idx} (h : up p = up q) : p = q := by
  rw [eq_ix1 p, eq_ix1 q]
  have h0 := congrArg (fun i : Vx1.Idx => (i 0).val) h
  exact congrArg ix1 (Fin.ext h0)

private theorem ofFin_eq_ix1 {n : Nat} (p : Fin n) : Shape.Idx.ofFin p = ix1 p := by
  funext d; match d with | ⟨0, _⟩ => rfl

/-- Reading a voxel array through a column of one-component indices: at the index read signed and clamped. -/
private theorem gather_col {α : Type} (x : Vx.Idx → α) (v : E.Idx → BitVec 32) (e : E.Idx) :
    Host.gather g16 x (col v) e = x (ix1 ⟨min (v e).toInt.toNat 16777215, by omega⟩) := by
  obtain ⟨j, rfl⟩ : ∃ j, e = ix1 j := ⟨e 0, eq_ix1 e⟩
  have h := StableHlo.Predicate.gather_take g16 rfl rfl rfl rfl x (col v) j (by decide)
  rw [ofFin_eq_ix1, ofFin_eq_ix1] at h
  exact h

/-- Where a write through a column of one-component indices lands in the voxel array. -/
private theorem ri16 (v : E.Idx → BitVec 32) (e : E.Idx) :
    d16.resultIdx? e (col v) =
      if h : 0 ≤ (v e).toInt ∧ (v e).toInt < 16777216 then some (ix1 ⟨(v e).toInt.toNat, by omega⟩) else none := by
  obtain ⟨j, rfl⟩ : ∃ j, e = ix1 j := ⟨e 0, eq_ix1 e⟩
  exact ScatterFold.resultIdx_take d16 rfl rfl rfl rfl (col v) j

/-- The same in the array with the trash slot. -/
private theorem ri17 (v : E.Idx → BitVec 32) (e : E.Idx) :
    d17.resultIdx? e (col v) =
      if h : 0 ≤ (v e).toInt ∧ (v e).toInt < 16777217 then some (ix1 ⟨(v e).toInt.toNat, by omega⟩) else none := by
  obtain ⟨j, rfl⟩ : ∃ j, e = ix1 j := ⟨e 0, eq_ix1 e⟩
  exact ScatterFold.resultIdx_take d17 rfl rfl rfl rfl (col v) j

/-- A valid entry's voxel is its voxel number. -/
private theorem vx_val {e : E.Idx} (hs : safe xr e = flat xr e) (h0 : 0 ≤ (flat xr e).toInt)
    (h1 : (flat xr e).toInt < 16777216) : vx xr e = ix1 ⟨(flat xr e).toInt.toNat, by omega⟩ := by
  unfold vx
  refine congrArg ix1 (Fin.ext ?_)
  show min (safe xr e).toInt.toNat 16777215 = (flat xr e).toInt.toNat
  rw [hs]; omega

/-- A voxel array read at an entry's safe index is read at the entry's voxel. -/
private theorem atSafe_apply {α : Type} (x : Vx.Idx → α) (e : E.Idx) : atSafe xr x e = x (vx xr e) := by
  unfold atSafe vx
  rw [gather_col]
  refine congrArg x (congrArg ix1 (Fin.ext ?_))
  show min (norm (safe xr) e).toInt.toNat 16777215 = min (safe xr e).toInt.toNat 16777215
  rw [norm_of_nonneg _ _ (safe_nonneg xr e)]

/-- The sentinel-marked write lands at a valid entry's voxel and drops an invalid entry. -/
private theorem ri_oob (e : E.Idx) :
    d16.resultIdx? e (col (norm (oob xr))) = if valid xr e = 1#1 then some (vx xr e) else none := by
  rw [ri16]
  rcases entry_cases xr e with ⟨hv, ho, hs, h0, h1⟩ | ⟨hv, ho, _⟩
  · have hn : norm (oob xr) e = flat xr e := by rw [norm_of_nonneg _ _ (by rw [ho]; exact h0), ho]
    rw [if_pos hv, dif_pos (by rw [hn]; exact ⟨h0, h1⟩), vx_val xr hs h0 h1]
    refine congrArg some (congrArg ix1 (Fin.ext ?_))
    show (norm (oob xr) e).toInt.toNat = _
    rw [hn]
  · have hn : norm (oob xr) e = nvox := by rw [norm_of_nonneg _ _ (by rw [ho]; decide), ho]
    rw [if_neg (by rw [hv]; decide), dif_neg (by rw [hn, nvox_toInt]; omega)]

/-- The safe write lands at every entry's voxel. -/
private theorem ri_safe (e : E.Idx) : d16.resultIdx? e (col (safe xr)) = some (vx xr e) := by
  rw [ri16]
  have h0 := safe_nonneg xr e
  have h1 : (safe xr e).toInt < 16777216 := by
    rcases entry_cases xr e with ⟨_, _, hs, _, h1⟩ | ⟨_, _, hs⟩
    · rw [hs]; exact h1
    · rw [hs]; decide
  rw [dif_pos ⟨h0, h1⟩]
  refine congrArg some (congrArg ix1 (Fin.ext ?_))
  show (safe xr e).toInt.toNat = min (safe xr e).toInt.toNat 16777215
  omega

/-- In the array with the trash slot an entry lands on voxel p exactly when it is valid and p is its voxel. -/
private theorem ri17_iff (e : E.Idx) (p : Vx.Idx) :
    d17.resultIdx? e (col (oob xr)) = some (up p) ↔ valid xr e = 1#1 ∧ vx xr e = p := by
  rw [ri17]
  rcases entry_cases xr e with ⟨hv, ho, hs, h0, h1⟩ | ⟨hv, ho, _⟩
  · rw [dif_pos (by rw [ho]; exact ⟨h0, by omega⟩), vx_val xr hs h0 h1]
    constructor
    · intro h
      refine ⟨hv, up_inj ?_⟩
      rw [← Option.some.inj h]
      refine congrArg ix1 (Fin.ext ?_)
      show (flat xr e).toInt.toNat = (oob xr e).toInt.toNat
      rw [ho]
    · rintro ⟨_, rfl⟩
      refine congrArg some (congrArg ix1 (Fin.ext ?_))
      show (oob xr e).toInt.toNat = (flat xr e).toInt.toNat
      rw [ho]
  · constructor
    · intro h
      exfalso
      rw [dif_pos (by rw [ho, nvox_toInt]; omega)] at h
      have h2 := congrArg (fun i : Vx1.Idx => (i 0).val) (Option.some.inj h)
      have h3 : (oob xr e).toInt.toNat = (p 0).val := h2
      rw [ho, nvox_toInt] at h3
      have h4 : (p 0).val < 16777216 := (p 0).isLt
      omega
    · rintro ⟨h, _⟩
      rw [hv] at h
      exact absurd h (by decide)

/-! ## The per-voxel sums -/

private theorem f0_eq : (f0 : Ideal .f32) = 0 := Ideal.ofBits_zero_f32

private theorem f1_eq : (f1 : Ideal .f32) = 1 := by
  show Ideal.ofBits .f32 0x3F800000#32 = 1
  simp [Ideal.ofBits, Ideal.ieee, -EReal.coe_mul]; norm_num

/-- The accumulating write on the extended reals: each element plus the sum of the updates landing on it. -/
private theorem scatterAdd_apply {s si u : Shape} {w : Nat} (d : ScatterDims s si u) (x : s.Idx → Ideal .f32)
    (idx : IVec si w) (upd : u.Idx → Ideal .f32) (i : s.Idx) :
    Host.scatterAdd d x idx upd i = x i + ∑ j ∈ Finset.univ.filter (fun j => d.resultIdx? j idx = some i), upd j := rfl

/-- The dense per-voxel sum is the sum over the valid entries at the voxel. -/
private theorem vsum_apply (u : E.Idx → Ideal .f32) (p : Vx.Idx) :
    vsum xr u p = ∑ j ∈ Finset.univ.filter (fun j => valid xr j = 1#1 ∧ vx xr j = p), u j := by
  unfold vsum
  rw [scatterAdd_apply, f0_eq, zero_add]
  refine Finset.sum_congr (Finset.filter_congr fun j _ => ?_) fun _ _ => rfl
  exact ri17_iff xr j p

/-- The scattered per-voxel sum is the sum over all entries whose safe voxel it is. -/
private theorem vsumR_apply (u : E.Idx → Ideal .f32) (p : Vx.Idx) :
    vsumR xr u p = ∑ j ∈ Finset.univ.filter (fun j => vx xr j = p), u j := by
  unfold vsumR
  rw [scatterAdd_apply, f0_eq, zero_add]
  refine Finset.sum_congr (Finset.filter_congr fun j _ => ?_) fun _ _ => rfl
  rw [ri_safe]
  exact ⟨Option.some.inj, congrArg some⟩

/-- A per-entry quantity that is zero at invalid entries has the same per-voxel sums in both forms. -/
private theorem vsum_eq (u : E.Idx → Ideal .f32) (hu : ∀ e, valid xr e ≠ 1#1 → u e = 0) : vsum xr u = vsumR xr u := by
  funext p
  rw [vsum_apply, vsumR_apply]
  refine Finset.sum_subset (fun j hj => ?_) (fun j hj hn => ?_)
  · exact Finset.mem_filter.2 ⟨Finset.mem_univ _, (Finset.mem_filter.1 hj).2.2⟩
  · exact hu j fun hv => hn (Finset.mem_filter.2 ⟨Finset.mem_univ _, hv, (Finset.mem_filter.1 hj).2⟩)

/-- At a voxel no valid entry hits the dense sum is empty. -/
private theorem vsum_not_hit (u : E.Idx → Ideal .f32) (p : Vx.Idx) (h : ¬ ∃ j, valid xr j = 1#1 ∧ vx xr j = p) :
    vsum xr u p = 0 := by
  rw [vsum_apply]
  refine Finset.sum_eq_zero fun j hj => ?_
  exact absurd ⟨j, (Finset.mem_filter.1 hj).2⟩ h

private theorem wc_invalid (e : E.Idx) (h : valid xr e ≠ 1#1) : wc xr wf e = 0 := by
  unfold wc; rw [valid_eq_zero_of_ne xr e h, select_zero, f0_eq]
private theorem uc_invalid (e : E.Idx) (h : valid xr e ≠ 1#1) : uc xr wf vf e = 0 := by
  unfold uc; rw [valid_eq_zero_of_ne xr e h, select_zero, f0_eq]

/-! ## Which voxels the sentinel-marked write reaches -/

private theorem ri_oob_some {j : E.Idx} {i : Vx.Idx} (h : d16.resultIdx? j (col (norm (oob xr))) = some i) :
    valid xr j = 1#1 ∧ vx xr j = i := by
  rw [ri_oob] at h
  by_cases hv : valid xr j = 1#1
  · rw [if_pos hv] at h; exact ⟨hv, Option.some.inj h⟩
  · rw [if_neg hv] at h; exact absurd h (by simp)

private theorem hit_iff (i : Vx.Idx) :
    (∃ j, d16.resultIdx? j (col (norm (oob xr))) = some i) ↔ ∃ j, valid xr j = 1#1 ∧ vx xr j = i := by
  refine exists_congr fun j => ⟨ri_oob_some xr, fun h => ?_⟩
  rw [ri_oob, if_pos h.1, h.2]

theorem denseW_eq : denseW (F := Ideal) xr wf wvol = scatW xr wf wvol := by
  have key := ScatterFold.scatter_set_of_const d16 wvol (col (norm (oob xr))) (wupd xr wf wvol)
    (fun i => wvol i + vsumR xr (wc xr wf) i) (fun j i hji => by
      obtain ⟨_, rfl⟩ := ri_oob_some xr hji
      unfold wupd
      rw [atSafe_apply, atSafe_apply]
      rfl)
  unfold denseW scatW updW
  rw [key]
  funext i
  by_cases h : ∃ j, d16.resultIdx? j (col (norm (oob xr))) = some i
  · rw [if_pos h, vsum_eq xr _ (wc_invalid xr wf)]
    rfl
  · rw [if_neg h, vsum_not_hit xr _ i (fun h' => h ((hit_iff xr i).2 h'))]
    exact add_zero _

/-! ## The count -/

private theorem cmpf_ogt_one {x y : Ideal .f32} (h : y < x) : FloatOps.cmpf .ogt x y = 1#1 := by
  show BitVec.ofBool (decide (y < x)) = 1#1
  rw [decide_eq_true h]; rfl
private theorem cmpf_ogt_zero {x y : Ideal .f32} (h : ¬ y < x) : FloatOps.cmpf .ogt x y = 0#1 := by
  show BitVec.ofBool (decide (y < x)) = 0#1
  rw [decide_eq_false h]; rfl

private theorem ind_valid (e : E.Idx) (h : valid xr e = 1#1) : ind (F := Ideal) xr e = 1 := by
  unfold ind; rw [h, select_one, f1_eq]

/-- The count is positive at a voxel some valid entry hits. -/
private theorem cnt_hit (i : Vx.Idx) (h : ∃ j, valid xr j = 1#1 ∧ vx xr j = i) :
    FloatOps.cmpf .ogt (vsum xr (ind (F := Ideal) xr) i) f0 = 1#1 := by
  refine cmpf_ogt_one ?_
  rw [f0_eq, vsum_apply]
  obtain ⟨j0, hj0⟩ := h
  have hmem : j0 ∈ Finset.univ.filter (fun j => valid xr j = 1#1 ∧ vx xr j = i) :=
    Finset.mem_filter.2 ⟨Finset.mem_univ _, hj0⟩
  have hle := Finset.single_le_sum (f := fun j => ind (F := Ideal) xr j)
    (fun j hj => by rw [ind_valid xr j (Finset.mem_filter.1 hj).2.1]; exact zero_le_one) hmem
  rw [ind_valid xr j0 hj0.1] at hle
  exact lt_of_lt_of_le zero_lt_one hle

/-- The count is zero at a voxel no valid entry hits. -/
private theorem cnt_not_hit (i : Vx.Idx) (h : ¬ ∃ j, valid xr j = 1#1 ∧ vx xr j = i) :
    FloatOps.cmpf .ogt (vsum xr (ind (F := Ideal) xr) i) f0 = 0#1 := by
  refine cmpf_ogt_zero ?_
  rw [f0_eq, vsum_not_hit xr _ i h]
  exact lt_irrefl _

theorem denseV_eq : denseV (F := Ideal) xr wf vf vvol wvol = scatV xr wf vf vvol wvol := by
  have key := ScatterFold.scatter_set_of_const d16 vvol (col (norm (oob xr))) (vupd xr wf vf vvol wvol)
    (fun i => FloatOps.hostDivf (FloatOps.addf (FloatOps.mulf (wvol i) (vvol i)) (vsumR xr (uc xr wf vf) i))
      (Scalar.select (FloatOps.cmpf .oeq (FloatOps.addf (wvol i) (vsumR xr (wc xr wf) i)) f0) f1
        (FloatOps.addf (wvol i) (vsumR xr (wc xr wf) i)))) (fun j i hji => by
      obtain ⟨_, rfl⟩ := ri_oob_some xr hji
      unfold vupd wupd
      simp only [atSafe_apply])
  unfold denseV scatV updV
  rw [key]
  funext i
  beta_reduce
  by_cases h : ∃ j, d16.resultIdx? j (col (norm (oob xr))) = some i
  · rw [if_pos h, cnt_hit xr i ((hit_iff xr i).1 h), select_one, vsum_eq xr _ (wc_invalid xr wf),
      vsum_eq xr _ (uc_invalid xr wf vf)]
    rfl
  · rw [if_neg h, cnt_not_hit xr i (fun h' => h ((hit_iff xr i).2 h')), select_zero]

/-! ## What an entry reads as the old label and score -/

/-- A word in the voxel range passes the bounds test. -/
private theorem inb_of_range {v : E.Idx → BitVec 32} {e : E.Idx} (h0 : 0 ≤ (v e).toInt) (h1 : (v e).toInt < 16777216) :
    inb v e = 1#1 := by
  have a : IntOp.cmpi .sge (v e) 0#32 = 1#1 := by
    show BitVec.ofBool (decide ((0#32 : BitVec 32).toInt ≤ (v e).toInt)) = 1#1
    rw [show (0#32 : BitVec 32).toInt = 0 from rfl, decide_eq_true h0]; rfl
  have b : IntOp.cmpi .sle (v e) 16777215#32 = 1#1 := by
    show BitVec.ofBool (decide ((v e).toInt ≤ (16777215#32 : BitVec 32).toInt)) = 1#1
    rw [show (16777215#32 : BitVec 32).toInt = 16777215 from by decide, decide_eq_true (by omega)]; rfl
  unfold inb; rw [a, b]; rfl

/-- On a valid entry the masked read at the sentinel-marked index is the read at the safe index. -/
private theorem old_valid {α : Type} (x : Vx.Idx → α) (z : α) (e : E.Idx) (h : valid xr e = 1#1) :
    Scalar.select (inb (norm (oob xr)) e) (Host.gather g16 x (col (norm (oob xr))) e) z = atSafe xr x e := by
  rcases entry_cases xr e with ⟨_, ho, hs, h0, h1⟩ | ⟨hv, _, _⟩
  · have hn : norm (oob xr) e = flat xr e := by rw [norm_of_nonneg _ _ (by rw [ho]; exact h0), ho]
    rw [inb_of_range (by rw [hn]; exact h0) (by rw [hn]; exact h1), select_one]
    unfold atSafe
    rw [gather_col, gather_col]
    refine congrArg x (congrArg ix1 (Fin.ext ?_))
    show min (norm (oob xr) e).toInt.toNat 16777215 = min (norm (safe xr) e).toInt.toNat 16777215
    rw [norm_congr (ho.trans hs.symm)]
  · rw [hv] at h; exact absurd h (by decide)

private theorem oldScK_valid (e : E.Idx) (h : valid xr e = 1#1) :
    oldScK xr scvol (inb (norm (oob xr))) e = atSafe xr scvol e := old_valid xr scvol f0 e h
private theorem oldIdK_valid (e : E.Idx) (h : valid xr e = 1#1) :
    oldIdK xr semvol (inb (norm (oob xr))) e = atSafe xr semvol e := old_valid xr semvol 0#32 e h

theorem newSc_eq : newScK (F := Ideal) xr scf scvol (inb (norm (oob xr))) = newScR xr scf scvol := by
  unfold newScK newScR
  refine ScatterFold.scatter_congr_upd d16 _ scvol _ _ _ fun j hj => ?_
  have hv : valid xr j = 1#1 := by
    by_contra hv
    rw [ri_oob, if_neg hv] at hj
    exact hj rfl
  unfold scuK scuR fuseSc
  rw [oldScK_valid xr scvol j hv]

/-! ## Where the label is written -/

private theorem andi_zero (b : BitVec 1) : IntOp.andi 0#1 b = 0#1 := by
  show 0#1 &&& b = 0#1
  simp

/-- The two forms write the label at the same index: the voxel of a valid entry whose label changes, else the sentinel. -/
private theorem semidx_eq : semidxK xr idf semvol (inb (norm (oob xr))) = semidxR xr idf semvol := by
  funext e
  unfold semidxK semidxR fuseIdx
  rcases entry_cases xr e with ⟨hv, ho, _, _, h1⟩ | ⟨hv, ho, _⟩
  · have hne : flat xr e ≠ nvox := fun hh => by rw [hh, nvox_toInt] at h1; omega
    have hc : IntOp.cmpi .ne (flat xr e) nvox = 1#1 := by
      show BitVec.ofBool (flat xr e != nvox) = 1#1
      rw [bne_iff_ne.2 hne]; rfl
    rw [oldIdK_valid xr semvol e hv, ho, hv, hc]
  · have hc : IntOp.cmpi .ne nvox nvox = 0#1 := by decide
    rw [ho, hv, hc, andi_zero, andi_zero, select_zero, select_zero]

/-- An entry whose label write lands on a voxel is valid. -/
private theorem semidx_some_valid {j : E.Idx}
    (hj : d16.resultIdx? j (col (norm (semidxR xr idf semvol))) ≠ none) : valid xr j = 1#1 := by
  by_contra hv
  have h0 := valid_eq_zero_of_ne xr j hv
  have hs : semidxR xr idf semvol j = nvox := by
    unfold semidxR; rw [h0, andi_zero, select_zero]
  have hn : norm (semidxR xr idf semvol) j = nvox := by rw [norm_of_nonneg _ _ (by rw [hs]; decide), hs]
  rw [ri16, dif_neg (by rw [hn, nvox_toInt]; omega)] at hj
  exact hj rfl

theorem newSem_eq : newSemK (F := Ideal) xr idf scf scvol semvol (inb (norm (oob xr))) = newSemR xr idf scf scvol semvol := by
  unfold newSemK newSemR
  rw [semidx_eq]
  refine ScatterFold.scatter_congr_upd d16 _ semvol _ _ _ fun j hj => ?_
  have hv := semidx_some_valid xr idf semvol hj
  unfold semuK semuR fuseId
  rw [oldIdK_valid xr semvol j hv, oldScK_valid xr scvol j hv]

end Cert.Fusion

end
-- ==== Proof.lean ====
/-
  The volume-fusion kernel against its reference, on the extended reals.

  Every surface point touches eight voxels; an entry (point, neighbour) has three integer coordinates, a weight, and
  its point's value, label and score. An entry is valid when its coordinates lie in the 256³ volume; its voxel is then
  (x·256 + y)·256 + z, and an invalid entry is sent to the sentinel 256³.

  The reference sums masked weights and weighted values per voxel, reads the sums back per entry, and writes each
  entry's updated weight and weighted mean at its voxel. All entries of one voxel write the same update, so the written
  volume holds that update at every voxel some valid entry hits and the old contents elsewhere. The kernel computes the
  same update densely over the whole volume from the per-voxel sums and a per-voxel count of valid entries: where the
  count is zero the sums are empty, the weight gets old + 0 and the value is kept. The label and score fusion is per
  entry in both programs, which differ only at invalid entries, whose write is dropped.

  The kernel program's frames are the generated ones; its values are read off the same run with the result buffers
  named, through its three calls (each pointwise on whole rows) and the host operations between them. The reference's
  run and its operations read one at a time are generated; that they are the scattered form is by hand, and the two
  forms agree by the argument above.
-/
import proofs.«422224_j54460185313483_3_alg».proof.Defs
import proofs.«422224_j54460185313483_3_alg».proof.Proof.Gen.Kernel
import proofs.«422224_j54460185313483_3_alg».proof.Proof.Gen.Kernel.Skeleton
import proofs.«422224_j54460185313483_3_alg».proof.Proof.Gen.Kernel.Launch
import proofs.«422224_j54460185313483_3_alg».proof.Proof.Gen.Kernel.Points
import proofs.«422224_j54460185313483_3_alg».proof.Proof.Gen.Kernel.Frame
import proofs.«422224_j54460185313483_3_alg».proof.Proof.Gen.KernelIdeal
import proofs.«422224_j54460185313483_3_alg».proof.Proof.Gen.KernelIdeal.Skeleton
import proofs.«422224_j54460185313483_3_alg».proof.Proof.Gen.KernelIdeal.Launch
import proofs.«422224_j54460185313483_3_alg».proof.Proof.Gen.KernelIdeal.Points
import proofs.«422224_j54460185313483_3_alg».proof.Proof.Gen.KernelIdeal.Frame
import proofs.«422224_j54460185313483_3_alg».proof.Proof.Gen.ReferenceIdeal
import proofs.«422224_j54460185313483_3_alg».proof.Proof.Gen.ReferenceIdeal.Run
import proofs.«422224_j54460185313483_3_alg».proof.Proof.Gen.ReferenceIdeal.Read
import proofs.«422224_j54460185313483_3_alg».proof.Proof.Gen.Pre_finite_inputs
import proofs.«422224_j54460185313483_3_alg».proof.Proof.KFrame
import proofs.«422224_j54460185313483_3_alg».proof.Proof.KHostA
import proofs.«422224_j54460185313483_3_alg».proof.Proof.KHostB
import proofs.«422224_j54460185313483_3_alg».proof.Proof.RefValue
import proofs.«422224_j54460185313483_3_alg».proof.Proof.Bridge
import Idealize.ShloMosaic.Adequacy
import Idealize.ShloMosaic.Init

set_option maxRecDepth 16384

noncomputable section

namespace Cert.Proof

open Idealize.ShloMosaic Idealize.SL.Sem Cert.Fusion

attribute [local instance] Cert.Kernel.Gen.facts Cert.KernelIdeal.Gen.facts Cert.ReferenceIdeal.Gen.facts Cert.Pre_finite_inputs.Gen.facts

theorem frame_k : Cert.frame_Kernel := fun m ρ _ => Cert.Kernel.Gen.frame m ρ
theorem frame_ki : Cert.frame_KernelIdeal := fun m ρ _ => Cert.KernelIdeal.Gen.frame m ρ
/-- The reference's frame is its run with the results forgotten. -/
theorem frame_ri : Cert.frame_ReferenceIdeal := fun m ρ _ =>
  (θ_run Cert.ReferenceIdeal.defs _ _).mono (fun _ h c => (h c).2.2.2.2) (Cert.ReferenceIdeal.Value.run (F := Ideal) m ρ)

open Cert.KernelIdeal.HostRun in
/-- Both programs end with the dense form of the fusion in their result buffers: the kernel by its calls and host
    stretches, the reference because its scattered form equals the dense one. -/
theorem algebraic : Cert.algebraic_KernelIdeal_ReferenceIdeal := by
  intro m ρ m' ρ' _ hagree
  refine ⟨fun c => unflat (denseV (xr m c) (wf m c) (vf m c) (vvol m c) (wvol m c)),
    fun c => unflat (denseW (xr m c) (wf m c) (wvol m c)),
    fun c => unflat (newSemK (xr m c) (idf m c) (scf m c) (scvol m c) (semvol m c) (inb (norm (oob (xr m c))))),
    fun c => unflat (newScK (xr m c) (scf m c) (scvol m c) (inb (norm (oob (xr m c))))), ?_, ?_⟩
  · refine (θ_run Cert.KernelIdeal.defs _ _).mono (fun r h c => ?_) (Cert.KernelIdeal.RunAt.run_at (F := Ideal) m ρ)
    obtain ⟨h32, h31, h98, h89, hargs⟩ := h c
    exact ⟨h32.trans (res_v32 m ρ c), h31.trans (res_v31 m ρ c), h98.trans (res_v98 m ρ c), h89.trans (res_v89 m ρ c), hargs⟩
  · refine (θ_run Cert.ReferenceIdeal.defs _ _).mono (fun r h c => ?_) (Cert.ReferenceIdeal.Value.run (F := Ideal) m' ρ')
    obtain ⟨h111, h102, h148, h157, hargs⟩ := h c
    obtain ⟨a0, a1, a2, a3, a4, a5, a6, a7, a8⟩ := hagree c
    refine ⟨h111.trans ?_, h102.trans ?_, h148.trans ?_, h157.trans ?_, hargs⟩
    · rw [Cert.ReferenceIdeal.Read.val_main_v111_eq, Cert.ReferenceIdeal.RefValue.v111_eq, a0, a1, a2, a5, a6]
      exact congrArg unflat (denseV_eq _ _ _ _ _).symm
    · rw [Cert.ReferenceIdeal.Read.val_main_v102_eq, Cert.ReferenceIdeal.RefValue.v102_eq, a1, a2, a6]
      exact congrArg unflat (denseW_eq _ _ _).symm
    · rw [Cert.ReferenceIdeal.Read.val_main_v148_eq, Cert.ReferenceIdeal.RefValue.v148_eq, a1, a3, a4, a7, a8]
      exact congrArg unflat (newSem_eq _ _ _ _ _).symm
    · rw [Cert.ReferenceIdeal.Read.val_main_v157_eq, Cert.ReferenceIdeal.RefValue.v157_eq, a1, a4, a8]
      exact congrArg unflat (newSc_eq _ _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
